-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x1024x1024 : Shape := ⟨3, ![6, 1024, 1024]⟩
abbrev S1x1024x1024 : Shape := ⟨3, ![1, 1024, 1024]⟩
abbrev S512x6 : Shape := ⟨2, ![512, 6]⟩
abbrev S7x16 : Shape := ⟨2, ![7, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S512x2 : Shape := ⟨2, ![512, 2]⟩
abbrev S_ : Shape := ⟨0, ![]⟩

class Facts : Prop where
  bcast_S_S6x1024x1024 : S_.BroadcastsInDim S6x1024x1024 (![] : Fin 0 → Fin S6x1024x1024.rank)
  reducesTo_S6x1024x1024_S_d0_1_2 : S6x1024x1024.ReducesTo [0, 1, 2] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S512x6 : S_.BroadcastsInDim S512x6 (![] : Fin 0 → Fin S512x6.rank)
  reducesTo_S512x6_S_d0_1 : S512x6.ReducesTo [0, 1] S_
  bcast_S_S7x16 : S_.BroadcastsInDim S7x16 (![] : Fin 0 → Fin S7x16.rank)
  reducesTo_S7x16_S_d0_1 : S7x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S16x1 .f32) (main_arg8 : FVec F S1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S16 .f32) (main_arg5 : FVec F S16x16 .f32) (main_arg6 : FVec F S16 .f32) (main_arg7 : FVec F S16x1 .f32) (main_arg8 : FVec F S1 .f32) (main_v13 : IVec S_ 1) (main_v16 : IVec S7x16 1) : IVec S_ 1 :=
  let main_c_5 : IVec S_ 1 := constantI S_ 1 1#1
  let main_v17 : IVec S_ 1 := (fun x v => Host.reduce IntOp.andi x v reducesTo_S7x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S6x1024x1024 .f32) (main_arg1 : FVec F S1x1024x1024 .f32) (main_arg2 : FVec F S512x6 .f32) (main_arg3 : FVec F S7x16 .f32) (main_arg4 : FVec F S16 .f32) (main_arg5 : FVec F S16x16 .f32) (main_arg6 : FVec F S16 .f32) (main_arg7 : FVec F S16x1 .f32) (main_arg8 : FVec F S1 .f32) (main_arg9 : IVec S512x2 32) : IVec S_ 1 :=
  let main_v0 : FVec F S6x1024x1024 .f32 := Host.absf main_arg0
  let main_cst : FVec F S_ .f32 := constant S_ .f32 0x7F800000#32
  let main_v1 : FVec F S6x1024x1024 .f32 := broadcastInDim S6x1024x1024 ![] bcast_S_S6x1024x1024 main_cst
  let main_v2 : IVec S6x1024x1024 1 := cmpf .olt main_v0 main_v1
  let main_c : IVec S_ 1 := constantI S_ 1 1#1
  let main_v3 : IVec S_ 1 := (fun x v => Host.reduce IntOp.andi x v reducesTo_S6x1024x1024_S_d0_1_2 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S512x6 .f32 := Host.absf main_arg2
  let main_cst_2 : FVec F S_ .f32 := constant S_ .f32 0x7F800000#32
  let main_v10 : FVec F S512x6 .f32 := broadcastInDim S512x6 ![] bcast_S_S512x6 main_cst_2
  let main_v11 : IVec S512x6 1 := cmpf .olt main_v9 main_v10
  let main_c_3 : IVec S_ 1 := constantI S_ 1 1#1
  let main_v12 : IVec S_ 1 := (fun x v => Host.reduce IntOp.andi x v reducesTo_S512x6_S_d0_1 h_S_) main_v11 main_c_3
  let main_v13 : IVec S_ 1 := andi main_v8 main_v12
  let main_v14 : FVec F S7x16 .f32 := Host.absf main_arg3
  let main_cst_4 : FVec F S_ .f32 := constant S_ .f32 0x7F800000#32
  let main_v15 : FVec F S7x16 .f32 := broadcastInDim S7x16 ![] bcast_S_S7x16 main_cst_4
  let main_v16 : IVec S7x16 1 := cmpf .olt main_v14 main_v15
  fn_part1 (F := F) main_arg4 main_arg5 main_arg6 main_arg7 main_arg8 main_v13 main_v16
-- ==== Kernel.lean ====
abbrev S6x1024x1024 : Shape := ⟨3, ![6, 1024, 1024]⟩
abbrev S1x1024x1024 : Shape := ⟨3, ![1, 1024, 1024]⟩
abbrev S512x6 : Shape := ⟨2, ![512, 6]⟩
abbrev S7x16 : Shape := ⟨2, ![7, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S512x2 : Shape := ⟨2, ![512, 2]⟩
abbrev S512x1 : Shape := ⟨2, ![512, 1]⟩
abbrev S512 : Shape := ⟨1, ![512]⟩
abbrev S_ : Shape := ⟨0, ![]⟩
abbrev S512x1x6 : Shape := ⟨3, ![512, 1, 6]⟩
abbrev S512x1x128x128 : Shape := ⟨4, ![512, 1, 128, 128]⟩
abbrev S1x1x128x128 : Shape := ⟨4, ![1, 1, 128, 128]⟩
abbrev S6x128x128 : Shape := ⟨3, ![6, 128, 128]⟩
abbrev S1x128x128 : Shape := ⟨3, ![1, 128, 128]⟩
abbrev S2 : Shape := ⟨1, ![2]⟩
abbrev S1x1x6 : Shape := ⟨3, ![1, 1, 6]⟩
abbrev S6 : Shape := ⟨1, ![6]⟩
abbrev S6x1x1 : Shape := ⟨3, ![6, 1, 1]⟩
abbrev S7x128x128 : Shape := ⟨3, ![7, 128, 128]⟩
abbrev S128x128x7 : Shape := ⟨3, ![128, 128, 7]⟩
abbrev S16384x7 : Shape := ⟨2, ![16384, 7]⟩
abbrev S16384x16 : Shape := ⟨2, ![16384, 16]⟩
abbrev S1x16 : Shape := ⟨2, ![1, 16]⟩
abbrev S16384x1 : Shape := ⟨2, ![16384, 1]⟩
abbrev S1x1 : Shape := ⟨2, ![1, 1]⟩
abbrev S128 : Shape := ⟨1, ![128]⟩
abbrev S128x128 : Shape := ⟨2, ![128, 128]⟩
abbrev S512x1x1 : Shape := ⟨3, ![512, 1, 1]⟩
abbrev S512x128x128 : Shape := ⟨3, ![512, 128, 128]⟩
abbrev S8388608 : Shape := ⟨1, ![8388608]⟩
abbrev S1x8388608 : Shape := ⟨2, ![1, 8388608]⟩
abbrev S2x8388608 : Shape := ⟨2, ![2, 8388608]⟩
abbrev S512x16384 : Shape := ⟨2, ![512, 16384]⟩
abbrev S3x8388608 : Shape := ⟨2, ![3, 8388608]⟩

abbrev nBuf : Space → Nat
  | .hbm => 86
  | .vmem => 11
  | .smem => 2
  | _ => 0

abbrev bufTy : (tb : Table) → Fin (tcTables nBuf tb) → BufTy
  | .hbm, ⟨0, _⟩ => ⟨S6x1024x1024, .f32⟩
  | .hbm, ⟨1, _⟩ => ⟨S1x1024x1024, .f32⟩
  | .hbm, ⟨2, _⟩ => ⟨S512x6, .f32⟩
  | .hbm, ⟨3, _⟩ => ⟨S7x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S512x2, .i32⟩
  | .hbm, ⟨10, _⟩ => ⟨S512x1, .i32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512x1, .i32⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512x1x6, .f32⟩
  | .hbm, ⟨35, _⟩ => ⟨S512x1x128x128, .f32⟩
  | .hbm, ⟨36, _⟩ => ⟨S512x1, .i32⟩
  | .hbm, ⟨37, _⟩ => ⟨S512, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512x1, .i32⟩
  | .hbm, ⟨47, _⟩ => ⟨S512, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S512, .i32⟩
  | .hbm, ⟨52, _⟩ => ⟨S512, .i32⟩
  | .hbm, ⟨53, _⟩ => ⟨S_, .i32⟩
  | .hbm, ⟨54, _⟩ => ⟨S512, .i32⟩
  | .hbm, ⟨55, _⟩ => ⟨S512, .i32⟩
  | .hbm, ⟨56, _⟩ => ⟨S128, .i32⟩
  | .hbm, ⟨57, _⟩ => ⟨S128, .i32⟩
  | .hbm, ⟨58, _⟩ => ⟨S128x128, .i32⟩
  | .hbm, ⟨59, _⟩ => ⟨S128x128, .i32⟩
  | .hbm, ⟨60, _⟩ => ⟨S_, .i32⟩
  | .hbm, ⟨61, _⟩ => ⟨S512, .i32⟩
  | .hbm, ⟨62, _⟩ => ⟨S512, .i32⟩
  | .hbm, ⟨63, _⟩ => ⟨S512x1x1, .i32⟩
  | .hbm, ⟨64, _⟩ => ⟨S1x128x128, .i32⟩
  | .hbm, ⟨65, _⟩ => ⟨S512x128x128, .i32⟩
  | .hbm, ⟨66, _⟩ => ⟨S512x128x128, .i32⟩
  | .hbm, ⟨67, _⟩ => ⟨S512x128x128, .i32⟩
  | .hbm, ⟨68, _⟩ => ⟨S_, .i32⟩
  | .hbm, ⟨69, _⟩ => ⟨S512, .i32⟩
  | .hbm, ⟨70, _⟩ => ⟨S512, .i32⟩
  | .hbm, ⟨71, _⟩ => ⟨S512x1x1, .i32⟩
  | .hbm, ⟨72, _⟩ => ⟨S1x128x128, .i32⟩
  | .hbm, ⟨73, _⟩ => ⟨S512x128x128, .i32⟩
  | .hbm, ⟨74, _⟩ => ⟨S512x128x128, .i32⟩
  | .hbm, ⟨75, _⟩ => ⟨S512x128x128, .i32⟩
  | .hbm, ⟨76, _⟩ => ⟨S8388608, .i32⟩
  | .hbm, ⟨77, _⟩ => ⟨S8388608, .i32⟩
  | .hbm, ⟨78, _⟩ => ⟨S1x8388608, .i32⟩
  | .hbm, ⟨79, _⟩ => ⟨S1x8388608, .i32⟩
  | .hbm, ⟨80, _⟩ => ⟨S2x8388608, .i32⟩
  | .hbm, ⟨81, _⟩ => ⟨S512, .i32⟩
  | .hbm, ⟨82, _⟩ => ⟨S512x16384, .i32⟩
  | .hbm, ⟨83, _⟩ => ⟨S8388608, .i32⟩
  | .hbm, ⟨84, _⟩ => ⟨S1x8388608, .i32⟩
  | .hbm, ⟨85, _⟩ => ⟨S3x8388608, .i32⟩
  | .local _ .vmem, ⟨0, _⟩ => ⟨S512x1x6, .f32⟩
  | .local _ .vmem, ⟨1, _⟩ => ⟨S7x16, .f32⟩
  | .local _ .vmem, ⟨2, _⟩ => ⟨S16, .f32⟩
  | .local _ .vmem, ⟨3, _⟩ => ⟨S16x16, .f32⟩
  | .local _ .vmem, ⟨4, _⟩ => ⟨S16, .f32⟩
  | .local _ .vmem, ⟨5, _⟩ => ⟨S16x1, .f32⟩
  | .local _ .vmem, ⟨6, _⟩ => ⟨S1, .f32⟩
  | .local _ .vmem, ⟨7, _⟩ => ⟨S1x1x128x128, .f32⟩
  | .local _ .vmem, ⟨8, _⟩ => ⟨S1x1x128x128, .f32⟩
  | .local _ .vmem, ⟨9, _⟩ => ⟨S6x128x128, .f32⟩
  | .local _ .vmem, ⟨10, _⟩ => ⟨S1x128x128, .f32⟩
  | .local _ .smem, ⟨0, _⟩ => ⟨S512, .i32⟩
  | .local _ .smem, ⟨1, _⟩ => ⟨S512, .i32⟩
  | _, _ => ⟨S6x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v5 : Ref sig .tc := ⟨.hbm, 29, rfl⟩
abbrev main_c_3 : Ref sig .tc := ⟨.hbm, 30, rfl⟩
abbrev main_v6 : Ref sig .tc := ⟨.hbm, 31, rfl⟩
abbrev main_c_4 : Ref sig .tc := ⟨.hbm, 32, rfl⟩
abbrev main_v8 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_5 : Ref sig .tc := ⟨.hbm, 38, rfl⟩
abbrev main_c_6 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_7 : Ref sig .tc := ⟨.hbm, 48, rfl⟩
abbrev main_c_8 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_c_9 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_c_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v7 : Ref sig .tc := ⟨.smem, 0, rfl⟩
abbrev main_v9 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨1, ![512], ![false]⟩

abbrev pre0 : Pipeline.Prefetch sig := ⟨2, ![main_v7.idx, main_v9.idx], fun | 0 => main_v7.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) (v3 : BitVec 32) : Fin 3 → Nat :=
  let c0_i32_0 : BitVec 32 := 0#32
  ![0, v1.toNat, v3.toNat]

def k0_off3 (v1 : BitVec 32) (v3 : BitVec 32) : Fin 3 → Nat :=
  let c0_i32_1 : BitVec 32 := 0#32
  ![0, v1.toNat, v3.toNat]

def k0_chk1 (v1 : BitVec 32) (v3 : BitVec 32) : Prop :=
  (∀ a, (k0_off2 v1 v3) a + S6x128x128.size a ≤ S6x1024x1024.size a) ∧
  (∀ a, (k0_off3 v1 v3) a + S1x128x128.size a ≤ S1x1024x1024.size a)
instance k0_chk1.dec : ∀ (v1 : BitVec 32) (v3 : BitVec 32), Decidable (k0_chk1 v1 v3) := fun v1 v3 => decidable_of_iff' _ (Iff.of_eq (k0_chk1.eq_1 v1 v3))
theorem k0_off2_inb : ∀ (v1 : BitVec 32) (v3 : BitVec 32) (k0_hw1 : k0_chk1 v1 v3), ∀ a, (k0_off2 v1 v3) a + S6x128x128.size a ≤ S6x1024x1024.size a := fun v1 v3 k0_hw1 => k0_hw1.1
theorem k0_off3_inb : ∀ (v1 : BitVec 32) (v3 : BitVec 32) (k0_hw1 : k0_chk1 v1 v3), ∀ a, (k0_off3 v1 v3) a + S1x128x128.size a ≤ S1x1024x1024.size a := fun v1 v3 k0_hw1 => k0_hw1.2

def k0_off4 (i : grid0.Coords) : Fin 3 → Nat :=
  let arg0 : BitVec 32 := BitVec.ofNat 32 (i 0).val
  let v18 : Index := Scalar.indexCast arg0
  let c0_11 : Index := 0#32
  let c0_12 : Index := 0#32
  ![v18.toNat, 0, 0]
def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S512x1x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S512x2_S512x1_0_0 : S512x2.Slices ![0, 0] S512x1
  shapeCasts_S512x1_S512 : S512x1.ShapeCasts S512
  bcast_S_S512 : S_.BroadcastsInDim S512 (![] : Fin 0 → Fin S512.rank)
  slices_S512x2_S512x1_0_1 : S512x2.Slices ![0, 1] S512x1
  bcast_S512x6_S512x1x6_0_2 : S512x6.BroadcastsInDim S512x1x6 (![0, 2] : Fin 2 → Fin S512x1x6.rank)
  numel1_S1 : S1.numel = 1
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S6x128x128_S6x128x128_0_0_0 : ∀ a, (![0, 0, 0] : Fin 3 → Nat) a + S6x128x128.size a ≤ S6x128x128.size a
  h_S6x128x128 : 0 < S6x128x128.numel
  inb_S1x128x128_S1x128x128_0_0_0 : ∀ a, (![0, 0, 0] : Fin 3 → Nat) a + S1x128x128.size a ≤ S1x128x128.size a
  h_S1x128x128 : 0 < S1x128x128.numel
  h_S1x1x6 : 0 < S1x1x6.numel
  shapeCasts_S1x1x6_S6 : S1x1x6.ShapeCasts S6
  shapeCasts_S6_S6x1x1 : S6.ShapeCasts S6x1x1
  broadcasts_S6x1x1_S6x128x128 : S6x1x1.Broadcasts S6x128x128
  concatenates_S6x128x128_S1x128x128_S7x128x128_d0 : Shape.Concatenates [S6x128x128, S1x128x128] S7x128x128 0
  transposes_S7x128x128_p1_2_0_S128x128x7 : S7x128x128.Transposes [1, 2, 0] S128x128x7
  shapeCasts_S128x128x7_S16384x7 : S128x128x7.ShapeCasts S16384x7
  inb_S7x16_S7x16_0_0 : ∀ a, (![0, 0] : Fin 2 → Nat) a + S7x16.size a ≤ S7x16.size a
  h_S7x16 : 0 < S7x16.numel
  inb_S16_S16_0 : ∀ a, (![0] : Fin 1 → Nat) a + S16.size a ≤ S16.size a
  h_S16 : 0 < S16.numel
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  bitsLt_bf16_f32 : FTy.bits .bf16 < FTy.bits .f32
  shapeCasts_S16_S1x16 : S16.ShapeCasts S1x16
  broadcasts_S1x16_S16384x16 : S1x16.Broadcasts S16384x16
  shapeCasts_S1_S1x1 : S1.ShapeCasts S1x1
  broadcasts_S1x1_S16384x1 : S1x1.Broadcasts S16384x1
  shapeCasts_S16384x1_S1x1x128x128 : S16384x1.ShapeCasts S1x1x128x128
  inb_S1x1x128x128_S1x1x128x128_0_0_0_0 : ∀ a, (![0, 0, 0, 0] : Fin 4 → Nat) a + S1x1x128x128.size a ≤ S1x1x128x128.size a
  h_S1x1x128x128 : 0 < S1x1x128x128.numel
  bcast_S128_S128x128_0 : S128.BroadcastsInDim S128x128 (![0] : Fin 1 → Fin S128x128.rank)
  bcast_S128_S128x128_1 : S128.BroadcastsInDim S128x128 (![1] : Fin 1 → Fin S128x128.rank)
  bcast_S512_S512x1x1_0 : S512.BroadcastsInDim S512x1x1 (![0] : Fin 1 → Fin S512x1x1.rank)
  bcast_S128x128_S1x128x128_1_2 : S128x128.BroadcastsInDim S1x128x128 (![1, 2] : Fin 2 → Fin S1x128x128.rank)
  bcast_S512x1x1_S512x128x128_0_1_2 : S512x1x1.BroadcastsInDim S512x128x128 (![0, 1, 2] : Fin 3 → Fin S512x128x128.rank)
  bcast_S1x128x128_S512x128x128_0_1_2 : S1x128x128.BroadcastsInDim S512x128x128 (![0, 1, 2] : Fin 3 → Fin S512x128x128.rank)
  shapeCasts_S512x128x128_S8388608 : S512x128x128.ShapeCasts S8388608
  bcast_S8388608_S1x8388608_1 : S8388608.BroadcastsInDim S1x8388608 (![1] : Fin 1 → Fin S1x8388608.rank)
  concatenates_S1x8388608_S1x8388608_S2x8388608_d0 : Shape.Concatenates [S1x8388608, S1x8388608] S2x8388608 0
  bcast_S512_S512x16384_0 : S512.BroadcastsInDim S512x16384 (![0] : Fin 1 → Fin S512x16384.rank)
  shapeCasts_S512x16384_S8388608 : S512x16384.ShapeCasts S8388608
  concatenates_S1x8388608_S2x8388608_S3x8388608_d0 : Shape.Concatenates [S1x8388608, S2x8388608] S3x8388608 0
  dot_S16384x7_S7x16_S16384x16_1_0_0_1_n_n_wf : DotDims.WF S16384x7 S7x16 S16384x16 [1] [0] [0] [1] [] []
  dot_S16384x16_S16x16_S16384x16_1_0_0_1_n_n_wf : DotDims.WF S16384x16 S16x16 S16384x16 [1] [0] [0] [1] [] []
  dot_S16384x16_S16x1_S16384x1_1_0_0_1_n_n_wf : DotDims.WF S16384x16 S16x1 S16384x1 [1] [0] [0] [1] [] []
  hcc0_scratch2 : 9 + S2.numel ≤ 11
  hrank0 : 0 < grid0.rank
  k0_off1_inb : ∀ i : grid0.Coords, ∀ a, (k0_off1 i) a + S1.size a ≤ S512.size a
  k0_off4_inb : ∀ i : grid0.Coords, ∀ a, (k0_off4 i) a + S1x1x6.size a ≤ S512x1x6.size a
  hstage0_0 : ∀ j, (stage0_0 j).IsWhole
  nbuf0_0 : grid0.bufCount reads0_0 true = 1
  hreads0_0 : ∀ i i' : grid0.Coords, (∀ a, reads0_0 a = true → i a = i' a) → cc0_transform_2 i = cc0_transform_2 i'
  hinb0_0 : ∀ (i : grid0.Coords) a, (cc0_transform_2 i a + 1) * S512x1x6.size a ≤ S512x1x6.size a
  hwx0_0 : ∀ i : grid0.Coords, EltTy.bits .f32 = 32 ∨ (Rect.block (s := S512x1x6) S512x1x6.size (cc0_transform_2 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_3 i = cc0_transform_3 i'
  hinb0_1 : ∀ (i : grid0.Coords) a, (cc0_transform_3 i a + 1) * S7x16.size a ≤ S7x16.size a
  hwx0_1 : ∀ i : grid0.Coords, EltTy.bits .f32 = 32 ∨ (Rect.block (s := S7x16) S7x16.size (cc0_transform_3 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_4 i = cc0_transform_4 i'
  hinb0_2 : ∀ (i : grid0.Coords) a, (cc0_transform_4 i a + 1) * S16.size a ≤ S16.size a
  hwx0_2 : ∀ i : grid0.Coords, EltTy.bits .f32 = 32 ∨ (Rect.block (s := S16) S16.size (cc0_transform_4 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_5 i = cc0_transform_5 i'
  hinb0_3 : ∀ (i : grid0.Coords) a, (cc0_transform_5 i a + 1) * S16x16.size a ≤ S16x16.size a
  hwx0_3 : ∀ i : grid0.Coords, EltTy.bits .f32 = 32 ∨ (Rect.block (s := S16x16) S16x16.size (cc0_transform_5 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_6 i = cc0_transform_6 i'
  hinb0_4 : ∀ (i : grid0.Coords) a, (cc0_transform_6 i a + 1) * S16.size a ≤ S16.size a
  hwx0_4 : ∀ i : grid0.Coords, EltTy.bits .f32 = 32 ∨ (Rect.block (s := S16) S16.size (cc0_transform_6 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_7 i = cc0_transform_7 i'
  hinb0_5 : ∀ (i : grid0.Coords) a, (cc0_transform_7 i a + 1) * S16x1.size a ≤ S16x1.size a
  hwx0_5 : ∀ i : grid0.Coords, EltTy.bits .f32 = 32 ∨ (Rect.block (s := S16x1) S16x1.size (cc0_transform_7 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_8 i = cc0_transform_8 i'
  hinb0_6 : ∀ (i : grid0.Coords) a, (cc0_transform_8 i a + 1) * S1.size a ≤ S1.size a
  hwx0_6 : ∀ i : grid0.Coords, EltTy.bits .f32 = 32 ∨ (Rect.block (s := S1) S1.size (cc0_transform_8 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_9 i = cc0_transform_9 i'
  hinb0_7 : ∀ (i : grid0.Coords) a, (cc0_transform_9 i a + 1) * S1x1x128x128.size a ≤ S512x1x128x128.size a
  hwx0_7 : ∀ i : grid0.Coords, EltTy.bits .f32 = 32 ∨ (Rect.block (s := S512x1x128x128) S1x1x128x128.size (cc0_transform_9 i) (hinb0_7 i)).WholeWords (EltTy.packing .f32)

variable [Facts₀]

abbrev cc0_scratch2 : DmaSems sig S2 := SemArray.consecutive 9 S2 hcc0_scratch2
def dot_S16384x7_S7x16_S16384x16_1_0_0_1_n_n : DotDims S16384x7 S7x16 S16384x16 where
  lhsContracting := [1]
  rhsContracting := [0]
  lhsNonContracting := [0]
  rhsNonContracting := [1]
  lhsBatch := []
  rhsBatch := []
  wf := dot_S16384x7_S7x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

abbrev spec0_0 : Pipeline.WinSpec sig grid0.rank :=
  Pipeline.WinSpec.ofSpec (Memref.whole main_v10) S512x1x6.size reads0_0 false true 1 stage0_0 sem0_0 nbuf0_0 hstage0_0

abbrev spec0_1 : Pipeline.WinSpec sig grid0.rank :=
  Pipeline.WinSpec.ofSpec (Memref.whole main_arg3) S7x16.size reads0_1 false true 1 stage0_1 sem0_1 nbuf0_1 hstage0_1

abbrev spec0_2 : Pipeline.WinSpec sig grid0.rank :=
  Pipeline.WinSpec.ofSpec (Memref.whole main_arg4) S16.size reads0_2 false true 1 stage0_2 sem0_2 nbuf0_2 hstage0_2

abbrev spec0_3 : Pipeline.WinSpec sig grid0.rank :=
  Pipeline.WinSpec.ofSpec (Memref.whole main_arg5) S16x16.size reads0_3 false true 1 stage0_3 sem0_3 nbuf0_3 hstage0_3

abbrev spec0_4 : Pipeline.WinSpec sig grid0.rank :=
  Pipeline.WinSpec.ofSpec (Memref.whole main_arg6) S16.size reads0_4 false true 1 stage0_4 sem0_4 nbuf0_4 hstage0_4

abbrev spec0_5 : Pipeline.WinSpec sig grid0.rank :=
  Pipeline.WinSpec.ofSpec (Memref.whole main_arg7) S16x1.size reads0_5 false true 1 stage0_5 sem0_5 nbuf0_5 hstage0_5

abbrev spec0_6 : Pipeline.WinSpec sig grid0.rank :=
  Pipeline.WinSpec.ofSpec (Memref.whole main_arg8) S1.size reads0_6 false true 1 stage0_6 sem0_6 nbuf0_6 hstage0_6

abbrev spec0_7 : Pipeline.WinSpec sig grid0.rank :=
  Pipeline.WinSpec.ofSpec (Memref.whole main_v11) S1x1x128x128.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_2 | 1 => cc0_transform_3 | 2 => cc0_transform_4 | 3 => cc0_transform_5 | 4 => cc0_transform_6 | 5 => cc0_transform_7 | 6 => cc0_transform_8 | 7 => cc0_transform_9 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S6x1024x1024 : Shape := ⟨3, ![6, 1024, 1024]⟩
abbrev S1x1024x1024 : Shape := ⟨3, ![1, 1024, 1024]⟩
abbrev S512x6 : Shape := ⟨2, ![512, 6]⟩
abbrev S7x16 : Shape := ⟨2, ![7, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S512x2 : Shape := ⟨2, ![512, 2]⟩
abbrev S512x1 : Shape := ⟨2, ![512, 1]⟩
abbrev S512 : Shape := ⟨1, ![512]⟩
abbrev S_ : Shape := ⟨0, ![]⟩
abbrev S128 : Shape := ⟨1, ![128]⟩
abbrev S128x128 : Shape := ⟨2, ![128, 128]⟩
abbrev S512x1x1 : Shape := ⟨3, ![512, 1, 1]⟩
abbrev S1x128x128 : Shape := ⟨3, ![1, 128, 128]⟩
abbrev S512x128x128 : Shape := ⟨3, ![512, 128, 128]⟩
abbrev S8388608 : Shape := ⟨1, ![8388608]⟩
abbrev S1x8388608 : Shape := ⟨2, ![1, 8388608]⟩
abbrev S2x8388608 : Shape := ⟨2, ![2, 8388608]⟩
abbrev S7x1024x1024 : Shape := ⟨3, ![7, 1024, 1024]⟩
abbrev S8388608x1 : Shape := ⟨2, ![8388608, 1]⟩
abbrev S8388608x2 : Shape := ⟨2, ![8388608, 2]⟩
abbrev S7x8388608 : Shape := ⟨2, ![7, 8388608]⟩
abbrev S7x512x128x128 : Shape := ⟨4, ![7, 512, 128, 128]⟩
abbrev S512x7x128x128 : Shape := ⟨4, ![512, 7, 128, 128]⟩
abbrev S512x6x128x128 : Shape := ⟨4, ![512, 6, 128, 128]⟩
abbrev S512x6x1x1 : Shape := ⟨4, ![512, 6, 1, 1]⟩
abbrev S512x1x128x128 : Shape := ⟨4, ![512, 1, 128, 128]⟩
abbrev S512x128x128x7 : Shape := ⟨4, ![512, 128, 128, 7]⟩
abbrev S8388608x7 : Shape := ⟨2, ![8388608, 7]⟩
abbrev S8388608x16 : Shape := ⟨2, ![8388608, 16]⟩
abbrev S1x16 : Shape := ⟨2, ![1, 16]⟩
abbrev S1x1 : Shape := ⟨2, ![1, 1]⟩
abbrev S512x16384 : Shape := ⟨2, ![512, 16384]⟩
abbrev S3x8388608 : Shape := ⟨2, ![3, 8388608]⟩

abbrev nBuf : Space → Nat
  | .hbm => 120
  | .vmem => 0
  | .smem => 0
  | _ => 0

abbrev bufTy : (tb : Table) → Fin (tcTables nBuf tb) → BufTy
  | .hbm, ⟨0, _⟩ => ⟨S6x1024x1024, .f32⟩
  | .hbm, ⟨1, _⟩ => ⟨S1x1024x1024, .f32⟩
  | .hbm, ⟨2, _⟩ => ⟨S512x6, .f32⟩
  | .hbm, ⟨3, _⟩ => ⟨S7x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S512x2, .i32⟩
  | .hbm, ⟨10, _⟩ => ⟨S512x1, .i32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512x1, .i32⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S128, .i32⟩
  | .hbm, ⟨31, _⟩ => ⟨S128, .i32⟩
  | .hbm, ⟨32, _⟩ => ⟨S128x128, .i32⟩
  | .hbm, ⟨33, _⟩ => ⟨S128x128, .i32⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512x1x1, .i32⟩
  | .hbm, ⟨38, _⟩ => ⟨S1x128x128, .i32⟩
  | .hbm, ⟨39, _⟩ => ⟨S512x128x128, .i32⟩
  | .hbm, ⟨40, _⟩ => ⟨S512x128x128, .i32⟩
  | .hbm, ⟨41, _⟩ => ⟨S512x128x128, .i32⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512x1x1, .i32⟩
  | .hbm, ⟨46, _⟩ => ⟨S1x128x128, .i32⟩
  | .hbm, ⟨47, _⟩ => ⟨S512x128x128, .i32⟩
  | .hbm, ⟨48, _⟩ => ⟨S512x128x128, .i32⟩
  | .hbm, ⟨49, _⟩ => ⟨S512x128x128, .i32⟩
  | .hbm, ⟨50, _⟩ => ⟨S8388608, .i32⟩
  | .hbm, ⟨51, _⟩ => ⟨S8388608, .i32⟩
  | .hbm, ⟨52, _⟩ => ⟨S1x8388608, .i32⟩
  | .hbm, ⟨53, _⟩ => ⟨S1x8388608, .i32⟩
  | .hbm, ⟨54, _⟩ => ⟨S2x8388608, .i32⟩
  | .hbm, ⟨55, _⟩ => ⟨S7x1024x1024, .f32⟩
  | .hbm, ⟨56, _⟩ => ⟨S1x8388608, .i32⟩
  | .hbm, ⟨57, _⟩ => ⟨S8388608, .i32⟩
  | .hbm, ⟨58, _⟩ => ⟨S1x8388608, .i32⟩
  | .hbm, ⟨59, _⟩ => ⟨S8388608, .i32⟩
  | .hbm, ⟨60, _⟩ => ⟨S_, .i32⟩
  | .hbm, ⟨61, _⟩ => ⟨S8388608, .i32⟩
  | .hbm, ⟨62, _⟩ => ⟨S8388608, .i1⟩
  | .hbm, ⟨63, _⟩ => ⟨S_, .i32⟩
  | .hbm, ⟨64, _⟩ => ⟨S8388608, .i32⟩
  | .hbm, ⟨65, _⟩ => ⟨S8388608, .i32⟩
  | .hbm, ⟨66, _⟩ => ⟨S8388608, .i32⟩
  | .hbm, ⟨67, _⟩ => ⟨S_, .i32⟩
  | .hbm, ⟨68, _⟩ => ⟨S8388608, .i32⟩
  | .hbm, ⟨69, _⟩ => ⟨S8388608, .i1⟩
  | .hbm, ⟨70, _⟩ => ⟨S_, .i32⟩
  | .hbm, ⟨71, _⟩ => ⟨S8388608, .i32⟩
  | .hbm, ⟨72, _⟩ => ⟨S8388608, .i32⟩
  | .hbm, ⟨73, _⟩ => ⟨S8388608, .i32⟩
  | .hbm, ⟨74, _⟩ => ⟨S8388608x1, .i32⟩
  | .hbm, ⟨75, _⟩ => ⟨S8388608x1, .i32⟩
  | .hbm, ⟨76, _⟩ => ⟨S8388608x2, .i32⟩
  | .hbm, ⟨77, _⟩ => ⟨S7x8388608, .f32⟩
  | .hbm, ⟨78, _⟩ => ⟨S7x512x128x128, .f32⟩
  | .hbm, ⟨79, _⟩ => ⟨S512x7x128x128, .f32⟩
  | .hbm, ⟨80, _⟩ => ⟨S512x6x128x128, .f32⟩
  | .hbm, ⟨81, _⟩ => ⟨S512x6x1x1, .f32⟩
  | .hbm, ⟨82, _⟩ => ⟨S512x6x128x128, .f32⟩
  | .hbm, ⟨83, _⟩ => ⟨S512x6x128x128, .f32⟩
  | .hbm, ⟨84, _⟩ => ⟨S512x1x128x128, .f32⟩
  | .hbm, ⟨85, _⟩ => ⟨S512x7x128x128, .f32⟩
  | .hbm, ⟨86, _⟩ => ⟨S512x128x128x7, .f32⟩
  | .hbm, ⟨87, _⟩ => ⟨S8388608x7, .f32⟩
  | .hbm, ⟨88, _⟩ => ⟨S8388608x16, .f32⟩
  | .hbm, ⟨89, _⟩ => ⟨S1x16, .f32⟩
  | .hbm, ⟨90, _⟩ => ⟨S8388608x16, .f32⟩
  | .hbm, ⟨91, _⟩ => ⟨S8388608x16, .f32⟩
  | .hbm, ⟨92, _⟩ => ⟨S_, .f32⟩
  | .hbm, ⟨93, _⟩ => ⟨S8388608x16, .f32⟩
  | .hbm, ⟨94, _⟩ => ⟨S8388608x16, .f32⟩
  | .hbm, ⟨95, _⟩ => ⟨S8388608x16, .f32⟩
  | .hbm, ⟨96, _⟩ => ⟨S1x16, .f32⟩
  | .hbm, ⟨97, _⟩ => ⟨S8388608x16, .f32⟩
  | .hbm, ⟨98, _⟩ => ⟨S8388608x16, .f32⟩
  | .hbm, ⟨99, _⟩ => ⟨S_, .f32⟩
  | .hbm, ⟨100, _⟩ => ⟨S8388608x16, .f32⟩
  | .hbm, ⟨101, _⟩ => ⟨S8388608x16, .f32⟩
  | .hbm, ⟨102, _⟩ => ⟨S8388608x1, .f32⟩
  | .hbm, ⟨103, _⟩ => ⟨S1x1, .f32⟩
  | .hbm, ⟨104, _⟩ => ⟨S8388608x1, .f32⟩
  | .hbm, ⟨105, _⟩ => ⟨S8388608x1, .f32⟩
  | .hbm, ⟨106, _⟩ => ⟨S8388608x1, .f32⟩
  | .hbm, ⟨107, _⟩ => ⟨S8388608x1, .f32⟩
  | .hbm, ⟨108, _⟩ => ⟨S_, .f32⟩
  | .hbm, ⟨109, _⟩ => ⟨S8388608x1, .f32⟩
  | .hbm, ⟨110, _⟩ => ⟨S8388608x1, .f32⟩
  | .hbm, ⟨111, _⟩ => ⟨S_, .f32⟩
  | .hbm, ⟨112, _⟩ => ⟨S8388608x1, .f32⟩
  | .hbm, ⟨113, _⟩ => ⟨S8388608x1, .f32⟩
  | .hbm, ⟨114, _⟩ => ⟨S512x1x128x128, .f32⟩
  | .hbm, ⟨115, _⟩ => ⟨S512, .i32⟩
  | .hbm, ⟨116, _⟩ => ⟨S512x16384, .i32⟩
  | .hbm, ⟨117, _⟩ => ⟨S8388608, .i32⟩
  | .hbm, ⟨118, _⟩ => ⟨S1x8388608, .i32⟩
  | .hbm, ⟨119, _⟩ => ⟨S3x8388608, .i32⟩
  | _, _ => ⟨S6x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c_3 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call2_cst : Ref sig .tc := ⟨.hbm, 92, rfl⟩
abbrev main_call2_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call3_cst : Ref sig .tc := ⟨.hbm, 99, rfl⟩
abbrev main_call3_v0 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst : Ref sig .tc := ⟨.hbm, 108, rfl⟩
abbrev main_v74 : Ref sig .tc := ⟨.hbm, 109, rfl⟩
abbrev main_v75 : Ref sig .tc := ⟨.hbm, 110, rfl⟩
abbrev main_cst_9 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩

abbrev nD : Nat := 1
abbrev τ : Topo := Topo.v7x

variable {F : FTy → Type} [FloatOps F]

class Facts₀ : Prop where
  slices_S512x2_S512x1_0_0 : S512x2.Slices ![0, 0] S512x1
  shapeCasts_S512x1_S512 : S512x1.ShapeCasts S512
  bcast_S_S512 : S_.BroadcastsInDim S512 (![] : Fin 0 → Fin S512.rank)
  slices_S512x2_S512x1_0_1 : S512x2.Slices ![0, 1] S512x1
  bcast_S128_S128x128_0 : S128.BroadcastsInDim S128x128 (![0] : Fin 1 → Fin S128x128.rank)
  bcast_S128_S128x128_1 : S128.BroadcastsInDim S128x128 (![1] : Fin 1 → Fin S128x128.rank)
  bcast_S512_S512x1x1_0 : S512.BroadcastsInDim S512x1x1 (![0] : Fin 1 → Fin S512x1x1.rank)
  bcast_S128x128_S1x128x128_1_2 : S128x128.BroadcastsInDim S1x128x128 (![1, 2] : Fin 2 → Fin S1x128x128.rank)
  bcast_S512x1x1_S512x128x128_0_1_2 : S512x1x1.BroadcastsInDim S512x128x128 (![0, 1, 2] : Fin 3 → Fin S512x128x128.rank)
  bcast_S1x128x128_S512x128x128_0_1_2 : S1x128x128.BroadcastsInDim S512x128x128 (![0, 1, 2] : Fin 3 → Fin S512x128x128.rank)
  shapeCasts_S512x128x128_S8388608 : S512x128x128.ShapeCasts S8388608
  bcast_S8388608_S1x8388608_1 : S8388608.BroadcastsInDim S1x8388608 (![1] : Fin 1 → Fin S1x8388608.rank)
  concatenates_S1x8388608_S1x8388608_S2x8388608_d0 : Shape.Concatenates [S1x8388608, S1x8388608] S2x8388608 0
  concatenates_S6x1024x1024_S1x1024x1024_S7x1024x1024_d0 : Shape.Concatenates [S6x1024x1024, S1x1024x1024] S7x1024x1024 0
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S7x8388608_S7x512x128x128 : S7x8388608.ShapeCasts S7x512x128x128
  transposes_S7x512x128x128_S512x7x128x128_1_0_2_3 : S7x512x128x128.Transposes [1, 0, 2, 3] S512x7x128x128
  slices_S512x7x128x128_S512x6x128x128_0_0_0_0 : S512x7x128x128.Slices ![0, 0, 0, 0] S512x6x128x128
  bcast_S512x6_S512x6x1x1_0_1 : S512x6.BroadcastsInDim S512x6x1x1 (![0, 1] : Fin 2 → Fin S512x6x1x1.rank)
  bcast_S512x6x1x1_S512x6x128x128_0_1_2_3 : S512x6x1x1.BroadcastsInDim S512x6x128x128 (![0, 1, 2, 3] : Fin 4 → Fin S512x6x128x128.rank)
  slices_S512x7x128x128_S512x1x128x128_0_6_0_0 : S512x7x128x128.Slices ![0, 6, 0, 0] S512x1x128x128
  concatenates_S512x6x128x128_S512x1x128x128_S512x7x128x128_d1 : Shape.Concatenates [S512x6x128x128, S512x1x128x128] S512x7x128x128 1
  transposes_S512x7x128x128_S512x128x128x7_0_2_3_1 : S512x7x128x128.Transposes [0, 2, 3, 1] S512x128x128x7
  shapeCasts_S512x128x128x7_S8388608x7 : S512x128x128x7.ShapeCasts S8388608x7
  bcast_S16_S1x16_1 : S16.BroadcastsInDim S1x16 (![1] : Fin 1 → Fin S1x16.rank)
  bcast_S1x16_S8388608x16_0_1 : S1x16.BroadcastsInDim S8388608x16 (![0, 1] : Fin 2 → Fin S8388608x16.rank)
  bcast_S_S8388608x16 : S_.BroadcastsInDim S8388608x16 (![] : Fin 0 → Fin S8388608x16.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  bcast_S_S8388608x1 : S_.BroadcastsInDim S8388608x1 (![] : Fin 0 → Fin S8388608x1.rank)
  shapeCasts_S8388608x1_S512x1x128x128 : S8388608x1.ShapeCasts S512x1x128x128
  bcast_S512_S512x16384_0 : S512.BroadcastsInDim S512x16384 (![0] : Fin 1 → Fin S512x16384.rank)
  shapeCasts_S512x16384_S8388608 : S512x16384.ShapeCasts S8388608
  concatenates_S1x8388608_S2x8388608_S3x8388608_d0 : Shape.Concatenates [S1x8388608, S2x8388608] S3x8388608 0
  gather_S7x1024x1024_S8388608x2_S7x8388608_0_12_n_n_12_1_711_wf : GatherDims.WF S7x1024x1024 S8388608x2 S7x8388608 [0] [1, 2] [] [1, 2] [] 1 ![7, 1, 1]
  dot_S8388608x7_S7x16_S8388608x16_1_0_0_1_n_n_wf : DotDims.WF S8388608x7 S7x16 S8388608x16 [1] [0] [0] [1] [] []
  dot_S8388608x16_S16x16_S8388608x16_1_0_0_1_n_n_wf : DotDims.WF S8388608x16 S16x16 S8388608x16 [1] [0] [0] [1] [] []
  dot_S8388608x16_S16x1_S8388608x1_1_0_0_1_n_n_wf : DotDims.WF S8388608x16 S16x1 S8388608x1 [1] [0] [0] [1] [] []

variable [Facts₀]

def gather_S7x1024x1024_S8388608x2_S7x8388608_0_12_n_n_12_1_711 : GatherDims S7x1024x1024 S8388608x2 S7x8388608 where
  offsetDims := [0]
  collapsedSliceDims := [1, 2]
  operandBatchingDims := []
  startIndicesBatchingDims := []
  startIndexMap := [1, 2]
  indexVectorDim := 1
  sliceSizes := ![7, 1, 1]
  wf := gather_S7x1024x1024_S8388608x2_S7x8388608_0_12_n_n_12_1_711_wf
def dot_S8388608x7_S7x16_S8388608x16_1_0_0_1_n_n : DotDims S8388608x7 S7x16 S8388608x16 where
  lhsContracting := [1]
  rhsContracting := [0]
  lhsNonContracting := [0]
  rhsNonContracting := [1]
  lhsBatch := []
  rhsBatch := []
  wf := dot_S8388608x7_S7x16_S8388608x16_1_0_0_1_n_n_wf
def dot_S8388608x16_S16x16_S8388608x16_1_0_0_1_n_n : DotDims S8388608x16 S16x16 S8388608x16 where
  lhsContracting := [1]
  rhsContracting := [0]
  lhsNonContracting := [0]
  rhsNonContracting := [1]
  lhsBatch := []
  rhsBatch := []
  wf := dot_S8388608x16_S16x16_S8388608x16_1_0_0_1_n_n_wf
def dot_S8388608x16_S16x1_S8388608x1_1_0_0_1_n_n : DotDims S8388608x16 S16x1 S8388608x1 where
  lhsContracting := [1]
  rhsContracting := [0]
  lhsNonContracting := [0]
  rhsNonContracting := [1]
  lhsBatch := []
  rhsBatch := []
  wf := dot_S8388608x16_S16x1_S8388608x1_1_0_0_1_n_n_wf

class Facts : Prop extends Facts₀ where

variable [Facts]
-- ==== Proof.FrameK.Shared.lean ====
/-
  What the frame proof of this program shares: the contents of the core's buffers when the kernel region is
  entered (after the host lines that clamp the centroids into crop origins and lay the descriptors out), the two
  tables of crop origins the region prefetches, the blocks the pipeline stages, the memrefs the body is handed
  (staging buffers, the two scratch windows, the two images left in HBM, the two tables), the body's own pair of
  DMA semaphores, and the invariant the region keeps: scratch at any contents, the semaphores at zero, the two
  images at their launch contents, the tables' read halves.
-/
import proofs.«401130_j54125177864461_3_alg».proof.Proof.Gen.Kernel.Launch
import proofs.«401130_j54125177864461_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines around the region -/

/-- The host lines before the region: the two centroid columns clamped and shifted into the tables of crop origins,
    and the descriptors given a unit middle axis. -/
abbrev pfx : List (List (HloOp τ sig (Elt F))) := [hostOps0, hostOps0_1, hostOps0_2, hostOps0_3, hostOps0_4]
/-- The host lines after it: the table of instance ids and pixel coordinates, computed from the centroids alone. -/
abbrev sfx : List (List (HloOp τ sig (Elt F))) := [hostOps1, hostOps1_1, hostOps1_2, hostOps1_3, hostOps1_4]

/-- Core `c`'s buffer contents when the region is entered, as a valuation. -/
abbrev V0 (c : Dev nD) : Valuation τ sig (Elt F) := StableHlo.after (List.flatten pfx) (fun b => m (c, b))
/-- The same read at a reference. -/
abbrev V (c : Dev nD) (b : Ref sig .tc) : Buf (Elt F) ((c : Thread nD τ).loc b) := V0 m c (Proc.devRef .tc b)
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the lines before the region, the region, the lines after it. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain ((sfx (F := F)).map StableHlo.seq)) :=
  Pipeline.hmainP_around pcfgs 0 defs₀ 𝒱₀ m main pfx sfx
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩
    (fun c => (main_chain c).trans rfl)

/-! ## The prefetched tables of crop origins -/

/-- The tables' contents when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No window's index map reads a table: the pipeline asks nothing of their contents. -/
abbrev adm : (pcfg0 (F := F)).Adm := ⟨tbl m, trivial⟩
abbrev cfgM : Pipeline.Cfg sig Λ₀ := cfg0 (adm m)

/-- Each table as the body is handed it. -/
abbrev tbM0_0 : Memref sig .tc .smem S512 .i32 := Memref.whole main_v7
abbrev htbM0_0 : tbM0_0.IsWhole := Memref.isWhole_whole _
abbrev tbM0_1 : Memref sig .tc .smem S512 .i32 := Memref.whole main_v9
abbrev htbM0_1 : tbM0_1.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' read halves, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every point, fetched there or not. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (Pipeline.UD sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before0_4_of {c : Dev nD} (dat : Dat τ (Elt F) Unit ℕ (Pipeline.UD sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before0_5_of {c : Dev nD} (dat : Dat τ (Elt F) Unit ℕ (Pipeline.UD sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before0_6_of {c : Dev nD} (dat : Dat τ (Elt F) Unit ℕ (Pipeline.UD sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is handed -/

/-- One staging buffer of the output window, through which its contents are stated. -/
abbrev VO0_7 : View sig .tc .vmem S1x1x128x128 .f32 := (Memref.whole cc0_stg7_0 : Memref sig .tc .vmem S1x1x128x128 .f32).view
abbrev ms0_0 (t : Fin (cfgM m).N) : Memref sig .tc .vmem S512x1x6 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S7x16 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S16 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S16x16 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S16 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S16x1 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S1x1x128x128 .f32 := spec0_7.stage ((cfgM m).slots t 7)
abbrev hs0_7 (t : Fin (cfgM m).N) : (ms0_7 m t).IsWhole := hstage0_7 (((cfgM m).slots t 7).cast nbuf0_7)
/-- The two scratch windows the body copies the crops into. -/
abbrev scM0_0 : Memref sig .tc .vmem S6x128x128 .f32 := Memref.whole cc0_scratch0
abbrev scM0_1 : Memref sig .tc .vmem S1x128x128 .f32 := Memref.whole cc0_scratch1
/-- The two images, left in HBM, which the body crops by its own copies. -/
abbrev hbM0_0 : Memref sig .tc .hbm S6x1024x1024 .f32 := Memref.whole main_arg0
abbrev hbM0_1 : Memref sig .tc .hbm S1x1024x1024 .f32 := Memref.whole main_arg1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own two DMA semaphores. -/
abbrev osem0 : Fin 2 → SemLoc sig := fun j => (![SemLoc.dma 9, SemLoc.dma 10] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
/-- The two images as references: unscoped, no window's array, no table. -/
def H0 : Finset (Ref sig .tc) := {main_arg0, main_arg1}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(hbPt0 c hbM0_0 (V m c main_arg0) ∗ hbPt0 c hbM0_1 (V m c main_arg1)) := by
  rw [BI.bigSep_eq_bigSepL_of_eq [main_arg0, main_arg1] (by decide) (by decide)]; rfl

/-- The region's invariant, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 9) 0 ∗ semVal ((c : Thread nD τ), SemLoc.dma 10) 0) ∗ iprop(hbPt0 c hbM0_0 (V m c main_arg0) ∗ hbPt0 c hbM0_1 (V m c main_arg1))) := by
  rw [Pipeline.ΦD_eq, scopedRest0_eq, ownSems00_eq, hbmPts0_eq]; simp only [scM0_0, scM0_1, owns_whole]; try rfl

/-! ## The lines after the region -/

/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- They touch neither table nor either image: their buffers are the centroids and their own results. -/
theorem sfx_but : ∀ ops ∈ (sfx : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl | rfl | rfl | rfl | rfl
  · refine Pipeline.sub_tailRefsBut pre0 spec0 H0 op ((List.forall_iff_forall_mem.mp hostOps1_sub) op hop) ?_ ?_
    · simp only [hostOps1, List.mem_cons, List.mem_nil_iff, or_false] at hop
      rcases hop with rfl | rfl | rfl | rfl
      all_goals intro k; fin_cases k <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
    · simp only [hostOps1, List.mem_cons, List.mem_nil_iff, or_false] at hop
      rcases hop with rfl | rfl | rfl | rfl
      all_goals intro b hb; simp only [H0, Finset.mem_insert, Finset.mem_singleton] at hb
      all_goals rcases hb with rfl | rfl <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
  · refine Pipeline.sub_tailRefsBut pre0 spec0 H0 op ((List.forall_iff_forall_mem.mp hostOps1_1_sub) op hop) ?_ ?_
    · simp only [hostOps1_1, List.mem_cons, List.mem_nil_iff, or_false] at hop
      rcases hop with rfl | rfl | rfl | rfl | rfl | rfl
      all_goals intro k; fin_cases k <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
    · simp only [hostOps1_1, List.mem_cons, List.mem_nil_iff, or_false] at hop
      rcases hop with rfl | rfl | rfl | rfl | rfl | rfl
      all_goals intro b hb; simp only [H0, Finset.mem_insert, Finset.mem_singleton] at hb
      all_goals rcases hb with rfl | rfl <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
  · refine Pipeline.sub_tailRefsBut pre0 spec0 H0 op ((List.forall_iff_forall_mem.mp hostOps1_2_sub) op hop) ?_ ?_
    · simp only [hostOps1_2, List.mem_cons, List.mem_nil_iff, or_false] at hop
      rcases hop with rfl | rfl | rfl | rfl
      all_goals intro k; fin_cases k <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
    · simp only [hostOps1_2, List.mem_cons, List.mem_nil_iff, or_false] at hop
      rcases hop with rfl | rfl | rfl | rfl
      all_goals intro b hb; simp only [H0, Finset.mem_insert, Finset.mem_singleton] at hb
      all_goals rcases hb with rfl | rfl <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
  · refine Pipeline.sub_tailRefsBut pre0 spec0 H0 op ((List.forall_iff_forall_mem.mp hostOps1_3_sub) op hop) ?_ ?_
    · simp only [hostOps1_3, List.mem_cons, List.mem_nil_iff, or_false] at hop
      rcases hop with rfl | rfl | rfl | rfl | rfl | rfl
      all_goals intro k; fin_cases k <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
    · simp only [hostOps1_3, List.mem_cons, List.mem_nil_iff, or_false] at hop
      rcases hop with rfl | rfl | rfl | rfl | rfl | rfl
      all_goals intro b hb; simp only [H0, Finset.mem_insert, Finset.mem_singleton] at hb
      all_goals rcases hb with rfl | rfl <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
  · refine Pipeline.sub_tailRefsBut pre0 spec0 H0 op ((List.forall_iff_forall_mem.mp hostOps1_4_sub) op hop) ?_ ?_
    · simp only [hostOps1_4, List.mem_cons, List.mem_nil_iff, or_false] at hop
      rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
      all_goals intro k; fin_cases k <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
    · simp only [hostOps1_4, List.mem_cons, List.mem_nil_iff, or_false] at hop
      rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
      all_goals intro b hb; simp only [H0, Finset.mem_insert, Finset.mem_singleton] at hb
      all_goals rcases hb with rfl | rfl <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)

theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton] <;> exact StableHlo.devRef_ne_of_ne (by decide)
set_option maxHeartbeats 2000000 in  -- thirty operations against eight windows: 240 small goals in one declaration
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton] <;> exact StableHlo.devRef_ne_of_ne (by decide)

/-- And write no array of the pipeline. -/
theorem sfx_keeps : ∀ ops ∈ (sfx : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact hostOps1_keeps op hop
  · exact hostOps1_1_keeps op hop
  · exact hostOps1_2_keeps op hop
  · exact hostOps1_3_keeps op hop
  · exact hostOps1_4_keeps op hop

end Cert.Kernel.Frame

end
-- ==== Proof.FrameK.RunA.lean ====
/-
  The kernel body run once, at a symbolic grid point, on any staging memrefs.
-/
import proofs.«401130_j54125177864461_3_alg».proof.Proof.FrameK.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body on any staging memrefs -/

set_option maxHeartbeats 4000000 in
/-- The body's run at any grid point: on whole staging memrefs with the inputs at their contents, the output's, the two
    scratch windows' at anything, its two semaphores at zero, the two images whole at their contents, the two tables'
    read halves, and the crop origin's window known to fit (what the body assumes of the two table words it reads), the
    body starts its two copies, waits for both, loads the crops, the descriptor row and the weights, computes, and
    stores the block — everything it borrowed handed back as it was, the output's buffer with the one store written. -/
noncomputable def kernelRun0_A (c : Dev nD) (i : grid0.Coords) (arg5 : Memref sig .tc .vmem S512x1x6 .f32) (harg5 : arg5.IsWhole) (arg6 : Memref sig .tc .vmem S7x16 .f32) (harg6 : arg6.IsWhole) (arg7 : Memref sig .tc .vmem S16 .f32) (harg7 : arg7.IsWhole) (arg8 : Memref sig .tc .vmem S16x16 .f32) (harg8 : arg8.IsWhole) (arg9 : Memref sig .tc .vmem S16 .f32) (harg9 : arg9.IsWhole) (arg10 : Memref sig .tc .vmem S16x1 .f32) (harg10 : arg10.IsWhole) (arg11 : Memref sig .tc .vmem S1 .f32) (harg11 : arg11.IsWhole) (arg12 : Memref sig .tc .vmem S1x1x128x128 .f32) (harg12 : arg12.IsWhole) (arg13 : Memref sig .tc .vmem S6x128x128 .f32) (harg13 : arg13.IsWhole) (arg14 : Memref sig .tc .vmem S1x128x128 .f32) (harg14 : arg14.IsWhole)
    (x0 : Vec F S512x1x6 .f32) (x1 : Vec F S7x16 .f32) (x2 : Vec F S16 .f32) (x3 : Vec F S16x16 .f32) (x4 : Vec F S16 .f32) (x5 : Vec F S16x1 .f32) (x6 : Vec F S1 .f32) (fh0 : HbBuf0 (F := F) c hbM0_0) (fh1 : HbBuf0 (F := F) c hbM0_1) (xt0 : TbBuf0 (F := F) c tbM0_0) (xt1 : TbBuf0 (F := F) c tbM0_1)
    (k0_hw1 : k0_chk1 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) :
    { L7 : List (View.Piece (Elt F) S1x1x128x128 .f32) //
      ∀ (W : Waits sig Unit) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 9) 0 ∗ semVal ((c : Thread nD τ), SemLoc.dma 10) 0 ∗ hbPt0 c hbM0_0 fh0 ∗ hbPt0 c hbM0_1 fh1 ∗ tbPt0 c tbM0_0 xt0 ∗ tbPt0 c tbM0_1 xt1 ∗ owes (c : Thread nD τ) 0 W
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ f, arg12.view.loc (c : Thread nD τ) ↦[arg12.view.set]{fullShare} arg12.view.writes (Elt F) f L7) ∗ (∃ d, owns (c : Thread nD τ) arg13 fullShare d) ∗ (∃ d, owns (c : Thread nD τ) arg14 fullShare d) ∗ semVal ((c : Thread nD τ), SemLoc.dma 9) 0 ∗ semVal ((c : Thread nD τ), SemLoc.dma 10) 0 ∗ hbPt0 c hbM0_0 fh0 ∗ hbPt0 c hbM0_1 fh1 ∗ tbPt0 c tbM0_0 xt0 ∗ tbPt0 c tbM0_1 xt1 ∗ (∃ W', owes (c : Thread nD τ) 0 W')) -∗ K ⟨⟩))
          ⊢ wp frame (wpE (defs₀ (F := F)) Variants.none c none) Set.univ (cc0__gather_mlp_kernel i tbM0_0 htbM0_0 tbM0_1 htbM0_1 hbM0_0 (Memref.isWhole_whole _) hbM0_1 (Memref.isWhole_whole _) arg5 harg5 arg6 harg6 arg7 harg7 arg8 harg8 arg9 harg9 arg10 harg10 arg11 harg11 arg12 harg12 arg13 harg13 arg14 harg14 cc0_scratch2) K } := by
  refine ⟨?_, fun W K => ?run⟩
  case run =>
    simp only [cc0__gather_mlp_kernel_eq_skeleton]; unfold cc0__gather_mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hq0, Hq1, Hh0, Hh1, HT0, HT1, HW, Hk⟩
    obtain rfl := harg5.eq_unread hf0
    obtain rfl := harg6.eq_unread hf1
    obtain rfl := harg7.eq_unread hf2
    obtain rfl := harg8.eq_unread hf3
    obtain rfl := harg9.eq_unread hf4
    obtain rfl := harg10.eq_unread hf5
    obtain rfl := harg11.eq_unread hf6
    sl_exec (disch := first | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hh0]; · iexact Hh0
    isplitl [Hh1]; · iexact Hh1
    isplitl [HT0]; · iexact HT0
    isplitl [HT1]; · iexact HT1
    iexists _; iexact HW

end Cert.Kernel.Frame

end
-- ==== Proof.FrameK.Frame.lean ====
/-
  The frame of the program: what the output's staging buffer holds after the body at each grid point, the
  pipeline's proof data, the body obligation at a symbolic point, the run of @main (host lines, the region, host
  lines), and what every argument and result buffer holds when it ends.
-/
import proofs.«401130_j54125177864461_3_alg».proof.Proof.FrameK.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's one store writes the whole output block, so its pieces cover it. -/
theorem cover0_A_7 (c : Dev nD) (i : grid0.Coords) (arg5 : Memref sig .tc .vmem S512x1x6 .f32) (harg5 : arg5.IsWhole) (arg6 : Memref sig .tc .vmem S7x16 .f32) (harg6 : arg6.IsWhole) (arg7 : Memref sig .tc .vmem S16 .f32) (harg7 : arg7.IsWhole) (arg8 : Memref sig .tc .vmem S16x16 .f32) (harg8 : arg8.IsWhole) (arg9 : Memref sig .tc .vmem S16 .f32) (harg9 : arg9.IsWhole) (arg10 : Memref sig .tc .vmem S16x1 .f32) (harg10 : arg10.IsWhole) (arg11 : Memref sig .tc .vmem S1 .f32) (harg11 : arg11.IsWhole) (arg12 : Memref sig .tc .vmem S1x1x128x128 .f32) (harg12 : arg12.IsWhole) (arg13 : Memref sig .tc .vmem S6x128x128 .f32) (harg13 : arg13.IsWhole) (arg14 : Memref sig .tc .vmem S1x128x128 .f32) (harg14 : arg14.IsWhole)
    (x0 : Vec F S512x1x6 .f32) (x1 : Vec F S7x16 .f32) (x2 : Vec F S16 .f32) (x3 : Vec F S16x16 .f32) (x4 : Vec F S16 .f32) (x5 : Vec F S16x1 .f32) (x6 : Vec F S1 .f32) (fh0 : HbBuf0 (F := F) c hbM0_0) (fh1 : HbBuf0 (F := F) c hbM0_1) (xt0 : TbBuf0 (F := F) c tbM0_0) (xt1 : TbBuf0 (F := F) c tbM0_1)
    (k0_hw1 : k0_chk1 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) (y : S1x1x128x128.Idx) :
    ∃ pc ∈ (kernelRun0_A c i arg5 harg5 arg6 harg6 arg7 harg7 arg8 harg8 arg9 harg9 arg10 harg10 arg11 harg11 arg12 harg12 arg13 harg13 arg14 harg14 x0 x1 x2 x3 x4 x5 x6 fh0 fh1 xt0 xt1 k0_hw1).1, y ∈ pc.1.set :=
  View.cover_of_tiledL (kernelRun0_A c i arg5 harg5 arg6 harg6 arg7 harg7 arg8 harg8 arg9 harg9 arg10 harg10 arg11 harg11 arg12 harg12 arg13 harg13 arg14 harg14 x0 x1 x2 x3 x4 x5 x6 fh0 fh1 xt0 xt1 k0_hw1).1 S1x1x128x128.size (by sl_kernel_rfl) y

/-- What the run leaves in the output's staging buffer: its pieces read back. -/
def out0_A_7 (c : Dev nD) (i : grid0.Coords) (arg5 : Memref sig .tc .vmem S512x1x6 .f32) (harg5 : arg5.IsWhole) (arg6 : Memref sig .tc .vmem S7x16 .f32) (harg6 : arg6.IsWhole) (arg7 : Memref sig .tc .vmem S16 .f32) (harg7 : arg7.IsWhole) (arg8 : Memref sig .tc .vmem S16x16 .f32) (harg8 : arg8.IsWhole) (arg9 : Memref sig .tc .vmem S16 .f32) (harg9 : arg9.IsWhole) (arg10 : Memref sig .tc .vmem S16x1 .f32) (harg10 : arg10.IsWhole) (arg11 : Memref sig .tc .vmem S1 .f32) (harg11 : arg11.IsWhole) (arg12 : Memref sig .tc .vmem S1x1x128x128 .f32) (harg12 : arg12.IsWhole) (arg13 : Memref sig .tc .vmem S6x128x128 .f32) (harg13 : arg13.IsWhole) (arg14 : Memref sig .tc .vmem S1x128x128 .f32) (harg14 : arg14.IsWhole)
    (x0 : Vec F S512x1x6 .f32) (x1 : Vec F S7x16 .f32) (x2 : Vec F S16 .f32) (x3 : Vec F S16x16 .f32) (x4 : Vec F S16 .f32) (x5 : Vec F S16x1 .f32) (x6 : Vec F S1 .f32) (fh0 : HbBuf0 (F := F) c hbM0_0) (fh1 : HbBuf0 (F := F) c hbM0_1) (xt0 : TbBuf0 (F := F) c tbM0_0) (xt1 : TbBuf0 (F := F) c tbM0_1)
    (k0_hw1 : k0_chk1 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) : Vec F S1x1x128x128 .f32 :=
  VO0_7.read (Elt F) (VO0_7.writes (Elt F) VO0_7.junk (kernelRun0_A c i arg5 harg5 arg6 harg6 arg7 harg7 arg8 harg8 arg9 harg9 arg10 harg10 arg11 harg11 arg12 harg12 arg13 harg13 arg14 harg14 x0 x1 x2 x3 x4 x5 x6 fh0 fh1 xt0 xt1 k0_hw1).1)

/-- What the body assumes of the two table words it reads, at every grid point: the crop's window, starting at
    those words, fits inside the image. -/
def Hyps (m : (ℓ : Loc nD τ sig) → Buf (Elt F) ℓ) : Prop :=
  ∀ (c : Dev nD) (t : Fin (cfgM m).N),
    k0_chk1 (tbM0_0.view.readAt (Elt F) (Rect.unit (s := S512) (k0_off1 (grid0.coords t)) S1.size (k0_off1_inb (grid0.coords t))).toLoadRect (tbl m 0) (Shape.Idx.first (numel1_S1.symm ▸ Nat.one_pos)))
      (tbM0_1.view.readAt (Elt F) (Rect.unit (s := S512) (k0_off1 (grid0.coords t)) S1.size (k0_off1_inb (grid0.coords t))).toLoadRect (tbl m 1) (Shape.Idx.first (numel1_S1.symm ▸ Nat.one_pos)))

/-- What the output's staging buffer holds after the body at point `t`. -/
def outsAt0 (hH : Hyps m) (c : Dev nD) (t : Fin (cfgM m).N) : Vec F S1x1x128x128 .f32 :=
  out0_A_7 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) scM0_0 (Memref.isWhole_whole _) scM0_1 (Memref.isWhole_whole _) (iblk m c 0 t) (iblk m c 1 t) (iblk m c 2 t) (iblk m c 3 t) (iblk m c 4 t) (iblk m c 5 t) (iblk m c 6 t) (V m c main_arg0) (V m c main_arg1) (tbl m 0) (tbl m 1) (hH c t)

/-- The pipeline's proof data on core `c`: the arrays as the region finds them; after the body each input's buffer at
    its block and the output's at `outsAt0`; the invariant (scratch, the body's semaphores at zero, the images at their
    launch contents, the tables' read halves); nothing owed; full shares. -/
def dats (hH : Hyps m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m hH c t)
  Φ _ := iprop(Pipeline.ΦD osem0 spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = iblk m c 1 t := by dsimp only [dats]; try rfl
theorem after0_2 (hH : Hyps m) (c : Dev nD) (t : Fin (cfgM m).N) : (dats m hH 0 c).after 2 t = iblk m c 2 t := by dsimp only [dats]; try rfl
theorem after0_3 (hH : Hyps m) (c : Dev nD) (t : Fin (cfgM m).N) : (dats m hH 0 c).after 3 t = iblk m c 3 t := by dsimp only [dats]; try rfl
theorem after0_4 (hH : Hyps m) (c : Dev nD) (t : Fin (cfgM m).N) : (dats m hH 0 c).after 4 t = iblk m c 4 t := by dsimp only [dats]; try rfl
theorem after0_5 (hH : Hyps m) (c : Dev nD) (t : Fin (cfgM m).N) : (dats m hH 0 c).after 5 t = iblk m c 5 t := by dsimp only [dats]; try rfl
theorem after0_6 (hH : Hyps m) (c : Dev nD) (t : Fin (cfgM m).N) : (dats m hH 0 c).after 6 t = iblk m c 6 t := by dsimp only [dats]; try rfl
theorem after0_7 (hH : Hyps m) (c : Dev nD) (t : Fin (cfgM m).N) : (dats m hH 0 c).after 7 t = (outsAt0 m hH c t) := by dsimp only [dats]; try rfl

theorem before0_0 (hH : Hyps m) (c : Dev nD) (t : Fin (cfgM m).N) (d) : (dats m hH 0 c).before 0 t d = iblk m c 0 t :=
  before0_0_of m (dats m hH 0 c) (A_eq m hH c 0) (after0_0 m hH c) t d
theorem before0_1 (hH : Hyps m) (c : Dev nD) (t : Fin (cfgM m).N) (d) : (dats m hH 0 c).before 1 t d = iblk m c 1 t :=
  before0_1_of m (dats m hH 0 c) (A_eq m hH c 1) (after0_1 m hH c) t d
theorem before0_2 (hH : Hyps m) (c : Dev nD) (t : Fin (cfgM m).N) (d) : (dats m hH 0 c).before 2 t d = iblk m c 2 t :=
  before0_2_of m (dats m hH 0 c) (A_eq m hH c 2) (after0_2 m hH c) t d
theorem before0_3 (hH : Hyps m) (c : Dev nD) (t : Fin (cfgM m).N) (d) : (dats m hH 0 c).before 3 t d = iblk m c 3 t :=
  before0_3_of m (dats m hH 0 c) (A_eq m hH c 3) (after0_3 m hH c) t d
theorem before0_4 (hH : Hyps m) (c : Dev nD) (t : Fin (cfgM m).N) (d) : (dats m hH 0 c).before 4 t d = iblk m c 4 t :=
  before0_4_of m (dats m hH 0 c) (A_eq m hH c 4) (after0_4 m hH c) t d
theorem before0_5 (hH : Hyps m) (c : Dev nD) (t : Fin (cfgM m).N) (d) : (dats m hH 0 c).before 5 t d = iblk m c 5 t :=
  before0_5_of m (dats m hH 0 c) (A_eq m hH c 5) (after0_5 m hH c) t d
theorem before0_6 (hH : Hyps m) (c : Dev nD) (t : Fin (cfgM m).N) (d) : (dats m hH 0 c).before 6 t d = iblk m c 6 t :=
  before0_6_of m (dats m hH 0 c) (A_eq m hH c 6) (after0_6 m hH c) t d

/-- The body at point `t`, on what the pipeline calls it with. -/
abbrev bodyAt0 (t : Fin (cfgM m).N) : Prog (TpuEff nD τ sig (Elt F) Λ₀ .tc) PUnit :=
  cc0__gather_mlp_kernel (grid0.coords t) (Memref.whole main_v7) (Memref.isWhole_whole _) (Memref.whole main_v9) (Memref.isWhole_whole _) (Memref.whole main_arg0) (Memref.isWhole_whole _) (Memref.whole main_arg1) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (Memref.whole cc0_scratch0) (Memref.isWhole_whole _) (Memref.whole cc0_scratch1) (Memref.isWhole_whole _) cc0_scratch2

/-- What the body is called with at point `t`, the windows one by one, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d))
    ∗ (∃ d, owns (c : Thread nD τ) (ms0_3 m t) fullShare ((dats m hH 0 c).before 3 t d))
    ∗ (∃ d, owns (c : Thread nD τ) (ms0_4 m t) fullShare ((dats m hH 0 c).before 4 t d))
    ∗ (∃ d, owns (c : Thread nD τ) (ms0_5 m t) fullShare ((dats m hH 0 c).before 5 t d))
    ∗ (∃ d, owns (c : Thread nD τ) (ms0_6 m t) fullShare ((dats m hH 0 c).before 6 t d))
    ∗ (∃ d, owns (c : Thread nD τ) (ms0_7 m t) fullShare ((dats m hH 0 c).before 7 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t)
    ∗ owns (c : Thread nD τ) (ms0_3 m t) fullShare ((dats m hH 0 c).after 3 t)
    ∗ owns (c : Thread nD τ) (ms0_4 m t) fullShare ((dats m hH 0 c).after 4 t)
    ∗ owns (c : Thread nD τ) (ms0_5 m t) fullShare ((dats m hH 0 c).after 5 t)
    ∗ owns (c : Thread nD τ) (ms0_6 m t) fullShare ((dats m hH 0 c).after 6 t)
    ∗ owns (c : Thread nD τ) (ms0_7 m t) fullShare ((dats m hH 0 c).after 7 t))

/-- The body at any point: the inputs' memrefs hold their blocks, so the run applies; the invariant hands the body its
    scratch, its two semaphores at zero, the two images and the tables' halves, and takes them back as they were. -/
theorem sound_body (hH : Hyps m) (c : Dev nD) (t : Fin (cfgM m).N) :
    bodyPre m hH c t ⊢ wp frame (wpE (defs₀ (F := F)) Variants.none c none) Set.univ (bodyAt0 m t) (fun _ => bodyPost m hH c t) := by
  unfold bodyPre bodyPost bodyAt0
  simp only [before0_0, before0_1, before0_2, before0_3, before0_4, before0_5, before0_6]
  rw [show (dats m hH 0 c).Φ t.succ = (dats m hH 0 c).Φ t.castSucc from rfl,
    after0_0, after0_1, after0_2, after0_3, after0_4, after0_5, after0_6, after0_7]
  rw [show (dats m hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hH 0 c).owed t.castSucc = 0 from rfl, show (dats m hH 0 c).owed t.succ = 0 from rfl]
  unfold outsAt0
  unfold out0_A_7
  iintro ⟨⟨⟨⟨HS0, HS1⟩, Hg, ⟨Hq0, Hq1⟩, ⟨Hh0, Hh1⟩⟩, ⟨HT0, HT1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (V m c main_arg0) (V m c main_arg1) (tbl m 0) (tbl m 1) (hH c t)).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HT0]; · iexact HT0
  isplitl [HT1]; · iexact HT1
  isplitl [HW]; · iexact HW
  iintro ⟨H0, H1, H2, H3, H4, H5, H6, ⟨%e7, H7⟩, HS0, HS1, Hq0, Hq1, Hh0, Hh1, HT0, HT1, ⟨%W', HW'⟩⟩
  isplitl [HS0 HS1 Hg Hq0 Hq1 Hh0 Hh1 HT0 HT1]
  · isplitl [HS0 HS1 Hg Hq0 Hq1 Hh0 Hh1]
    · isplitl [HS0 HS1]
      · isplitl [HS0]; · iexact HS0
        iexact HS1
      isplitl [Hg]; · iexact Hg
      isplitl [Hq0 Hq1]
      · isplitl [Hq0]; · iexact Hq0
        iexact Hq1
      isplitl [Hh0]; · iexact Hh0
      iexact Hh1
    isplitl [HT0]; · iexact HT0
    iexact HT1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _ _ _ _)

/-- The library's body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

/-! ## The run -/

set_option backward.isDefEq.respectTransparency.types false in
/-- Every weakly fair execution of @main terminates; at its end every array of the pipeline holds what the library
    computes from the proof data, and every other unscoped buffer what the lines after the region leave in it. -/
theorem run_main (hH : Hyps m) : θ_run defs (onTc (τ := τ) (main (F := F))) (s₀ m ρ)
    (Pipeline.FramePost (Pipeline.pin pcfgs fun _ => adm m) (dats m hH) 0 (Pipeline.afterTail pcfgs (fun _ => adm m) (dats m hH) 0 (V0 m) sfx)) :=
  Pipeline.θ_run_frameP_dma_around pcfgs (fun _ => adm m) (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := sfx) (hsub := sfx_but) (hfresh := sfx_fresh) (hkeep := sfx_keeps)
    (hmain := hmain m Variants.none) (hA := A_eq m hH) (hpf := V_pre m)
    (hin := fun _ => .rfl) (hout := fun c => by change iprop(_ ∗ _) ⊢ _; iintro ⟨HD, -⟩; iexact HD)

/-! ## The arguments at the end -/

/-- No line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line after the region writes argument 0, and no window stages it: it ends as launched. -/
theorem W_main_arg0 (hH : Hyps m) (c : Dev nD) :
    Pipeline.afterTail pcfgs (fun _ => adm m) (dats m hH) 0 (V0 m) sfx c main_arg0 = m ((c : Thread nD τ).loc main_arg0) := by
  unfold Pipeline.afterTail
  rw [StableHlo.after_of_forall_not_mem (b := Proc.devRef .tc main_arg0) _ _ (List.forall_iff_forall_mem.mp (by
      simp only [sfx, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line after the region writes argument 1, and no window stages it: it ends as launched. -/
theorem W_main_arg1 (hH : Hyps m) (c : Dev nD) :
    Pipeline.afterTail pcfgs (fun _ => adm m) (dats m hH) 0 (V0 m) sfx c main_arg1 = m ((c : Thread nD τ).loc main_arg1) := by
  unfold Pipeline.afterTail
  rw [StableHlo.after_of_forall_not_mem (b := Proc.devRef .tc main_arg1) _ _ (List.forall_iff_forall_mem.mp (by
      simp only [sfx, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line after the region writes argument 2, and no window stages it: it ends as launched. -/
theorem W_main_arg2 (hH : Hyps m) (c : Dev nD) :
    Pipeline.afterTail pcfgs (fun _ => adm m) (dats m hH) 0 (V0 m) sfx c main_arg2 = m ((c : Thread nD τ).loc main_arg2) := by
  unfold Pipeline.afterTail
  rw [StableHlo.after_of_forall_not_mem (b := Proc.devRef .tc main_arg2) _ _ (List.forall_iff_forall_mem.mp (by
      simp only [sfx, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line after the region writes argument 9, and no window stages it: it ends as launched. -/
theorem W_main_arg9 (hH : Hyps m) (c : Dev nD) :
    Pipeline.afterTail pcfgs (fun _ => adm m) (dats m hH) 0 (V0 m) sfx c main_arg9 = m ((c : Thread nD τ).loc main_arg9) := by
  unfold Pipeline.afterTail
  rw [StableHlo.after_of_forall_not_mem (b := Proc.devRef .tc main_arg9) _ _ (List.forall_iff_forall_mem.mp (by
      simp only [sfx, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- THE FRAME: every weakly fair execution of @main terminates, nothing faulting, with every argument as launched. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_arg0 (by decide : main_arg0 ∈ Pipeline.restRefs sig spec0)).trans (W_main_arg0 m hH c),
      ((h c).2 main_arg1 (by decide : main_arg1 ∈ Pipeline.restRefs sig spec0)).trans (W_main_arg1 m hH c),
      ((h c).2 main_arg2 (by decide : main_arg2 ∈ Pipeline.restRefs sig spec0)).trans (W_main_arg2 m hH c),
      ((h c).1 1).trans (((dats m hH 0 c).arrAt_in 1 rfl _).trans ((A_eq m hH c 1).trans (V_main_arg3 m c))),
      ((h c).1 2).trans (((dats m hH 0 c).arrAt_in 2 rfl _).trans ((A_eq m hH c 2).trans (V_main_arg4 m c))),
      ((h c).1 3).trans (((dats m hH 0 c).arrAt_in 3 rfl _).trans ((A_eq m hH c 3).trans (V_main_arg5 m c))),
      ((h c).1 4).trans (((dats m hH 0 c).arrAt_in 4 rfl _).trans ((A_eq m hH c 4).trans (V_main_arg6 m c))),
      ((h c).1 5).trans (((dats m hH 0 c).arrAt_in 5 rfl _).trans ((A_eq m hH c 5).trans (V_main_arg7 m c))),
      ((h c).1 6).trans (((dats m hH 0 c).arrAt_in 6 rfl _).trans ((A_eq m hH c 6).trans (V_main_arg8 m c))),
      ((h c).2 main_arg9 (by decide : main_arg9 ∈ Pipeline.restRefs sig spec0)).trans (W_main_arg9 m hH c)⟩) (run_main m ρ hH)

end Cert.Kernel.Frame

end
-- ==== Proof.Spec.lean ====
/-
  The function both programs compute for the probability map, over the extended reals.

  For each of 512 instances a 128 × 128 window of the 7-channel image (six embedding channels and one
  sigma channel, each 1024 × 1024) is cropped at an origin read off the instance's centroid: along each
  image axis the centroid's coordinate is clamped (as a signed integer) into [64, 960] and 64 is taken
  off, so the origin lies in [0, 896] and the window fits. The instance's 6-entry descriptor is taken
  off the six embedding channels. Each pixel's 7 features then go through a small network: two affine
  layers of width 16 each followed by a maximum with zero, one affine layer of width 1, and the logistic
  function.
-/
import Idealize.ShloMosaic.PureOps.Ideal
import Idealize.ShloMosaic.Lib.ValueIdx

noncomputable section

open scoped BigOperators

namespace Cert.Spec

open Idealize.ShloMosaic Idealize.ShloMosaic.ValueIdx

/-- A crop's origin along one image axis: the centroid's coordinate clamped, as a signed integer, into
    [64, 960], less 64. -/
def origin (v : BitVec 32) : BitVec 32 :=
  IntOp.subi (IntOp.minsi 960#32 (IntOp.maxsi 64#32 v)) 64#32

/-- The clamp keeps a signed coordinate within [64, 960]. -/
theorem clamp_bounds (v : BitVec 32) :
    64 ≤ (IntOp.minsi 960#32 (IntOp.maxsi 64#32 v)).toNat ∧ (IntOp.minsi 960#32 (IntOp.maxsi 64#32 v)).toNat ≤ 960 := by
  unfold IntOp.minsi IntOp.maxsi
  have h64 : (64#32 : BitVec 32).toInt = 64 := by decide
  have h960 : (960#32 : BitVec 32).toInt = 960 := by decide
  have hv := BitVec.toInt_eq_toNat_cond v
  have hlt := v.isLt
  by_cases h1 : v.slt 64#32
  · rw [if_pos h1]
    have : ¬ (960#32 : BitVec 32).slt 64#32 := by decide
    rw [if_neg this]
    decide
  · rw [if_neg h1]
    by_cases h2 : (960#32 : BitVec 32).slt v
    · rw [if_pos h2]; decide
    · rw [if_neg h2]
      simp only [BitVec.slt, decide_eq_true_eq, h64, h960] at h1 h2
      split at hv <;> omega

/-- The origin is at most 896: a window of 128 from it ends within 1024. -/
theorem origin_le (v : BitVec 32) : (origin v).toNat ≤ 896 := by
  have h := clamp_bounds v
  unfold origin IntOp.subi
  rw [BitVec.toNat_sub]
  have : (64#32 : BitVec 32).toNat = 64 := by decide
  rw [this]
  omega

/-- The image row (or column) of window coordinate `r` of a crop whose origin is read off the word `v`. -/
def at_ (v : BitVec 32) (r : Fin 128) : Fin 1024 :=
  ⟨(origin v).toNat + r.val, by have := origin_le v; have := r.isLt; omega⟩

/-- Feature `ch` of pixel `(r, q)` of instance `i`: an embedding channel at the cropped pixel less the
    instance's descriptor entry for that channel, or (the seventh) the sigma channel at the cropped pixel. -/
def feat (x : (⟨3, ![6, 1024, 1024]⟩ : Shape).Idx → EReal) (sg : (⟨3, ![1, 1024, 1024]⟩ : Shape).Idx → EReal)
    (cd : (⟨2, ![512, 6]⟩ : Shape).Idx → EReal) (ci : (⟨2, ![512, 2]⟩ : Shape).Idx → BitVec 32)
    (i : Fin 512) (r q : Fin 128) (ch : Fin 7) : EReal :=
  if h : ch.val < 6 then
    x (ix3 (⟨ch.val, h⟩ : Fin 6) (at_ (ci (ix2 i 0)) r) (at_ (ci (ix2 i 1)) q)) - cd (ix2 i (⟨ch.val, h⟩ : Fin 6))
  else
    sg (ix3 (0 : Fin 1) (at_ (ci (ix2 i 0)) r) (at_ (ci (ix2 i 1)) q))

/-- One affine layer at output unit `j`: the weighted sum of the inputs plus the unit's bias. -/
def affine {K N : Nat} (f : Fin K → EReal) (W : (⟨2, ![K, N]⟩ : Shape).Idx → EReal)
    (b : (⟨1, ![N]⟩ : Shape).Idx → EReal) (j : Fin N) : EReal :=
  (∑ k : Fin K, f k * W (ix2 k j)) + b (ix1 j)

/-- The per-pixel network on a 7-vector of features. -/
def net (f : Fin 7 → EReal)
    (W1 : (⟨2, ![7, 16]⟩ : Shape).Idx → EReal) (b1 : (⟨1, ![16]⟩ : Shape).Idx → EReal)
    (W2 : (⟨2, ![16, 16]⟩ : Shape).Idx → EReal) (b2 : (⟨1, ![16]⟩ : Shape).Idx → EReal)
    (W3 : (⟨2, ![16, 1]⟩ : Shape).Idx → EReal) (b3 : (⟨1, ![1]⟩ : Shape).Idx → EReal) : EReal :=
  Ideal.logistic
    (affine (fun k => max (affine (fun c => max (affine f W1 b1 c) 0) W2 b2 k) 0) W3 b3 0)

/-- The probability map: instance `i`, pixel `(r, q)`. -/
def prob (x : (⟨3, ![6, 1024, 1024]⟩ : Shape).Idx → EReal) (sg : (⟨3, ![1, 1024, 1024]⟩ : Shape).Idx → EReal)
    (cd : (⟨2, ![512, 6]⟩ : Shape).Idx → EReal)
    (W1 : (⟨2, ![7, 16]⟩ : Shape).Idx → EReal) (b1 : (⟨1, ![16]⟩ : Shape).Idx → EReal)
    (W2 : (⟨2, ![16, 16]⟩ : Shape).Idx → EReal) (b2 : (⟨1, ![16]⟩ : Shape).Idx → EReal)
    (W3 : (⟨2, ![16, 1]⟩ : Shape).Idx → EReal) (b3 : (⟨1, ![1]⟩ : Shape).Idx → EReal)
    (ci : (⟨2, ![512, 2]⟩ : Shape).Idx → BitVec 32) :
    (⟨4, ![512, 1, 128, 128]⟩ : Shape).Idx → EReal :=
  fun j => net (feat x sg cd ci (j 0) (j 2) (j 3)) W1 b1 W2 b2 W3 b3

end Cert.Spec

end
-- ==== Proof.FrameK.Tables.lean ====
/-
  The two tables of crop origins the region prefetches, as values, and the words the body reads off them.

  Before the region the host lines cut each column of the `[512, 2]` centroid array out as a `[512, 1]` slice, reshape it
  to `[512]`, clamp it (signed) from below by 64 and from above by 960, and take 64 off. Entry `j` of table `k` is
  therefore the crop origin of the centroid word `(j, k)`. At point `t` of the grid the body loads the one word at
  offset `t` of each table, so the two words it reads are the crop origins of instance `t`'s centroid; an origin is at
  most 896, so both 128-wide windows lie inside the 1024-wide images, which is the side condition the body assumes.

  The last host line gives the `[512, 6]` descriptor array a unit middle axis: entry `(i, 0, ch)` of the array the first
  window stages is entry `ch` of instance `i`'s descriptor.
-/
import proofs.«401130_j54125177864461_3_alg».proof.Proof.FrameK.Shared
import proofs.«401130_j54125177864461_3_alg».proof.Proof.Spec
import Idealize.ShloMosaic.Lib.ValueIdx
import Idealize.ShloMosaic.Lib.Pipeline.Value
import Idealize.ShloMosaic.Lib.StableHlo.Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The clamp and shift, and a column of the centroids, read at an index -/

/-- A vector clamped from below by the splat of 64, from above by the splat of 960, less the splat of 64, read at an
    index: the crop origin of the vector's word there. -/
theorem clip_apply (x : IVec S512 32) (j : S512.Idx) :
    subi (minsi (broadcastInDim S512 ![] bcast_S_S512 (constantI S_ 32 960#32))
        (maxsi (broadcastInDim S512 ![] bcast_S_S512 (constantI S_ 32 64#32)) x))
      (broadcastInDim S512 ![] bcast_S_S512 (constantI S_ 32 64#32)) j = Cert.Spec.origin (x j) := rfl

/-- Column `k` of a `[512, 2]` array, cut out as a `[512, 1]` slice at offsets `(0, k)` and reshaped to `[512]`, read
    at `j`: the array at `(j, k)`. -/
theorem col_apply (A : IVec S512x2 32) (off : Fin 2 → Nat) (hs : S512x2.Slices off S512x1) (k : Fin 2)
    (h0 : off 0 = 0) (h1 : off 1 = k.val) (j : Fin 512) :
    shapeCast S512 (extractStridedSlice S512x1 off A hs) shapeCasts_S512x1_S512 (ix1 j) = A (ix2 j k) := by
  -- [512, 1] -> [512]: entry j is entry (j, 0)
  refine (shapeCast_apply _ shapeCasts_S512x1_S512 (ix1 j) (ix2 j (0 : Fin 1)) ?_).trans ?_
  · rw [Shape.rowMajor_val_two, Shape.rowMajor_val_one]
    show j.val * 1 + 0 = j.val
    omega
  -- the slice: entry (j, 0) is the array's entry (0 + j, k + 0)
  refine extractStridedSlice_apply off A hs (ix2 j (0 : Fin 1)) (ix2 j k) fun a => ?_
  match a with
  | ⟨0, _⟩ =>
    show j.val = off 0 + j.val
    omega
  | ⟨1, _⟩ =>
    show k.val = off 1 + 0
    omega

/-! ## The two tables of crop origins -/

/-- Table 0 when the region is entered: column 0 of the centroids, clamped and shifted. -/
theorem tbl0_eq (m : (ℓ : Loc nD τ sig) → Buf (Elt F) ℓ) :
    (tbl (F := F) m 0 : IVec S512 32)
      = subi (minsi (broadcastInDim S512 ![] bcast_S_S512 (constantI S_ 32 960#32))
          (maxsi (broadcastInDim S512 ![] bcast_S_S512 (constantI S_ 32 64#32))
            (shapeCast S512 (extractStridedSlice S512x1 ![0, 0]
              (m (((0 : Dev nD) : Thread nD τ).loc main_arg9) : IVec S512x2 32) slices_S512x2_S512x1_0_0) shapeCasts_S512x1_S512)))
        (broadcastInDim S512 ![] bcast_S_S512 (constantI S_ 32 64#32)) := by
  unfold tbl
  show StableHlo.after (List.flatten pfx) (fun b => m (0, b)) (Proc.devRef .tc main_v7) = _
  simp only [pfx, hostOps0, hostOps0_1, hostOps0_2, hostOps0_3, hostOps0_4, List.flatten_cons, List.flatten_nil,
    List.append_nil, List.cons_append, List.nil_append]
  after_results
  rfl

/-- Table 1 when the region is entered: column 1 of the centroids, clamped and shifted. -/
theorem tbl1_eq (m : (ℓ : Loc nD τ sig) → Buf (Elt F) ℓ) :
    (tbl (F := F) m 1 : IVec S512 32)
      = subi (minsi (broadcastInDim S512 ![] bcast_S_S512 (constantI S_ 32 960#32))
          (maxsi (broadcastInDim S512 ![] bcast_S_S512 (constantI S_ 32 64#32))
            (shapeCast S512 (extractStridedSlice S512x1 ![0, 1]
              (m (((0 : Dev nD) : Thread nD τ).loc main_arg9) : IVec S512x2 32) slices_S512x2_S512x1_0_1) shapeCasts_S512x1_S512)))
        (broadcastInDim S512 ![] bcast_S_S512 (constantI S_ 32 64#32)) := by
  unfold tbl
  show StableHlo.after (List.flatten pfx) (fun b => m (0, b)) (Proc.devRef .tc main_v9) = _
  simp only [pfx, hostOps0, hostOps0_1, hostOps0_2, hostOps0_3, hostOps0_4, List.flatten_cons, List.flatten_nil,
    List.append_nil, List.cons_append, List.nil_append]
  after_results
  rfl

/-- Entry `j` of table 0 is the crop origin of instance `j`'s centroid row coordinate. -/
theorem tbl0_apply (m : (ℓ : Loc nD τ sig) → Buf (Elt F) ℓ) (j : Fin 512) :
    tbl (F := F) m 0 (ValueIdx.ix1 j)
      = Cert.Spec.origin (m (((0 : Dev nD) : Thread nD τ).loc main_arg9) (ValueIdx.ix2 j (0 : Fin 2))) := by
  refine (congrFun (tbl0_eq m) (ix1 j)).trans ?_
  refine (clip_apply _ (ix1 j)).trans ?_
  exact congrArg Cert.Spec.origin (col_apply _ _ slices_S512x2_S512x1_0_0 (0 : Fin 2) rfl rfl j)

/-- Entry `j` of table 1 is the crop origin of instance `j`'s centroid column coordinate. -/
theorem tbl1_apply (m : (ℓ : Loc nD τ sig) → Buf (Elt F) ℓ) (j : Fin 512) :
    tbl (F := F) m 1 (ValueIdx.ix1 j)
      = Cert.Spec.origin (m (((0 : Dev nD) : Thread nD τ).loc main_arg9) (ValueIdx.ix2 j (1 : Fin 2))) := by
  refine (congrFun (tbl1_eq m) (ix1 j)).trans ?_
  refine (clip_apply _ (ix1 j)).trans ?_
  exact congrArg Cert.Spec.origin (col_apply _ _ slices_S512x2_S512x1_0_1 (1 : Fin 2) rfl rfl j)

/-! ## The words the body reads off the tables -/

/-- A point of the grid is one of the 512 instances. -/
theorem point_lt (m : (ℓ : Loc nD τ sig) → Buf (Elt F) ℓ) (t : Fin (cfgM m).N) : t.val < 512 :=
  Nat.lt_of_lt_of_eq t.isLt N_0

/-- The one-word rectangle the body loads at point `t` sits at index `t` of a table. -/
theorem word_idx (m : (ℓ : Loc nD τ sig) → Buf (Elt F) ℓ) (t : Fin (cfgM m).N) :
    (Rect.unit (s := S512) (k0_off1 (grid0.coords t)) S1.size (k0_off1_inb (grid0.coords t))).toLoadRect.idx
        (Shape.Idx.first (numel1_S1.symm ▸ Nat.one_pos))
      = ix1 (⟨t.val, point_lt m t⟩ : Fin 512) := by
  have ht := point_lt m t
  funext a
  refine Fin.ext ?_
  match a with
  | ⟨0, _⟩ =>
    show k0_off1 (grid0.coords t) 0 + 1 * 0 = t.val
    rw [k0_off1_eq]
    show t.val / 1 % 512 + 1 * 0 = t.val
    omega

/-- The word the body reads off table 0 at point `t`: the crop origin of instance `t`'s centroid row coordinate. -/
theorem word0_eq (m : (ℓ : Loc nD τ sig) → Buf (Elt F) ℓ) (c : Dev nD) (t : Fin (cfgM m).N) :
    tbM0_0.view.readAt (Elt F) (Rect.unit (s := S512) (k0_off1 (grid0.coords t)) S1.size (k0_off1_inb (grid0.coords t))).toLoadRect
        (tbl m 0) (Shape.Idx.first (numel1_S1.symm ▸ Nat.one_pos))
      = Cert.Spec.origin (m ((c : Thread nD τ).loc main_arg9) (ValueIdx.ix2 (⟨t.val, point_lt m t⟩ : Fin 512) (0 : Fin 2))) := by
  obtain rfl : c = 0 := Subsingleton.elim _ _
  exact (congrArg (tbl (F := F) m 0 : IVec S512 32) (word_idx m t)).trans (tbl0_apply m ⟨t.val, point_lt m t⟩)

/-- The word the body reads off table 1 at point `t`: the crop origin of instance `t`'s centroid column coordinate. -/
theorem word1_eq (m : (ℓ : Loc nD τ sig) → Buf (Elt F) ℓ) (c : Dev nD) (t : Fin (cfgM m).N) :
    tbM0_1.view.readAt (Elt F) (Rect.unit (s := S512) (k0_off1 (grid0.coords t)) S1.size (k0_off1_inb (grid0.coords t))).toLoadRect
        (tbl m 1) (Shape.Idx.first (numel1_S1.symm ▸ Nat.one_pos))
      = Cert.Spec.origin (m ((c : Thread nD τ).loc main_arg9) (ValueIdx.ix2 (⟨t.val, point_lt m t⟩ : Fin 512) (1 : Fin 2))) := by
  obtain rfl : c = 0 := Subsingleton.elim _ _
  exact (congrArg (tbl (F := F) m 1 : IVec S512 32) (word_idx m t)).trans (tbl1_apply m ⟨t.val, point_lt m t⟩)

/-- Two crop origins place both windows inside the images: an origin is at most 896, and 896 + 128 = 1024. -/
theorem chk_of_origin (v w : BitVec 32) : k0_chk1 (Cert.Spec.origin v) (Cert.Spec.origin w) := by
  have hv := Cert.Spec.origin_le v
  have hw := Cert.Spec.origin_le w
  unfold k0_chk1 k0_off2 k0_off3
  refine ⟨fun a => ?_, fun a => ?_⟩
  · match a with
    | ⟨0, _⟩ => show 0 + 6 ≤ 6; omega
    | ⟨1, _⟩ => show (Cert.Spec.origin v).toNat + 128 ≤ 1024; omega
    | ⟨2, _⟩ => show (Cert.Spec.origin w).toNat + 128 ≤ 1024; omega
  · match a with
    | ⟨0, _⟩ => show 0 + 1 ≤ 1; omega
    | ⟨1, _⟩ => show (Cert.Spec.origin v).toNat + 128 ≤ 1024; omega
    | ⟨2, _⟩ => show (Cert.Spec.origin w).toNat + 128 ≤ 1024; omega

/-- The side condition the body assumes of the two words it reads at point `t` holds: they are crop origins. -/
theorem chk_of_tables (m : (ℓ : Loc nD τ sig) → Buf (Elt F) ℓ) (c : Dev nD) (t : Fin (cfgM m).N) :
    k0_chk1
      (tbM0_0.view.readAt (Elt F) (Rect.unit (s := S512) (k0_off1 (grid0.coords t)) S1.size (k0_off1_inb (grid0.coords t))).toLoadRect
        (tbl m 0) (Shape.Idx.first (numel1_S1.symm ▸ Nat.one_pos)))
      (tbM0_1.view.readAt (Elt F) (Rect.unit (s := S512) (k0_off1 (grid0.coords t)) S1.size (k0_off1_inb (grid0.coords t))).toLoadRect
        (tbl m 1) (Shape.Idx.first (numel1_S1.symm ▸ Nat.one_pos))) :=
  (congrArg₂ k0_chk1 (word0_eq m c t) (word1_eq m c t)).mpr (chk_of_origin _ _)

/-! ## The descriptors as the region finds them -/

/-- The array the first window stages when the region is entered: the descriptors given a unit middle axis. -/
theorem v10_eq (m : (ℓ : Loc nD τ sig) → Buf (Elt F) ℓ) (c : Dev nD) :
    (V (F := F) m c main_v10 : Vec F S512x1x6 .f32)
      = broadcastInDim S512x1x6 ![0, 2] bcast_S512x6_S512x1x6_0_2 (m ((c : Thread nD τ).loc main_arg2) : Vec F S512x6 .f32) := by
  show StableHlo.after (List.flatten pfx) (fun b => m (c, b)) (Proc.devRef .tc main_v10) = _
  simp only [pfx, hostOps0, hostOps0_1, hostOps0_2, hostOps0_3, hostOps0_4, List.flatten_cons, List.flatten_nil,
    List.append_nil, List.cons_append, List.nil_append]
  after_results

/-- Entry `(i, 0, ch)` of that array is entry `ch` of instance `i`'s descriptor. -/
theorem v10_apply (m : (ℓ : Loc nD τ sig) → Buf (Elt F) ℓ) (c : Dev nD) (i : Fin 512) (ch : Fin 6) :
    V (F := F) m c main_v10 (ValueIdx.ix3 i (0 : Fin 1) ch) = m ((c : Thread nD τ).loc main_arg2) (ValueIdx.ix2 i ch) := by
  refine (congrFun (v10_eq m c) (ix3 i (0 : Fin 1) ch)).trans ?_
  -- the two axes the broadcast keeps are the result's first and third
  refine broadcastInDim_apply _ bcast_S512x6_S512x1x6_0_2 _ (ix3 i (0 : Fin 1) ch) (ix2 i ch) fun a => ?_
  match a with
  | ⟨0, _⟩ => rfl
  | ⟨1, _⟩ => rfl

end Cert.Kernel.Frame

end
-- ==== Proof.FrameKI.Shared.lean ====
/-
  What the frame proof of this program shares: the contents of the core's buffers when the kernel region is
  entered (after the host lines that clamp the centroids into crop origins and lay the descriptors out), the two
  tables of crop origins the region prefetches, the blocks the pipeline stages, the memrefs the body is handed
  (staging buffers, the two scratch windows, the two images left in HBM, the two tables), the body's own pair of
  DMA semaphores, and the invariant the region keeps: scratch at any contents, the semaphores at zero, the two
  images at their launch contents, the tables' read halves.
-/
import proofs.«401130_j54125177864461_3_alg».proof.Proof.Gen.KernelIdeal.Launch
import proofs.«401130_j54125177864461_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines around the region -/

/-- The host lines before the region: the two centroid columns clamped and shifted into the tables of crop origins,
    and the descriptors given a unit middle axis. -/
abbrev pfx : List (List (HloOp τ sig (Elt F))) := [hostOps0, hostOps0_1, hostOps0_2, hostOps0_3, hostOps0_4]
/-- The host lines after it: the table of instance ids and pixel coordinates, computed from the centroids alone. -/
abbrev sfx : List (List (HloOp τ sig (Elt F))) := [hostOps1, hostOps1_1, hostOps1_2, hostOps1_3, hostOps1_4]

/-- Core `c`'s buffer contents when the region is entered, as a valuation. -/
abbrev V0 (c : Dev nD) : Valuation τ sig (Elt F) := StableHlo.after (List.flatten pfx) (fun b => m (c, b))
/-- The same read at a reference. -/
abbrev V (c : Dev nD) (b : Ref sig .tc) : Buf (Elt F) ((c : Thread nD τ).loc b) := V0 m c (Proc.devRef .tc b)
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the lines before the region, the region, the lines after it. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain ((sfx (F := F)).map StableHlo.seq)) :=
  Pipeline.hmainP_around pcfgs 0 defs₀ 𝒱₀ m main pfx sfx
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩
    (fun c => (main_chain c).trans rfl)

/-! ## The prefetched tables of crop origins -/

/-- The tables' contents when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No window's index map reads a table: the pipeline asks nothing of their contents. -/
abbrev adm : (pcfg0 (F := F)).Adm := ⟨tbl m, trivial⟩
abbrev cfgM : Pipeline.Cfg sig Λ₀ := cfg0 (adm m)

/-- Each table as the body is handed it. -/
abbrev tbM0_0 : Memref sig .tc .smem S512 .i32 := Memref.whole main_v7
abbrev htbM0_0 : tbM0_0.IsWhole := Memref.isWhole_whole _
abbrev tbM0_1 : Memref sig .tc .smem S512 .i32 := Memref.whole main_v9
abbrev htbM0_1 : tbM0_1.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' read halves, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every point, fetched there or not. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (Pipeline.UD sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before0_4_of {c : Dev nD} (dat : Dat τ (Elt F) Unit ℕ (Pipeline.UD sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before0_5_of {c : Dev nD} (dat : Dat τ (Elt F) Unit ℕ (Pipeline.UD sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before0_6_of {c : Dev nD} (dat : Dat τ (Elt F) Unit ℕ (Pipeline.UD sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is handed -/

/-- One staging buffer of the output window, through which its contents are stated. -/
abbrev VO0_7 : View sig .tc .vmem S1x1x128x128 .f32 := (Memref.whole cc0_stg7_0 : Memref sig .tc .vmem S1x1x128x128 .f32).view
abbrev ms0_0 (t : Fin (cfgM m).N) : Memref sig .tc .vmem S512x1x6 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S7x16 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S16 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S16x16 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S16 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S16x1 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S1x1x128x128 .f32 := spec0_7.stage ((cfgM m).slots t 7)
abbrev hs0_7 (t : Fin (cfgM m).N) : (ms0_7 m t).IsWhole := hstage0_7 (((cfgM m).slots t 7).cast nbuf0_7)
/-- The two scratch windows the body copies the crops into. -/
abbrev scM0_0 : Memref sig .tc .vmem S6x128x128 .f32 := Memref.whole cc0_scratch0
abbrev scM0_1 : Memref sig .tc .vmem S1x128x128 .f32 := Memref.whole cc0_scratch1
/-- The two images, left in HBM, which the body crops by its own copies. -/
abbrev hbM0_0 : Memref sig .tc .hbm S6x1024x1024 .f32 := Memref.whole main_arg0
abbrev hbM0_1 : Memref sig .tc .hbm S1x1024x1024 .f32 := Memref.whole main_arg1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own two DMA semaphores. -/
abbrev osem0 : Fin 2 → SemLoc sig := fun j => (![SemLoc.dma 9, SemLoc.dma 10] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
/-- The two images as references: unscoped, no window's array, no table. -/
def H0 : Finset (Ref sig .tc) := {main_arg0, main_arg1}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(hbPt0 c hbM0_0 (V m c main_arg0) ∗ hbPt0 c hbM0_1 (V m c main_arg1)) := by
  rw [BI.bigSep_eq_bigSepL_of_eq [main_arg0, main_arg1] (by decide) (by decide)]; rfl

/-- The region's invariant, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 9) 0 ∗ semVal ((c : Thread nD τ), SemLoc.dma 10) 0) ∗ iprop(hbPt0 c hbM0_0 (V m c main_arg0) ∗ hbPt0 c hbM0_1 (V m c main_arg1))) := by
  rw [Pipeline.ΦD_eq, scopedRest0_eq, ownSems00_eq, hbmPts0_eq]; simp only [scM0_0, scM0_1, owns_whole]; try rfl

/-! ## The lines after the region -/

/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- They touch neither table nor either image: their buffers are the centroids and their own results. -/
theorem sfx_but : ∀ ops ∈ (sfx : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl | rfl | rfl | rfl | rfl
  · refine Pipeline.sub_tailRefsBut pre0 spec0 H0 op ((List.forall_iff_forall_mem.mp hostOps1_sub) op hop) ?_ ?_
    · simp only [hostOps1, List.mem_cons, List.mem_nil_iff, or_false] at hop
      rcases hop with rfl | rfl | rfl | rfl
      all_goals intro k; fin_cases k <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
    · simp only [hostOps1, List.mem_cons, List.mem_nil_iff, or_false] at hop
      rcases hop with rfl | rfl | rfl | rfl
      all_goals intro b hb; simp only [H0, Finset.mem_insert, Finset.mem_singleton] at hb
      all_goals rcases hb with rfl | rfl <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
  · refine Pipeline.sub_tailRefsBut pre0 spec0 H0 op ((List.forall_iff_forall_mem.mp hostOps1_1_sub) op hop) ?_ ?_
    · simp only [hostOps1_1, List.mem_cons, List.mem_nil_iff, or_false] at hop
      rcases hop with rfl | rfl | rfl | rfl | rfl | rfl
      all_goals intro k; fin_cases k <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
    · simp only [hostOps1_1, List.mem_cons, List.mem_nil_iff, or_false] at hop
      rcases hop with rfl | rfl | rfl | rfl | rfl | rfl
      all_goals intro b hb; simp only [H0, Finset.mem_insert, Finset.mem_singleton] at hb
      all_goals rcases hb with rfl | rfl <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
  · refine Pipeline.sub_tailRefsBut pre0 spec0 H0 op ((List.forall_iff_forall_mem.mp hostOps1_2_sub) op hop) ?_ ?_
    · simp only [hostOps1_2, List.mem_cons, List.mem_nil_iff, or_false] at hop
      rcases hop with rfl | rfl | rfl | rfl
      all_goals intro k; fin_cases k <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
    · simp only [hostOps1_2, List.mem_cons, List.mem_nil_iff, or_false] at hop
      rcases hop with rfl | rfl | rfl | rfl
      all_goals intro b hb; simp only [H0, Finset.mem_insert, Finset.mem_singleton] at hb
      all_goals rcases hb with rfl | rfl <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
  · refine Pipeline.sub_tailRefsBut pre0 spec0 H0 op ((List.forall_iff_forall_mem.mp hostOps1_3_sub) op hop) ?_ ?_
    · simp only [hostOps1_3, List.mem_cons, List.mem_nil_iff, or_false] at hop
      rcases hop with rfl | rfl | rfl | rfl | rfl | rfl
      all_goals intro k; fin_cases k <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
    · simp only [hostOps1_3, List.mem_cons, List.mem_nil_iff, or_false] at hop
      rcases hop with rfl | rfl | rfl | rfl | rfl | rfl
      all_goals intro b hb; simp only [H0, Finset.mem_insert, Finset.mem_singleton] at hb
      all_goals rcases hb with rfl | rfl <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
  · refine Pipeline.sub_tailRefsBut pre0 spec0 H0 op ((List.forall_iff_forall_mem.mp hostOps1_4_sub) op hop) ?_ ?_
    · simp only [hostOps1_4, List.mem_cons, List.mem_nil_iff, or_false] at hop
      rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
      all_goals intro k; fin_cases k <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)
    · simp only [hostOps1_4, List.mem_cons, List.mem_nil_iff, or_false] at hop
      rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
      all_goals intro b hb; simp only [H0, Finset.mem_insert, Finset.mem_singleton] at hb
      all_goals rcases hb with rfl | rfl <;>
        simp only [StableHlo.nullary_bufs, StableHlo.unary_bufs, StableHlo.binary_bufs, StableHlo.ternary_bufs, StableHlo.quaternary_bufs, StableHlo.reshape_bufs, StableHlo.TRef.unary, StableHlo.TRef.binary, StableHlo.TRef.nullary, Finset.mem_insert, Finset.mem_singleton, not_or] <;> and_intros <;> exact StableHlo.devRef_ne_of_ne (by decide)

theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton] <;> exact StableHlo.devRef_ne_of_ne (by decide)
set_option maxHeartbeats 2000000 in  -- thirty operations against eight windows: 240 small goals in one declaration
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton] <;> exact StableHlo.devRef_ne_of_ne (by decide)

/-- And write no array of the pipeline. -/
theorem sfx_keeps : ∀ ops ∈ (sfx : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact hostOps1_keeps op hop
  · exact hostOps1_1_keeps op hop
  · exact hostOps1_2_keeps op hop
  · exact hostOps1_3_keeps op hop
  · exact hostOps1_4_keeps op hop

end Cert.KernelIdeal.Frame

end
-- ==== Proof.FrameKI.RunA.lean ====
/-
  The kernel body run once, at a symbolic grid point, on any staging memrefs.
-/
import proofs.«401130_j54125177864461_3_alg».proof.Proof.FrameKI.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body on any staging memrefs -/

set_option maxHeartbeats 4000000 in
/-- The body's run at any grid point: on whole staging memrefs with the inputs at their contents, the output's, the two
    scratch windows' at anything, its two semaphores at zero, the two images whole at their contents, the two tables'
    read halves, and the crop origin's window known to fit (what the body assumes of the two table words it reads), the
    body starts its two copies, waits for both, loads the crops, the descriptor row and the weights, computes, and
    stores the block — everything it borrowed handed back as it was, the output's buffer with the one store written. -/
noncomputable def kernelRun0_A (c : Dev nD) (i : grid0.Coords) (arg5 : Memref sig .tc .vmem S512x1x6 .f32) (harg5 : arg5.IsWhole) (arg6 : Memref sig .tc .vmem S7x16 .f32) (harg6 : arg6.IsWhole) (arg7 : Memref sig .tc .vmem S16 .f32) (harg7 : arg7.IsWhole) (arg8 : Memref sig .tc .vmem S16x16 .f32) (harg8 : arg8.IsWhole) (arg9 : Memref sig .tc .vmem S16 .f32) (harg9 : arg9.IsWhole) (arg10 : Memref sig .tc .vmem S16x1 .f32) (harg10 : arg10.IsWhole) (arg11 : Memref sig .tc .vmem S1 .f32) (harg11 : arg11.IsWhole) (arg12 : Memref sig .tc .vmem S1x1x128x128 .f32) (harg12 : arg12.IsWhole) (arg13 : Memref sig .tc .vmem S6x128x128 .f32) (harg13 : arg13.IsWhole) (arg14 : Memref sig .tc .vmem S1x128x128 .f32) (harg14 : arg14.IsWhole)
    (x0 : Vec F S512x1x6 .f32) (x1 : Vec F S7x16 .f32) (x2 : Vec F S16 .f32) (x3 : Vec F S16x16 .f32) (x4 : Vec F S16 .f32) (x5 : Vec F S16x1 .f32) (x6 : Vec F S1 .f32) (fh0 : HbBuf0 (F := F) c hbM0_0) (fh1 : HbBuf0 (F := F) c hbM0_1) (xt0 : TbBuf0 (F := F) c tbM0_0) (xt1 : TbBuf0 (F := F) c tbM0_1)
    (k0_hw1 : k0_chk1 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) :
    { L7 : List (View.Piece (Elt F) S1x1x128x128 .f32) //
      ∀ (W : Waits sig Unit) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 9) 0 ∗ semVal ((c : Thread nD τ), SemLoc.dma 10) 0 ∗ hbPt0 c hbM0_0 fh0 ∗ hbPt0 c hbM0_1 fh1 ∗ tbPt0 c tbM0_0 xt0 ∗ tbPt0 c tbM0_1 xt1 ∗ owes (c : Thread nD τ) 0 W
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ f, arg12.view.loc (c : Thread nD τ) ↦[arg12.view.set]{fullShare} arg12.view.writes (Elt F) f L7) ∗ (∃ d, owns (c : Thread nD τ) arg13 fullShare d) ∗ (∃ d, owns (c : Thread nD τ) arg14 fullShare d) ∗ semVal ((c : Thread nD τ), SemLoc.dma 9) 0 ∗ semVal ((c : Thread nD τ), SemLoc.dma 10) 0 ∗ hbPt0 c hbM0_0 fh0 ∗ hbPt0 c hbM0_1 fh1 ∗ tbPt0 c tbM0_0 xt0 ∗ tbPt0 c tbM0_1 xt1 ∗ (∃ W', owes (c : Thread nD τ) 0 W')) -∗ K ⟨⟩))
          ⊢ wp frame (wpE (defs₀ (F := F)) Variants.none c none) Set.univ (cc0__gather_mlp_kernel i tbM0_0 htbM0_0 tbM0_1 htbM0_1 hbM0_0 (Memref.isWhole_whole _) hbM0_1 (Memref.isWhole_whole _) arg5 harg5 arg6 harg6 arg7 harg7 arg8 harg8 arg9 harg9 arg10 harg10 arg11 harg11 arg12 harg12 arg13 harg13 arg14 harg14 cc0_scratch2) K } := by
  refine ⟨?_, fun W K => ?run⟩
  case run =>
    simp only [cc0__gather_mlp_kernel_eq_skeleton]; unfold cc0__gather_mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hq0, Hq1, Hh0, Hh1, HT0, HT1, HW, Hk⟩
    obtain rfl := harg5.eq_unread hf0
    obtain rfl := harg6.eq_unread hf1
    obtain rfl := harg7.eq_unread hf2
    obtain rfl := harg8.eq_unread hf3
    obtain rfl := harg9.eq_unread hf4
    obtain rfl := harg10.eq_unread hf5
    obtain rfl := harg11.eq_unread hf6
    sl_exec (disch := first | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hh0]; · iexact Hh0
    isplitl [Hh1]; · iexact Hh1
    isplitl [HT0]; · iexact HT0
    isplitl [HT1]; · iexact HT1
    iexists _; iexact HW

end Cert.KernelIdeal.Frame

end
-- ==== Proof.FrameKI.Frame.lean ====
/-
  The frame of the program: what the output's staging buffer holds after the body at each grid point, the
  pipeline's proof data, the body obligation at a symbolic point, the run of @main (host lines, the region, host
  lines), and what every argument and result buffer holds when it ends.
-/
import proofs.«401130_j54125177864461_3_alg».proof.Proof.FrameKI.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's one store writes the whole output block, so its pieces cover it. -/
theorem cover0_A_7 (c : Dev nD) (i : grid0.Coords) (arg5 : Memref sig .tc .vmem S512x1x6 .f32) (harg5 : arg5.IsWhole) (arg6 : Memref sig .tc .vmem S7x16 .f32) (harg6 : arg6.IsWhole) (arg7 : Memref sig .tc .vmem S16 .f32) (harg7 : arg7.IsWhole) (arg8 : Memref sig .tc .vmem S16x16 .f32) (harg8 : arg8.IsWhole) (arg9 : Memref sig .tc .vmem S16 .f32) (harg9 : arg9.IsWhole) (arg10 : Memref sig .tc .vmem S16x1 .f32) (harg10 : arg10.IsWhole) (arg11 : Memref sig .tc .vmem S1 .f32) (harg11 : arg11.IsWhole) (arg12 : Memref sig .tc .vmem S1x1x128x128 .f32) (harg12 : arg12.IsWhole) (arg13 : Memref sig .tc .vmem S6x128x128 .f32) (harg13 : arg13.IsWhole) (arg14 : Memref sig .tc .vmem S1x128x128 .f32) (harg14 : arg14.IsWhole)
    (x0 : Vec F S512x1x6 .f32) (x1 : Vec F S7x16 .f32) (x2 : Vec F S16 .f32) (x3 : Vec F S16x16 .f32) (x4 : Vec F S16 .f32) (x5 : Vec F S16x1 .f32) (x6 : Vec F S1 .f32) (fh0 : HbBuf0 (F := F) c hbM0_0) (fh1 : HbBuf0 (F := F) c hbM0_1) (xt0 : TbBuf0 (F := F) c tbM0_0) (xt1 : TbBuf0 (F := F) c tbM0_1)
    (k0_hw1 : k0_chk1 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) (y : S1x1x128x128.Idx) :
    ∃ pc ∈ (kernelRun0_A c i arg5 harg5 arg6 harg6 arg7 harg7 arg8 harg8 arg9 harg9 arg10 harg10 arg11 harg11 arg12 harg12 arg13 harg13 arg14 harg14 x0 x1 x2 x3 x4 x5 x6 fh0 fh1 xt0 xt1 k0_hw1).1, y ∈ pc.1.set :=
  View.cover_of_tiledL (kernelRun0_A c i arg5 harg5 arg6 harg6 arg7 harg7 arg8 harg8 arg9 harg9 arg10 harg10 arg11 harg11 arg12 harg12 arg13 harg13 arg14 harg14 x0 x1 x2 x3 x4 x5 x6 fh0 fh1 xt0 xt1 k0_hw1).1 S1x1x128x128.size (by sl_kernel_rfl) y

/-- What the run leaves in the output's staging buffer: its pieces read back. -/
def out0_A_7 (c : Dev nD) (i : grid0.Coords) (arg5 : Memref sig .tc .vmem S512x1x6 .f32) (harg5 : arg5.IsWhole) (arg6 : Memref sig .tc .vmem S7x16 .f32) (harg6 : arg6.IsWhole) (arg7 : Memref sig .tc .vmem S16 .f32) (harg7 : arg7.IsWhole) (arg8 : Memref sig .tc .vmem S16x16 .f32) (harg8 : arg8.IsWhole) (arg9 : Memref sig .tc .vmem S16 .f32) (harg9 : arg9.IsWhole) (arg10 : Memref sig .tc .vmem S16x1 .f32) (harg10 : arg10.IsWhole) (arg11 : Memref sig .tc .vmem S1 .f32) (harg11 : arg11.IsWhole) (arg12 : Memref sig .tc .vmem S1x1x128x128 .f32) (harg12 : arg12.IsWhole) (arg13 : Memref sig .tc .vmem S6x128x128 .f32) (harg13 : arg13.IsWhole) (arg14 : Memref sig .tc .vmem S1x128x128 .f32) (harg14 : arg14.IsWhole)
    (x0 : Vec F S512x1x6 .f32) (x1 : Vec F S7x16 .f32) (x2 : Vec F S16 .f32) (x3 : Vec F S16x16 .f32) (x4 : Vec F S16 .f32) (x5 : Vec F S16x1 .f32) (x6 : Vec F S1 .f32) (fh0 : HbBuf0 (F := F) c hbM0_0) (fh1 : HbBuf0 (F := F) c hbM0_1) (xt0 : TbBuf0 (F := F) c tbM0_0) (xt1 : TbBuf0 (F := F) c tbM0_1)
    (k0_hw1 : k0_chk1 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) : Vec F S1x1x128x128 .f32 :=
  VO0_7.read (Elt F) (VO0_7.writes (Elt F) VO0_7.junk (kernelRun0_A c i arg5 harg5 arg6 harg6 arg7 harg7 arg8 harg8 arg9 harg9 arg10 harg10 arg11 harg11 arg12 harg12 arg13 harg13 arg14 harg14 x0 x1 x2 x3 x4 x5 x6 fh0 fh1 xt0 xt1 k0_hw1).1)

/-- What the body assumes of the two table words it reads, at every grid point: the crop's window, starting at
    those words, fits inside the image. -/
def Hyps (m : (ℓ : Loc nD τ sig) → Buf (Elt F) ℓ) : Prop :=
  ∀ (c : Dev nD) (t : Fin (cfgM m).N),
    k0_chk1 (tbM0_0.view.readAt (Elt F) (Rect.unit (s := S512) (k0_off1 (grid0.coords t)) S1.size (k0_off1_inb (grid0.coords t))).toLoadRect (tbl m 0) (Shape.Idx.first (numel1_S1.symm ▸ Nat.one_pos)))
      (tbM0_1.view.readAt (Elt F) (Rect.unit (s := S512) (k0_off1 (grid0.coords t)) S1.size (k0_off1_inb (grid0.coords t))).toLoadRect (tbl m 1) (Shape.Idx.first (numel1_S1.symm ▸ Nat.one_pos)))

/-- What the output's staging buffer holds after the body at point `t`. -/
def outsAt0 (hH : Hyps m) (c : Dev nD) (t : Fin (cfgM m).N) : Vec F S1x1x128x128 .f32 :=
  out0_A_7 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) scM0_0 (Memref.isWhole_whole _) scM0_1 (Memref.isWhole_whole _) (iblk m c 0 t) (iblk m c 1 t) (iblk m c 2 t) (iblk m c 3 t) (iblk m c 4 t) (iblk m c 5 t) (iblk m c 6 t) (V m c main_arg0) (V m c main_arg1) (tbl m 0) (tbl m 1) (hH c t)

/-- The pipeline's proof data on core `c`: the arrays as the region finds them; after the body each input's buffer at
    its block and the output's at `outsAt0`; the invariant (scratch, the body's semaphores at zero, the images at their
    launch contents, the tables' read halves); nothing owed; full shares. -/
def dats (hH : Hyps m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m hH c t)
  Φ _ := iprop(Pipeline.ΦD osem0 spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = iblk m c 1 t := by dsimp only [dats]; try rfl
theorem after0_2 (hH : Hyps m) (c : Dev nD) (t : Fin (cfgM m).N) : (dats m hH 0 c).after 2 t = iblk m c 2 t := by dsimp only [dats]; try rfl
theorem after0_3 (hH : Hyps m) (c : Dev nD) (t : Fin (cfgM m).N) : (dats m hH 0 c).after 3 t = iblk m c 3 t := by dsimp only [dats]; try rfl
theorem after0_4 (hH : Hyps m) (c : Dev nD) (t : Fin (cfgM m).N) : (dats m hH 0 c).after 4 t = iblk m c 4 t := by dsimp only [dats]; try rfl
theorem after0_5 (hH : Hyps m) (c : Dev nD) (t : Fin (cfgM m).N) : (dats m hH 0 c).after 5 t = iblk m c 5 t := by dsimp only [dats]; try rfl
theorem after0_6 (hH : Hyps m) (c : Dev nD) (t : Fin (cfgM m).N) : (dats m hH 0 c).after 6 t = iblk m c 6 t := by dsimp only [dats]; try rfl
theorem after0_7 (hH : Hyps m) (c : Dev nD) (t : Fin (cfgM m).N) : (dats m hH 0 c).after 7 t = (outsAt0 m hH c t) := by dsimp only [dats]; try rfl

theorem before0_0 (hH : Hyps m) (c : Dev nD) (t : Fin (cfgM m).N) (d) : (dats m hH 0 c).before 0 t d = iblk m c 0 t :=
  before0_0_of m (dats m hH 0 c) (A_eq m hH c 0) (after0_0 m hH c) t d
theorem before0_1 (hH : Hyps m) (c : Dev nD) (t : Fin (cfgM m).N) (d) : (dats m hH 0 c).before 1 t d = iblk m c 1 t :=
  before0_1_of m (dats m hH 0 c) (A_eq m hH c 1) (after0_1 m hH c) t d
theorem before0_2 (hH : Hyps m) (c : Dev nD) (t : Fin (cfgM m).N) (d) : (dats m hH 0 c).before 2 t d = iblk m c 2 t :=
  before0_2_of m (dats m hH 0 c) (A_eq m hH c 2) (after0_2 m hH c) t d
theorem before0_3 (hH : Hyps m) (c : Dev nD) (t : Fin (cfgM m).N) (d) : (dats m hH 0 c).before 3 t d = iblk m c 3 t :=
  before0_3_of m (dats m hH 0 c) (A_eq m hH c 3) (after0_3 m hH c) t d
theorem before0_4 (hH : Hyps m) (c : Dev nD) (t : Fin (cfgM m).N) (d) : (dats m hH 0 c).before 4 t d = iblk m c 4 t :=
  before0_4_of m (dats m hH 0 c) (A_eq m hH c 4) (after0_4 m hH c) t d
theorem before0_5 (hH : Hyps m) (c : Dev nD) (t : Fin (cfgM m).N) (d) : (dats m hH 0 c).before 5 t d = iblk m c 5 t :=
  before0_5_of m (dats m hH 0 c) (A_eq m hH c 5) (after0_5 m hH c) t d
theorem before0_6 (hH : Hyps m) (c : Dev nD) (t : Fin (cfgM m).N) (d) : (dats m hH 0 c).before 6 t d = iblk m c 6 t :=
  before0_6_of m (dats m hH 0 c) (A_eq m hH c 6) (after0_6 m hH c) t d

/-- The body at point `t`, on what the pipeline calls it with. -/
abbrev bodyAt0 (t : Fin (cfgM m).N) : Prog (TpuEff nD τ sig (Elt F) Λ₀ .tc) PUnit :=
  cc0__gather_mlp_kernel (grid0.coords t) (Memref.whole main_v7) (Memref.isWhole_whole _) (Memref.whole main_v9) (Memref.isWhole_whole _) (Memref.whole main_arg0) (Memref.isWhole_whole _) (Memref.whole main_arg1) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (Memref.whole cc0_scratch0) (Memref.isWhole_whole _) (Memref.whole cc0_scratch1) (Memref.isWhole_whole _) cc0_scratch2

/-- What the body is called with at point `t`, the windows one by one, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d))
    ∗ (∃ d, owns (c : Thread nD τ) (ms0_3 m t) fullShare ((dats m hH 0 c).before 3 t d))
    ∗ (∃ d, owns (c : Thread nD τ) (ms0_4 m t) fullShare ((dats m hH 0 c).before 4 t d))
    ∗ (∃ d, owns (c : Thread nD τ) (ms0_5 m t) fullShare ((dats m hH 0 c).before 5 t d))
    ∗ (∃ d, owns (c : Thread nD τ) (ms0_6 m t) fullShare ((dats m hH 0 c).before 6 t d))
    ∗ (∃ d, owns (c : Thread nD τ) (ms0_7 m t) fullShare ((dats m hH 0 c).before 7 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t)
    ∗ owns (c : Thread nD τ) (ms0_3 m t) fullShare ((dats m hH 0 c).after 3 t)
    ∗ owns (c : Thread nD τ) (ms0_4 m t) fullShare ((dats m hH 0 c).after 4 t)
    ∗ owns (c : Thread nD τ) (ms0_5 m t) fullShare ((dats m hH 0 c).after 5 t)
    ∗ owns (c : Thread nD τ) (ms0_6 m t) fullShare ((dats m hH 0 c).after 6 t)
    ∗ owns (c : Thread nD τ) (ms0_7 m t) fullShare ((dats m hH 0 c).after 7 t))

/-- The body at any point: the inputs' memrefs hold their blocks, so the run applies; the invariant hands the body its
    scratch, its two semaphores at zero, the two images and the tables' halves, and takes them back as they were. -/
theorem sound_body (hH : Hyps m) (c : Dev nD) (t : Fin (cfgM m).N) :
    bodyPre m hH c t ⊢ wp frame (wpE (defs₀ (F := F)) Variants.none c none) Set.univ (bodyAt0 m t) (fun _ => bodyPost m hH c t) := by
  unfold bodyPre bodyPost bodyAt0
  simp only [before0_0, before0_1, before0_2, before0_3, before0_4, before0_5, before0_6]
  rw [show (dats m hH 0 c).Φ t.succ = (dats m hH 0 c).Φ t.castSucc from rfl,
    after0_0, after0_1, after0_2, after0_3, after0_4, after0_5, after0_6, after0_7]
  rw [show (dats m hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hH 0 c).owed t.castSucc = 0 from rfl, show (dats m hH 0 c).owed t.succ = 0 from rfl]
  unfold outsAt0
  unfold out0_A_7
  iintro ⟨⟨⟨⟨HS0, HS1⟩, Hg, ⟨Hq0, Hq1⟩, ⟨Hh0, Hh1⟩⟩, ⟨HT0, HT1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (V m c main_arg0) (V m c main_arg1) (tbl m 0) (tbl m 1) (hH c t)).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HT0]; · iexact HT0
  isplitl [HT1]; · iexact HT1
  isplitl [HW]; · iexact HW
  iintro ⟨H0, H1, H2, H3, H4, H5, H6, ⟨%e7, H7⟩, HS0, HS1, Hq0, Hq1, Hh0, Hh1, HT0, HT1, ⟨%W', HW'⟩⟩
  isplitl [HS0 HS1 Hg Hq0 Hq1 Hh0 Hh1 HT0 HT1]
  · isplitl [HS0 HS1 Hg Hq0 Hq1 Hh0 Hh1]
    · isplitl [HS0 HS1]
      · isplitl [HS0]; · iexact HS0
        iexact HS1
      isplitl [Hg]; · iexact Hg
      isplitl [Hq0 Hq1]
      · isplitl [Hq0]; · iexact Hq0
        iexact Hq1
      isplitl [Hh0]; · iexact Hh0
      iexact Hh1
    isplitl [HT0]; · iexact HT0
    iexact HT1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _ _ _ _)

/-- The library's body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

/-! ## The run -/

set_option backward.isDefEq.respectTransparency.types false in
/-- Every weakly fair execution of @main terminates; at its end every array of the pipeline holds what the library
    computes from the proof data, and every other unscoped buffer what the lines after the region leave in it. -/
theorem run_main (hH : Hyps m) : θ_run defs (onTc (τ := τ) (main (F := F))) (s₀ m ρ)
    (Pipeline.FramePost (Pipeline.pin pcfgs fun _ => adm m) (dats m hH) 0 (Pipeline.afterTail pcfgs (fun _ => adm m) (dats m hH) 0 (V0 m) sfx)) :=
  Pipeline.θ_run_frameP_dma_around pcfgs (fun _ => adm m) (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := sfx) (hsub := sfx_but) (hfresh := sfx_fresh) (hkeep := sfx_keeps)
    (hmain := hmain m Variants.none) (hA := A_eq m hH) (hpf := V_pre m)
    (hin := fun _ => .rfl) (hout := fun c => by change iprop(_ ∗ _) ⊢ _; iintro ⟨HD, -⟩; iexact HD)

/-! ## The arguments at the end -/

/-- No line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
      simp only [pfx, hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide)))

/-- No line after the region writes argument 0, and no window stages it: it ends as launched. -/
theorem W_main_arg0 (hH : Hyps m) (c : Dev nD) :
    Pipeline.afterTail pcfgs (fun _ => adm m) (dats m hH) 0 (V0 m) sfx c main_arg0 = m ((c : Thread nD τ).loc main_arg0) := by
  unfold Pipeline.afterTail
  rw [StableHlo.after_of_forall_not_mem (b := Proc.devRef .tc main_arg0) _ _ (List.forall_iff_forall_mem.mp (by
      simp only [sfx, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line after the region writes argument 1, and no window stages it: it ends as launched. -/
theorem W_main_arg1 (hH : Hyps m) (c : Dev nD) :
    Pipeline.afterTail pcfgs (fun _ => adm m) (dats m hH) 0 (V0 m) sfx c main_arg1 = m ((c : Thread nD τ).loc main_arg1) := by
  unfold Pipeline.afterTail
  rw [StableHlo.after_of_forall_not_mem (b := Proc.devRef .tc main_arg1) _ _ (List.forall_iff_forall_mem.mp (by
      simp only [sfx, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line after the region writes argument 2, and no window stages it: it ends as launched. -/
theorem W_main_arg2 (hH : Hyps m) (c : Dev nD) :
    Pipeline.afterTail pcfgs (fun _ => adm m) (dats m hH) 0 (V0 m) sfx c main_arg2 = m ((c : Thread nD τ).loc main_arg2) := by
  unfold Pipeline.afterTail
  rw [StableHlo.after_of_forall_not_mem (b := Proc.devRef .tc main_arg2) _ _ (List.forall_iff_forall_mem.mp (by
      simp only [sfx, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line after the region writes argument 9, and no window stages it: it ends as launched. -/
theorem W_main_arg9 (hH : Hyps m) (c : Dev nD) :
    Pipeline.afterTail pcfgs (fun _ => adm m) (dats m hH) 0 (V0 m) sfx c main_arg9 = m ((c : Thread nD τ).loc main_arg9) := by
  unfold Pipeline.afterTail
  rw [StableHlo.after_of_forall_not_mem (b := Proc.devRef .tc main_arg9) _ _ (List.forall_iff_forall_mem.mp (by
      simp only [sfx, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- THE FRAME: every weakly fair execution of @main terminates, nothing faulting, with every argument as launched. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_arg0 (by decide : main_arg0 ∈ Pipeline.restRefs sig spec0)).trans (W_main_arg0 m hH c),
      ((h c).2 main_arg1 (by decide : main_arg1 ∈ Pipeline.restRefs sig spec0)).trans (W_main_arg1 m hH c),
      ((h c).2 main_arg2 (by decide : main_arg2 ∈ Pipeline.restRefs sig spec0)).trans (W_main_arg2 m hH c),
      ((h c).1 1).trans (((dats m hH 0 c).arrAt_in 1 rfl _).trans ((A_eq m hH c 1).trans (V_main_arg3 m c))),
      ((h c).1 2).trans (((dats m hH 0 c).arrAt_in 2 rfl _).trans ((A_eq m hH c 2).trans (V_main_arg4 m c))),
      ((h c).1 3).trans (((dats m hH 0 c).arrAt_in 3 rfl _).trans ((A_eq m hH c 3).trans (V_main_arg5 m c))),
      ((h c).1 4).trans (((dats m hH 0 c).arrAt_in 4 rfl _).trans ((A_eq m hH c 4).trans (V_main_arg6 m c))),
      ((h c).1 5).trans (((dats m hH 0 c).arrAt_in 5 rfl _).trans ((A_eq m hH c 5).trans (V_main_arg7 m c))),
      ((h c).1 6).trans (((dats m hH 0 c).arrAt_in 6 rfl _).trans ((A_eq m hH c 6).trans (V_main_arg8 m c))),
      ((h c).2 main_arg9 (by decide : main_arg9 ∈ Pipeline.restRefs sig spec0)).trans (W_main_arg9 m hH c)⟩) (run_main m ρ hH)

end Cert.KernelIdeal.Frame

end
-- ==== Proof.FrameKI.Tables.lean ====
/-
  The two tables of crop origins the region prefetches, as values, and the words the body reads off them.

  Before the region the host lines cut each column of the `[512, 2]` centroid array out as a `[512, 1]` slice, reshape it
  to `[512]`, clamp it (signed) from below by 64 and from above by 960, and take 64 off. Entry `j` of table `k` is
  therefore the crop origin of the centroid word `(j, k)`. At point `t` of the grid the body loads the one word at
  offset `t` of each table, so the two words it reads are the crop origins of instance `t`'s centroid; an origin is at
  most 896, so both 128-wide windows lie inside the 1024-wide images, which is the side condition the body assumes.

  The last host line gives the `[512, 6]` descriptor array a unit middle axis: entry `(i, 0, ch)` of the array the first
  window stages is entry `ch` of instance `i`'s descriptor.
-/
import proofs.«401130_j54125177864461_3_alg».proof.Proof.FrameKI.Shared
import proofs.«401130_j54125177864461_3_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The clamp and shift, and a column of the centroids, read at an index -/

/-- A vector clamped from below by the splat of 64, from above by the splat of 960, less the splat of 64, read at an
    index: the crop origin of the vector's word there. -/
theorem clip_apply (x : IVec S512 32) (j : S512.Idx) :
    subi (minsi (broadcastInDim S512 ![] bcast_S_S512 (constantI S_ 32 960#32))
        (maxsi (broadcastInDim S512 ![] bcast_S_S512 (constantI S_ 32 64#32)) x))
      (broadcastInDim S512 ![] bcast_S_S512 (constantI S_ 32 64#32)) j = Cert.Spec.origin (x j) := rfl

/-- Column `k` of a `[512, 2]` array, cut out as a `[512, 1]` slice at offsets `(0, k)` and reshaped to `[512]`, read
    at `j`: the array at `(j, k)`. -/
theorem col_apply (A : IVec S512x2 32) (off : Fin 2 → Nat) (hs : S512x2.Slices off S512x1) (k : Fin 2)
    (h0 : off 0 = 0) (h1 : off 1 = k.val) (j : Fin 512) :
    shapeCast S512 (extractStridedSlice S512x1 off A hs) shapeCasts_S512x1_S512 (ix1 j) = A (ix2 j k) := by
  -- [512, 1] -> [512]: entry j is entry (j, 0)
  refine (shapeCast_apply _ shapeCasts_S512x1_S512 (ix1 j) (ix2 j (0 : Fin 1)) ?_).trans ?_
  · rw [Shape.rowMajor_val_two, Shape.rowMajor_val_one]
    show j.val * 1 + 0 = j.val
    omega
  -- the slice: entry (j, 0) is the array's entry (0 + j, k + 0)
  refine extractStridedSlice_apply off A hs (ix2 j (0 : Fin 1)) (ix2 j k) fun a => ?_
  match a with
  | ⟨0, _⟩ =>
    show j.val = off 0 + j.val
    omega
  | ⟨1, _⟩ =>
    show k.val = off 1 + 0
    omega

/-! ## The two tables of crop origins -/

/-- Table 0 when the region is entered: column 0 of the centroids, clamped and shifted. -/
theorem tbl0_eq (m : (ℓ : Loc nD τ sig) → Buf (Elt F) ℓ) :
    (tbl (F := F) m 0 : IVec S512 32)
      = subi (minsi (broadcastInDim S512 ![] bcast_S_S512 (constantI S_ 32 960#32))
          (maxsi (broadcastInDim S512 ![] bcast_S_S512 (constantI S_ 32 64#32))
            (shapeCast S512 (extractStridedSlice S512x1 ![0, 0]
              (m (((0 : Dev nD) : Thread nD τ).loc main_arg9) : IVec S512x2 32) slices_S512x2_S512x1_0_0) shapeCasts_S512x1_S512)))
        (broadcastInDim S512 ![] bcast_S_S512 (constantI S_ 32 64#32)) := by
  unfold tbl
  show StableHlo.after (List.flatten pfx) (fun b => m (0, b)) (Proc.devRef .tc main_v7) = _
  simp only [pfx, hostOps0, hostOps0_1, hostOps0_2, hostOps0_3, hostOps0_4, List.flatten_cons, List.flatten_nil,
    List.append_nil, List.cons_append, List.nil_append]
  after_results
  rfl

/-- Table 1 when the region is entered: column 1 of the centroids, clamped and shifted. -/
theorem tbl1_eq (m : (ℓ : Loc nD τ sig) → Buf (Elt F) ℓ) :
    (tbl (F := F) m 1 : IVec S512 32)
      = subi (minsi (broadcastInDim S512 ![] bcast_S_S512 (constantI S_ 32 960#32))
          (maxsi (broadcastInDim S512 ![] bcast_S_S512 (constantI S_ 32 64#32))
            (shapeCast S512 (extractStridedSlice S512x1 ![0, 1]
              (m (((0 : Dev nD) : Thread nD τ).loc main_arg9) : IVec S512x2 32) slices_S512x2_S512x1_0_1) shapeCasts_S512x1_S512)))
        (broadcastInDim S512 ![] bcast_S_S512 (constantI S_ 32 64#32)) := by
  unfold tbl
  show StableHlo.after (List.flatten pfx) (fun b => m (0, b)) (Proc.devRef .tc main_v9) = _
  simp only [pfx, hostOps0, hostOps0_1, hostOps0_2, hostOps0_3, hostOps0_4, List.flatten_cons, List.flatten_nil,
    List.append_nil, List.cons_append, List.nil_append]
  after_results
  rfl

/-- Entry `j` of table 0 is the crop origin of instance `j`'s centroid row coordinate. -/
theorem tbl0_apply (m : (ℓ : Loc nD τ sig) → Buf (Elt F) ℓ) (j : Fin 512) :
    tbl (F := F) m 0 (ValueIdx.ix1 j)
      = Cert.Spec.origin (m (((0 : Dev nD) : Thread nD τ).loc main_arg9) (ValueIdx.ix2 j (0 : Fin 2))) := by
  refine (congrFun (tbl0_eq m) (ix1 j)).trans ?_
  refine (clip_apply _ (ix1 j)).trans ?_
  exact congrArg Cert.Spec.origin (col_apply _ _ slices_S512x2_S512x1_0_0 (0 : Fin 2) rfl rfl j)

/-- Entry `j` of table 1 is the crop origin of instance `j`'s centroid column coordinate. -/
theorem tbl1_apply (m : (ℓ : Loc nD τ sig) → Buf (Elt F) ℓ) (j : Fin 512) :
    tbl (F := F) m 1 (ValueIdx.ix1 j)
      = Cert.Spec.origin (m (((0 : Dev nD) : Thread nD τ).loc main_arg9) (ValueIdx.ix2 j (1 : Fin 2))) := by
  refine (congrFun (tbl1_eq m) (ix1 j)).trans ?_
  refine (clip_apply _ (ix1 j)).trans ?_
  exact congrArg Cert.Spec.origin (col_apply _ _ slices_S512x2_S512x1_0_1 (1 : Fin 2) rfl rfl j)

/-! ## The words the body reads off the tables -/

/-- A point of the grid is one of the 512 instances. -/
theorem point_lt (m : (ℓ : Loc nD τ sig) → Buf (Elt F) ℓ) (t : Fin (cfgM m).N) : t.val < 512 :=
  Nat.lt_of_lt_of_eq t.isLt N_0

/-- The one-word rectangle the body loads at point `t` sits at index `t` of a table. -/
theorem word_idx (m : (ℓ : Loc nD τ sig) → Buf (Elt F) ℓ) (t : Fin (cfgM m).N) :
    (Rect.unit (s := S512) (k0_off1 (grid0.coords t)) S1.size (k0_off1_inb (grid0.coords t))).toLoadRect.idx
        (Shape.Idx.first (numel1_S1.symm ▸ Nat.one_pos))
      = ix1 (⟨t.val, point_lt m t⟩ : Fin 512) := by
  have ht := point_lt m t
  funext a
  refine Fin.ext ?_
  match a with
  | ⟨0, _⟩ =>
    show k0_off1 (grid0.coords t) 0 + 1 * 0 = t.val
    rw [k0_off1_eq]
    show t.val / 1 % 512 + 1 * 0 = t.val
    omega

/-- The word the body reads off table 0 at point `t`: the crop origin of instance `t`'s centroid row coordinate. -/
theorem word0_eq (m : (ℓ : Loc nD τ sig) → Buf (Elt F) ℓ) (c : Dev nD) (t : Fin (cfgM m).N) :
    tbM0_0.view.readAt (Elt F) (Rect.unit (s := S512) (k0_off1 (grid0.coords t)) S1.size (k0_off1_inb (grid0.coords t))).toLoadRect
        (tbl m 0) (Shape.Idx.first (numel1_S1.symm ▸ Nat.one_pos))
      = Cert.Spec.origin (m ((c : Thread nD τ).loc main_arg9) (ValueIdx.ix2 (⟨t.val, point_lt m t⟩ : Fin 512) (0 : Fin 2))) := by
  obtain rfl : c = 0 := Subsingleton.elim _ _
  exact (congrArg (tbl (F := F) m 0 : IVec S512 32) (word_idx m t)).trans (tbl0_apply m ⟨t.val, point_lt m t⟩)

/-- The word the body reads off table 1 at point `t`: the crop origin of instance `t`'s centroid column coordinate. -/
theorem word1_eq (m : (ℓ : Loc nD τ sig) → Buf (Elt F) ℓ) (c : Dev nD) (t : Fin (cfgM m).N) :
    tbM0_1.view.readAt (Elt F) (Rect.unit (s := S512) (k0_off1 (grid0.coords t)) S1.size (k0_off1_inb (grid0.coords t))).toLoadRect
        (tbl m 1) (Shape.Idx.first (numel1_S1.symm ▸ Nat.one_pos))
      = Cert.Spec.origin (m ((c : Thread nD τ).loc main_arg9) (ValueIdx.ix2 (⟨t.val, point_lt m t⟩ : Fin 512) (1 : Fin 2))) := by
  obtain rfl : c = 0 := Subsingleton.elim _ _
  exact (congrArg (tbl (F := F) m 1 : IVec S512 32) (word_idx m t)).trans (tbl1_apply m ⟨t.val, point_lt m t⟩)

/-- Two crop origins place both windows inside the images: an origin is at most 896, and 896 + 128 = 1024. -/
theorem chk_of_origin (v w : BitVec 32) : k0_chk1 (Cert.Spec.origin v) (Cert.Spec.origin w) := by
  have hv := Cert.Spec.origin_le v
  have hw := Cert.Spec.origin_le w
  unfold k0_chk1 k0_off2 k0_off3
  refine ⟨fun a => ?_, fun a => ?_⟩
  · match a with
    | ⟨0, _⟩ => show 0 + 6 ≤ 6; omega
    | ⟨1, _⟩ => show (Cert.Spec.origin v).toNat + 128 ≤ 1024; omega
    | ⟨2, _⟩ => show (Cert.Spec.origin w).toNat + 128 ≤ 1024; omega
  · match a with
    | ⟨0, _⟩ => show 0 + 1 ≤ 1; omega
    | ⟨1, _⟩ => show (Cert.Spec.origin v).toNat + 128 ≤ 1024; omega
    | ⟨2, _⟩ => show (Cert.Spec.origin w).toNat + 128 ≤ 1024; omega

/-- The side condition the body assumes of the two words it reads at point `t` holds: they are crop origins. -/
theorem chk_of_tables (m : (ℓ : Loc nD τ sig) → Buf (Elt F) ℓ) (c : Dev nD) (t : Fin (cfgM m).N) :
    k0_chk1
      (tbM0_0.view.readAt (Elt F) (Rect.unit (s := S512) (k0_off1 (grid0.coords t)) S1.size (k0_off1_inb (grid0.coords t))).toLoadRect
        (tbl m 0) (Shape.Idx.first (numel1_S1.symm ▸ Nat.one_pos)))
      (tbM0_1.view.readAt (Elt F) (Rect.unit (s := S512) (k0_off1 (grid0.coords t)) S1.size (k0_off1_inb (grid0.coords t))).toLoadRect
        (tbl m 1) (Shape.Idx.first (numel1_S1.symm ▸ Nat.one_pos))) :=
  (congrArg₂ k0_chk1 (word0_eq m c t) (word1_eq m c t)).mpr (chk_of_origin _ _)

/-! ## The descriptors as the region finds them -/

/-- The array the first window stages when the region is entered: the descriptors given a unit middle axis. -/
theorem v10_eq (m : (ℓ : Loc nD τ sig) → Buf (Elt F) ℓ) (c : Dev nD) :
    (V (F := F) m c main_v10 : Vec F S512x1x6 .f32)
      = broadcastInDim S512x1x6 ![0, 2] bcast_S512x6_S512x1x6_0_2 (m ((c : Thread nD τ).loc main_arg2) : Vec F S512x6 .f32) := by
  show StableHlo.after (List.flatten pfx) (fun b => m (c, b)) (Proc.devRef .tc main_v10) = _
  simp only [pfx, hostOps0, hostOps0_1, hostOps0_2, hostOps0_3, hostOps0_4, List.flatten_cons, List.flatten_nil,
    List.append_nil, List.cons_append, List.nil_append]
  after_results

/-- Entry `(i, 0, ch)` of that array is entry `ch` of instance `i`'s descriptor. -/
theorem v10_apply (m : (ℓ : Loc nD τ sig) → Buf (Elt F) ℓ) (c : Dev nD) (i : Fin 512) (ch : Fin 6) :
    V (F := F) m c main_v10 (ValueIdx.ix3 i (0 : Fin 1) ch) = m ((c : Thread nD τ).loc main_arg2) (ValueIdx.ix2 i ch) := by
  refine (congrFun (v10_eq m c) (ix3 i (0 : Fin 1) ch)).trans ?_
  -- the two axes the broadcast keeps are the result's first and third
  refine broadcastInDim_apply _ bcast_S512x6_S512x1x6_0_2 _ (ix3 i (0 : Fin 1) ch) (ix2 i ch) fun a => ?_
  match a with
  | ⟨0, _⟩ => rfl
  | ⟨1, _⟩ => rfl

end Cert.KernelIdeal.Frame

end
-- ==== Proof.FrameKI.OutEq.lean ====
/-
  What the body's one store holds, as a value: the network's block computed from the two image windows the body's
  copies delivered into scratch (each read back as the slice of the image at the two table words), the descriptor
  row loaded at the grid point, and the weights' blocks.
-/
import proofs.«401130_j54125177864461_3_alg».proof.Proof.FrameKI.Frame
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

open Idealize.ShloMosaic.ValueIdx

/-- A load of a whole buffer right after one store (or one copy) wrote it whole reads what was written. -/
theorem readCov_whole_piece {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h; exact View.readCov_unit_zero v rfl _ w

/-- The window of the six embedding channels the body copies at grid point `i`: 128 × 128 from the two table words. -/
abbrev srcX (c : Dev nD) (i : grid0.Coords) (xt0 : TbBuf0 (F := F) c tbM0_0) (xt1 : TbBuf0 (F := F) c tbM0_1)
    (h : k0_chk1 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) : Memref sig .tc .hbm S6x128x128 .f32 :=
  hbM0_0.slice (Rect.unit (s := S6x1024x1024) (k0_off2 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) S6x128x128.size (k0_off2_inb _ _ h)) (fun _ => rfl)
/-- The same window of the sigma channel. -/
abbrev srcS (c : Dev nD) (i : grid0.Coords) (xt0 : TbBuf0 (F := F) c tbM0_0) (xt1 : TbBuf0 (F := F) c tbM0_1)
    (h : k0_chk1 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) : Memref sig .tc .hbm S1x128x128 .f32 :=
  hbM0_1.slice (Rect.unit (s := S1x1024x1024) (k0_off3 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) S1x128x128.size (k0_off3_inb _ _ h)) (fun _ => rfl)

/-- What the run leaves in the output's staging buffer: the network's block computed from the two windows the copies
    delivered into scratch, the descriptor row the body loads at its grid point, and the weights' blocks. -/
theorem out_eq (c : Dev nD) (i : grid0.Coords) (arg5 : Memref sig .tc .vmem S512x1x6 .f32) (harg5 : arg5.IsWhole) (arg6 : Memref sig .tc .vmem S7x16 .f32) (harg6 : arg6.IsWhole) (arg7 : Memref sig .tc .vmem S16 .f32) (harg7 : arg7.IsWhole) (arg8 : Memref sig .tc .vmem S16x16 .f32) (harg8 : arg8.IsWhole) (arg9 : Memref sig .tc .vmem S16 .f32) (harg9 : arg9.IsWhole) (arg10 : Memref sig .tc .vmem S16x1 .f32) (harg10 : arg10.IsWhole) (arg11 : Memref sig .tc .vmem S1 .f32) (harg11 : arg11.IsWhole) (arg12 : Memref sig .tc .vmem S1x1x128x128 .f32) (harg12 : arg12.IsWhole) (arg13 : Memref sig .tc .vmem S6x128x128 .f32) (harg13 : arg13.IsWhole) (arg14 : Memref sig .tc .vmem S1x128x128 .f32) (harg14 : arg14.IsWhole)
    (x0 : Vec F S512x1x6 .f32) (x1 : Vec F S7x16 .f32) (x2 : Vec F S16 .f32) (x3 : Vec F S16x16 .f32) (x4 : Vec F S16 .f32) (x5 : Vec F S16x1 .f32) (x6 : Vec F S1 .f32) (fh0 : HbBuf0 (F := F) c hbM0_0) (fh1 : HbBuf0 (F := F) c hbM0_1) (xt0 : TbBuf0 (F := F) c tbM0_0) (xt1 : TbBuf0 (F := F) c tbM0_1)
    (k0_hw1 : k0_chk1 (tbM0_0.view.readAt (Elt F) (Rect.unit (s := S512) (k0_off1 i) S1.size (k0_off1_inb i)).toLoadRect xt0 (Shape.Idx.first (numel1_S1.symm ▸ Nat.one_pos))) (tbM0_1.view.readAt (Elt F) (Rect.unit (s := S512) (k0_off1 i) S1.size (k0_off1_inb i)).toLoadRect xt1 (Shape.Idx.first (numel1_S1.symm ▸ Nat.one_pos)))) :
    out0_A_7 c i arg5 harg5 arg6 harg6 arg7 harg7 arg8 harg8 arg9 harg9 arg10 harg10 arg11 harg11 arg12 harg12 arg13 harg13 arg14 harg14 x0 x1 x2 x3 x4 x5 x6 fh0 fh1 xt0 xt1 k0_hw1 = k0_pay1 (k0_pay2 (ReadAs.same.apply ((srcX c i xt0 xt1 k0_hw1).view.read (Elt F) fh0)) (ReadAs.same.apply ((srcS c i xt0 xt1 k0_hw1).view.read (Elt F) fh1))
        (View.ld x0 (Rect.unit (s := S512x1x6) (k0_off4 i) S1x1x6.size (k0_off4_inb i)))) x1 x2 x3 x4 x5 x6 := by
  unfold out0_A_7
  rw [View.read_writes_eq_canon _ _ _ (cover0_A_7 c i arg5 harg5 arg6 harg6 arg7 harg7 arg8 harg8 arg9 harg9 arg10 harg10 arg11 harg11 arg12 harg12 arg13 harg13 arg14 harg14 x0 x1 x2 x3 x4 x5 x6 fh0 fh1 xt0 xt1 k0_hw1)]
  unfold kernelRun0_A
  dsimp only
  sl_unfold_words
  rw [View.canon_unit_zero hz4]
  simp only [View.readAt_eq_ld, harg5.read_unread, harg6.read_unread, harg7.read_unread, harg8.read_unread, harg9.read_unread, harg10.read_unread, harg11.read_unread,
    View.ld_unit_zero (S := S7x16) hz2, View.ld_unit_zero (S := S16x16) hz2, View.ld_unit_zero (S := S16x1) hz2, View.ld_unit_zero (S := S16) hz1, View.ld_unit_zero (S := S1) hz1,
    readCov_whole_piece (S := S6x128x128) _ hz3, readCov_whole_piece (S := S1x128x128) _ hz3]

/-- The output window is written back at every point (its block index is the point). -/
theorem flush0_7 : ∀ t : Fin (cfgM m).N, ((cfgM m).win 7).flush t = true :=
  (by decide +kernel : ∀ t : Fin grid0.N, Pipeline.Window.flushOf grid0 true cc0_transform_9 t = true)

end Cert.KernelIdeal.Frame

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.BlockValue.lean ====
/-
  The kernel body's arithmetic at the ideal values, entry by entry.

  The feature matrix has one row per pixel of the 128 × 128 window, in row-major order, and one column per channel:
  an embedding channel of the cropped window less the descriptor's entry for that channel, or (the seventh) the sigma
  window. Each affine layer is a plain product into a zero accumulator plus a bias row copied down the rows, the
  narrowing of the operands being the identity on the ideal values; a maximum with the zero splat follows the first
  two. The logistic function of the third layer's one column, reshaped to the window, is the network of the
  specification on the pixel's seven features.
-/
import proofs.«401130_j54125177864461_3_alg».proof.Proof.Gen.KernelIdeal.Skeleton
import proofs.«401130_j54125177864461_3_alg».proof.Proof.Spec
import proofs.«401130_j54125177864461_3_alg».proof.Proof.LibRowDims
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BlockValue

open Cert.KernelIdeal Idealize.ShloMosaic Idealize.ShloMosaic.ValueIdx

/-- Row `r * 128 + q` of the `[16384, _]` matrices: pixel `(r, q)` of the window in row-major order. -/
def pix (r q : Fin 128) : Fin 16384 := ⟨r.val * 128 + q.val, by have := r.isLt; have := q.isLt; omega⟩

/-- The descriptor row `[1, 1, 6]` flattened to `[6]`, reshaped to `[6, 1, 1]` and broadcast over the window reads,
    at `(c, r, q)`, the descriptor's entry `c`. -/
theorem desc_apply (crow : Vec Ideal S1x1x6 .f32) (c : Fin 6) (r q : Fin 128) :
    broadcastTo S6x128x128 (shapeCast S6x1x1 (shapeCast S6 crow Gen.shapeCasts_S1x1x6_S6) Gen.shapeCasts_S6_S6x1x1)
        Gen.broadcasts_S6x1x1_S6x128x128 (ix3 c r q)
      = crow (ix3 (0 : Fin 1) (0 : Fin 1) c) := by
  -- the broadcast keeps the channel coordinate and reads the two unit axes at 0
  refine (broadcastTo_apply _ Gen.broadcasts_S6x1x1_S6x128x128 (ix3 c r q) (ix3 c (0 : Fin 1) (0 : Fin 1)) fun a => ?_).trans ?_
  · match a with
    | ⟨0, _⟩ => rfl
    | ⟨1, _⟩ => rfl
    | ⟨2, _⟩ => rfl
  -- [6] -> [6, 1, 1]: the same row-major position
  refine (shapeCast_apply _ Gen.shapeCasts_S6_S6x1x1 (ix3 c (0 : Fin 1) (0 : Fin 1)) (ix1 c) ?_).trans ?_
  · rw [Shape.rowMajor_val_one, Shape.rowMajor_val_three]
    show c.val = (c.val * 1 + 0) * 1 + 0
    omega
  -- [1, 1, 6] -> [6]: the same row-major position
  refine shapeCast_apply _ Gen.shapeCasts_S1x1x6_S6 (ix1 c) (ix3 (0 : Fin 1) (0 : Fin 1) c) ?_
  rw [Shape.rowMajor_val_one, Shape.rowMajor_val_three]
  show (0 * 1 + 0) * 6 + c.val = c.val
  omega

/-- Entry `(pixel (r, q), ch)` of the feature matrix: an embedding channel of the window at `(r, q)` less the descriptor's
    entry for that channel, or (the seventh) the sigma window at `(r, q)`. -/
theorem feat_apply (xc : Vec Ideal S6x128x128 .f32) (sc : Vec Ideal S1x128x128 .f32) (crow : Vec Ideal S1x1x6 .f32)
    (r q : Fin 128) (ch : Fin 7) :
    Gen.k0_pay2 (F := Ideal) xc sc crow (ix2 (pix r q) ch)
      = if h : ch.val < 6 then xc (ix3 (⟨ch.val, h⟩ : Fin 6) r q) - crow (ix3 (0 : Fin 1) (0 : Fin 1) (⟨ch.val, h⟩ : Fin 6))
        else sc (ix3 (0 : Fin 1) r q) := by
  unfold Gen.k0_pay2
  -- [128, 128, 7] -> [16384, 7]: row r * 128 + q, column ch is entry (r, q, ch)
  refine (shapeCast_apply _ Gen.shapeCasts_S128x128x7_S16384x7 (ix2 (pix r q) ch) (ix3 r q ch) ?_).trans ?_
  · rw [Shape.rowMajor_val_three, Shape.rowMajor_val_two]
    show (r.val * 128 + q.val) * 7 + ch.val = (r.val * 128 + q.val) * 7 + ch.val
    rfl
  -- the transpose [1, 2, 0] of the [7, 128, 128] stack: entry (r, q, ch) is the stack's (ch, r, q)
  refine (transpose_apply _ _ Gen.transposes_S7x128x128_p1_2_0_S128x128x7 (ix3 r q ch) (ix3 ch r q) fun b => ?_).trans ?_
  · match b with
    | ⟨0, _⟩ => rfl
    | ⟨1, _⟩ => rfl
    | ⟨2, _⟩ => rfl
  by_cases h : ch.val < 6
  · rw [dif_pos h]
    -- channel below 6: the first piece, the six differences
    refine (concatenate_pair_apply_left (s₁ := S6x128x128) (s₂ := S1x128x128) (0 : Fin 3) _ _ Gen.concatenates_S6x128x128_S1x128x128_S7x128x128_d0 (ix3 ch r q) rfl
      (ix3 (⟨ch.val, h⟩ : Fin 6) r q) fun b => ?_).trans ?_
    · match b with
      | ⟨0, _⟩ => rfl
      | ⟨1, _⟩ => rfl
      | ⟨2, _⟩ => rfl
    rw [subf_apply]
    exact congrArg (xc (ix3 (⟨ch.val, h⟩ : Fin 6) r q) - ·) (desc_apply crow ⟨ch.val, h⟩ r q)
  · rw [dif_neg h]
    -- channel 6: the second piece, the sigma window
    refine concatenate_pair_apply_right (s₁ := S6x128x128) (s₂ := S1x128x128) (0 : Fin 3) _ _ Gen.concatenates_S6x128x128_S1x128x128_S7x128x128_d0 (ix3 ch r q) rfl rfl
      (ix3 (0 : Fin 1) r q) (fun b hb => ?_) ?_
    · match b with
      | ⟨0, _⟩ => exact absurd rfl hb
      | ⟨1, _⟩ => rfl
      | ⟨2, _⟩ => rfl
    · show 0 + 6 = ch.val
      have := ch.isLt
      omega

/-- One affine layer of the kernel at row `p`, output unit `j`: the operands narrowed to bf16 (the identity on the ideal
    values), the product into the zero accumulator (the plain sum over the contracted coordinate) and the bias row
    `[N] -> [1, N] -> [M, N]` (the bias at `j`) make the layer of the specification on row `p` of the input. -/
theorem layer_apply {M K N : Nat} (D : DotDims ⟨2, ![M, K]⟩ ⟨2, ![K, N]⟩ ⟨2, ![M, N]⟩) (hD : D = DotDims.plain M K N)
    (x : FVec Ideal ⟨2, ![M, K]⟩ .f32) (W : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (hx hW : FTy.bits .bf16 < FTy.bits .f32) (p : Fin M) (j : Fin N) :
    addf (matmul D none (truncf .bf16 x hx) (truncf .bf16 W hW) (constant (F := Ideal) ⟨2, ![M, N]⟩ .f32 0x00000000#32))
        (broadcastTo ⟨2, ![M, N]⟩ (shapeCast ⟨2, ![1, N]⟩ b h1) h2) (ix2 p j)
      = Cert.Spec.affine (fun k => x (ix2 p k)) W b j := by
  subst hD
  rw [addf_apply]
  unfold Cert.Spec.affine
  refine congrArg₂ (· + ·) ?_ ?_
  · -- the product: the sum over the contracted coordinate, the narrowing read through
    exact RowDims.matmul_plain_zero_apply none (truncf .bf16 x hx) (truncf .bf16 W hW) p j
  · -- the bias: row 0 of the one-row matrix, which is the vector at j
    rw [broadcastTo_1b_ab_apply, shapeCast_a_1a_apply]

/-- The zero splat a maximum is taken against is the extended real `0`. -/
theorem relu_apply {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-- The kernel's block at pixel `(r, q)`: the network of the specification on the pixel's seven features. -/
theorem block_apply (xc : Vec Ideal S6x128x128 .f32) (sc : Vec Ideal S1x128x128 .f32) (crow : Vec Ideal S1x1x6 .f32)
    (W1 : Vec Ideal S7x16 .f32) (b1 : Vec Ideal S16 .f32) (W2 : Vec Ideal S16x16 .f32) (b2 : Vec Ideal S16 .f32)
    (W3 : Vec Ideal S16x1 .f32) (b3 : Vec Ideal S1 .f32) (r q : Fin 128) :
    Gen.k0_pay1 (F := Ideal) (Gen.k0_pay2 (F := Ideal) xc sc crow) W1 b1 W2 b2 W3 b3 (ix4 (0 : Fin 1) (0 : Fin 1) r q)
      = Cert.Spec.net (fun ch => if h : ch.val < 6 then
            xc (ix3 (⟨ch.val, h⟩ : Fin 6) r q) - crow (ix3 (0 : Fin 1) (0 : Fin 1) (⟨ch.val, h⟩ : Fin 6))
          else sc (ix3 (0 : Fin 1) r q)) W1 b1 W2 b2 W3 b3 := by
  unfold Gen.k0_pay1 Cert.Spec.net
  -- [16384, 1] -> [1, 1, 128, 128]: entry (0, 0, r, q) is row r * 128 + q of the column
  refine (shapeCast_apply _ Gen.shapeCasts_S16384x1_S1x1x128x128 (ix4 (0 : Fin 1) (0 : Fin 1) r q) (ix2 (pix r q) (0 : Fin 1)) ?_).trans ?_
  · rw [Shape.rowMajor_val_two, Shape.rowMajor_val_four]
    show (r.val * 128 + q.val) * 1 + 0 = ((0 * 1 + 0) * 128 + r.val) * 128 + q.val
    omega
  -- the logistic function, entry by entry
  refine congrArg Ideal.logistic ?_
  -- the third layer on row r * 128 + q of the second layer's output
  refine (layer_apply dot_S16384x16_S16x1_S16384x1_1_0_0_1_n_n rfl _ W3 b3 _ _ _ _ (pix r q) (0 : Fin 1)).trans ?_
  refine congrArg (fun f => Cert.Spec.affine f W3 b3 (0 : Fin 1)) (funext fun k => ?_)
  refine (relu_apply _ _).trans (congrArg (max · 0) ?_)
  -- the second layer on that row of the first layer's output
  refine (layer_apply dot_S16384x16_S16x16_S16384x16_1_0_0_1_n_n rfl _ W2 b2 _ _ _ _ (pix r q) k).trans ?_
  refine congrArg (fun f => Cert.Spec.affine f W2 b2 k) (funext fun c => ?_)
  refine (relu_apply _ _).trans (congrArg (max · 0) ?_)
  -- the first layer on that row of the feature matrix
  refine (layer_apply dot_S16384x7_S7x16_S16384x16_1_0_0_1_n_n rfl _ W1 b1 _ _ _ _ (pix r q) c).trans ?_
  exact congrArg (fun f => Cert.Spec.affine f W1 b1 c) (funext fun ch => feat_apply xc sc crow r q ch)

end Cert.KernelIdeal.BlockValue

end
-- ==== Proof.KValue.lean ====
/-
  The output array the program leaves, as a value: the probability map of its arguments.

  At grid point `t` the body stores one `[1, 1, 128, 128]` block. Its entry `(0, 0, r, q)` is the per-pixel network on
  seven features: six embedding channels of a 128 × 128 window of the image less the entries of the descriptor row the
  body loads at `(t, 0, 0)`, and the sigma channel of the same window. The two windows start at the two table words the
  body reads at offset `t`, which are the crop origins of instance `t`'s centroid, so the window's pixel `(r, q)` is the
  image's pixel at the cropped row and column of the specification; the descriptor row is instance `t`'s descriptor;
  the weights' windows hand the body the whole weight arrays. The output window places the block at `(t, 0, 0, 0)` of the
  `[512, 1, 128, 128]` array and writes it back at every point, and the 512 blocks cover the array.
-/
import proofs.«401130_j54125177864461_3_alg».proof.Proof.FrameKI.OutEq
import proofs.«401130_j54125177864461_3_alg».proof.Proof.FrameKI.Tables
import proofs.«401130_j54125177864461_3_alg».proof.Proof.BlockValue
import proofs.«401130_j54125177864461_3_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- What the output array is shown to hold: the probability map of the whole arguments. -/
abbrev val (c : Dev nD) : Buf (Elt Ideal) ((c : Thread nD τ).loc main_v11) :=
  Cert.Spec.prob (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The instance a grid point works on. -/
abbrev inst (t : Fin (cfgM m).N) : Fin 512 := ⟨t.val, point_lt m t⟩

/-- A grid point's one coordinate is its number. -/
theorem coord_val (t : Fin (cfgM m).N) : ((grid0.coords t) 0).val = t.val := by
  have ht := point_lt m t
  show t.val / 1 % 512 = t.val
  omega

/-! ## The weights' windows: each block is the whole array -/

/-- Window 1's block at every point is the whole first weight matrix. -/
theorem blk1_eq (c : Dev nD) (t : Fin (cfgM m).N) :
    (iblk m c 1 t : Vec Ideal S7x16 .f32) = m ((c : Thread nD τ).loc main_arg3) := by
  funext y
  show V m c main_arg3 ((((cfgM m).win 1).blk t).view.emb y) = _
  refine (congrFun (V_main_arg3 m c) _).trans (congrArg (m ((c : Thread nD τ).loc main_arg3)) (funext fun a => Fin.ext ?_))
  show cc0_transform_3 (grid0.coords t) a * S7x16.size a + 1 * (y a).val = (y a).val
  have e : cc0_transform_3 (grid0.coords t) a = 0 := by fin_cases a <;> rfl
  rw [e]; omega

/-- Window 2's block at every point is the whole first bias. -/
theorem blk2_eq (c : Dev nD) (t : Fin (cfgM m).N) :
    (iblk m c 2 t : Vec Ideal S16 .f32) = m ((c : Thread nD τ).loc main_arg4) := by
  funext y
  show V m c main_arg4 ((((cfgM m).win 2).blk t).view.emb y) = _
  refine (congrFun (V_main_arg4 m c) _).trans (congrArg (m ((c : Thread nD τ).loc main_arg4)) (funext fun a => Fin.ext ?_))
  show cc0_transform_4 (grid0.coords t) a * S16.size a + 1 * (y a).val = (y a).val
  have e : cc0_transform_4 (grid0.coords t) a = 0 := by fin_cases a <;> rfl
  rw [e]; omega

/-- Window 3's block at every point is the whole second weight matrix. -/
theorem blk3_eq (c : Dev nD) (t : Fin (cfgM m).N) :
    (iblk m c 3 t : Vec Ideal S16x16 .f32) = m ((c : Thread nD τ).loc main_arg5) := by
  funext y
  show V m c main_arg5 ((((cfgM m).win 3).blk t).view.emb y) = _
  refine (congrFun (V_main_arg5 m c) _).trans (congrArg (m ((c : Thread nD τ).loc main_arg5)) (funext fun a => Fin.ext ?_))
  show cc0_transform_5 (grid0.coords t) a * S16x16.size a + 1 * (y a).val = (y a).val
  have e : cc0_transform_5 (grid0.coords t) a = 0 := by fin_cases a <;> rfl
  rw [e]; omega

/-- Window 4's block at every point is the whole second bias. -/
theorem blk4_eq (c : Dev nD) (t : Fin (cfgM m).N) :
    (iblk m c 4 t : Vec Ideal S16 .f32) = m ((c : Thread nD τ).loc main_arg6) := by
  funext y
  show V m c main_arg6 ((((cfgM m).win 4).blk t).view.emb y) = _
  refine (congrFun (V_main_arg6 m c) _).trans (congrArg (m ((c : Thread nD τ).loc main_arg6)) (funext fun a => Fin.ext ?_))
  show cc0_transform_6 (grid0.coords t) a * S16.size a + 1 * (y a).val = (y a).val
  have e : cc0_transform_6 (grid0.coords t) a = 0 := by fin_cases a <;> rfl
  rw [e]; omega

/-- Window 5's block at every point is the whole third weight matrix. -/
theorem blk5_eq (c : Dev nD) (t : Fin (cfgM m).N) :
    (iblk m c 5 t : Vec Ideal S16x1 .f32) = m ((c : Thread nD τ).loc main_arg7) := by
  funext y
  show V m c main_arg7 ((((cfgM m).win 5).blk t).view.emb y) = _
  refine (congrFun (V_main_arg7 m c) _).trans (congrArg (m ((c : Thread nD τ).loc main_arg7)) (funext fun a => Fin.ext ?_))
  show cc0_transform_7 (grid0.coords t) a * S16x1.size a + 1 * (y a).val = (y a).val
  have e : cc0_transform_7 (grid0.coords t) a = 0 := by fin_cases a <;> rfl
  rw [e]; omega

/-- Window 6's block at every point is the whole third bias. -/
theorem blk6_eq (c : Dev nD) (t : Fin (cfgM m).N) :
    (iblk m c 6 t : Vec Ideal S1 .f32) = m ((c : Thread nD τ).loc main_arg8) := by
  funext y
  show V m c main_arg8 ((((cfgM m).win 6).blk t).view.emb y) = _
  refine (congrFun (V_main_arg8 m c) _).trans (congrArg (m ((c : Thread nD τ).loc main_arg8)) (funext fun a => Fin.ext ?_))
  show cc0_transform_8 (grid0.coords t) a * S1.size a + 1 * (y a).val = (y a).val
  have e : cc0_transform_8 (grid0.coords t) a = 0 := by fin_cases a <;> rfl
  rw [e]; omega

/-! ## The descriptor row and the two image windows -/

/-- The descriptor row the body loads at point `t`, entry `ch`: window 0's block is the whole descriptor array with its
    unit middle axis, the load's offsets are `(t, 0, 0)`, so the entry is instance `t`'s descriptor at `ch`. -/
theorem desc_row (c : Dev nD) (t : Fin (cfgM m).N) (ch : Fin 6) :
    View.ld (S := S512x1x6) (e' := .f32) (iblk m c 0 t) (Rect.unit (s := S512x1x6) (k0_off4 (grid0.coords t)) S1x1x6.size (k0_off4_inb (grid0.coords t)))
        (ix3 (0 : Fin 1) (0 : Fin 1) ch)
      = m ((c : Thread nD τ).loc main_arg2) (ix2 (inst m t) ch) := by
  refine Eq.trans ?_ (v10_apply m c (inst m t) ch)
  show V m c main_v10 ((((cfgM m).win 0).blk t).view.emb
      ((Rect.unit (s := S512x1x6) (k0_off4 (grid0.coords t)) S1x1x6.size (k0_off4_inb (grid0.coords t))).idx (ix3 (0 : Fin 1) (0 : Fin 1) ch))) = _
  refine congrArg (V m c main_v10) (funext fun a => Fin.ext ?_)
  have hc := coord_val m t
  match a with
  | ⟨0, _⟩ =>
    show cc0_transform_2 (grid0.coords t) 0 * 512 + 1 * (k0_off4 (grid0.coords t) 0 + 1 * 0) = t.val
    rw [k0_off4_eq]
    show 0 * 512 + 1 * (((grid0.coords t) 0).val + 1 * 0) = t.val
    omega
  | ⟨1, _⟩ =>
    show cc0_transform_2 (grid0.coords t) 1 * 1 + 1 * (k0_off4 (grid0.coords t) 1 + 1 * 0) = 0
    rw [k0_off4_eq]
    rfl
  | ⟨2, _⟩ =>
    show cc0_transform_2 (grid0.coords t) 2 * 6 + 1 * (k0_off4 (grid0.coords t) 2 + 1 * ch.val) = ch.val
    rw [k0_off4_eq]
    show 0 * 6 + 1 * (0 + 1 * ch.val) = ch.val
    omega

/-- The 128 × 128 window of the six embedding channels at offsets `(0, v1, v3)`, read at `(ch, r, q)`: the image at
    `(ch, v1 + r, v3 + q)`. -/
theorem winX_read (c : Dev nD) (v1 v3 : BitVec 32) (hin : ∀ a, k0_off2 v1 v3 a + S6x128x128.size a ≤ S6x1024x1024.size a)
    (fh0 : HbBuf0 (F := Ideal) c hbM0_0) (ch : Fin 6) (r q : Fin 128) (R Q : Fin 1024)
    (hR : R.val = v1.toNat + r.val) (hQ : Q.val = v3.toNat + q.val) :
    (hbM0_0.slice (Rect.unit (s := S6x1024x1024) (k0_off2 v1 v3) S6x128x128.size hin) (fun _ => rfl)).view.read (Elt Ideal) fh0 (ix3 ch r q)
      = fh0 (ix3 ch R Q) := by
  show fh0 ((hbM0_0.slice (Rect.unit (s := S6x1024x1024) (k0_off2 v1 v3) S6x128x128.size hin) (fun _ => rfl)).view.emb (ix3 ch r q)) = _
  refine congrArg fh0 (funext fun a => Fin.ext ?_)
  match a with
  | ⟨0, _⟩ => show 0 + 1 * ch.val = ch.val; omega
  | ⟨1, _⟩ => show v1.toNat + 1 * r.val = R.val; omega
  | ⟨2, _⟩ => show v3.toNat + 1 * q.val = Q.val; omega

/-- The same window of the sigma channel, read at `(0, r, q)`: the image at `(0, v1 + r, v3 + q)`. -/
theorem winS_read (c : Dev nD) (v1 v3 : BitVec 32) (hin : ∀ a, k0_off3 v1 v3 a + S1x128x128.size a ≤ S1x1024x1024.size a)
    (fh1 : HbBuf0 (F := Ideal) c hbM0_1) (r q : Fin 128) (R Q : Fin 1024)
    (hR : R.val = v1.toNat + r.val) (hQ : Q.val = v3.toNat + q.val) :
    (hbM0_1.slice (Rect.unit (s := S1x1024x1024) (k0_off3 v1 v3) S1x128x128.size hin) (fun _ => rfl)).view.read (Elt Ideal) fh1 (ix3 (0 : Fin 1) r q)
      = fh1 (ix3 (0 : Fin 1) R Q) := by
  show fh1 ((hbM0_1.slice (Rect.unit (s := S1x1024x1024) (k0_off3 v1 v3) S1x128x128.size hin) (fun _ => rfl)).view.emb (ix3 (0 : Fin 1) r q)) = _
  refine congrArg fh1 (funext fun a => Fin.ext ?_)
  match a with
  | ⟨0, _⟩ => show 0 + 1 * 0 = 0; omega
  | ⟨1, _⟩ => show v1.toNat + 1 * r.val = R.val; omega
  | ⟨2, _⟩ => show v3.toNat + 1 * q.val = Q.val; omega

/-! ## The features the body computes at a pixel are the specification's -/

/-- At point `t`, pixel `(r, q)`: the two windows start at the crop origins of instance `t`'s centroid, so every channel
    of the body's feature vector is the specification's feature of that instance at that pixel. -/
theorem feat_eq (hH : Hyps m) (c : Dev nD) (t : Fin (cfgM m).N) (r q : Fin 128) :
    (fun ch : Fin 7 => if h : ch.val < 6 then
        (ReadAs.same.apply ((srcX c (grid0.coords t) (tbl m 0) (tbl m 1) (hH c t)).view.read (Elt Ideal) (V m c main_arg0)) : Vec Ideal S6x128x128 .f32)
            (ix3 (⟨ch.val, h⟩ : Fin 6) r q)
          - View.ld (S := S512x1x6) (e' := .f32) (iblk m c 0 t) (Rect.unit (s := S512x1x6) (k0_off4 (grid0.coords t)) S1x1x6.size (k0_off4_inb (grid0.coords t)))
              (ix3 (0 : Fin 1) (0 : Fin 1) (⟨ch.val, h⟩ : Fin 6))
      else (ReadAs.same.apply ((srcS c (grid0.coords t) (tbl m 0) (tbl m 1) (hH c t)).view.read (Elt Ideal) (V m c main_arg1)) : Vec Ideal S1x128x128 .f32)
            (ix3 (0 : Fin 1) r q))
      = Cert.Spec.feat (m ((c : Thread nD τ).loc main_arg0)) (m ((c : Thread nD τ).loc main_arg1)) (m ((c : Thread nD τ).loc main_arg2)) (m ((c : Thread nD τ).loc main_arg9)) (inst m t) r q := by
  funext ch
  unfold Cert.Spec.feat
  -- the rows and columns of the crop: the table words are the crop origins
  have hR : (Cert.Spec.at_ (m ((c : Thread nD τ).loc main_arg9) (ix2 (inst m t) 0)) r).val
      = (tbM0_0.view.readAt (Elt Ideal) (Rect.unit (s := S512) (k0_off1 (grid0.coords t)) S1.size (k0_off1_inb (grid0.coords t))).toLoadRect
          (tbl m 0) (Shape.Idx.first (numel1_S1.symm ▸ Nat.one_pos))).toNat + r.val :=
    congrArg (fun w : BitVec 32 => w.toNat + r.val) (word0_eq m c t).symm
  have hQ : (Cert.Spec.at_ (m ((c : Thread nD τ).loc main_arg9) (ix2 (inst m t) 1)) q).val
      = (tbM0_1.view.readAt (Elt Ideal) (Rect.unit (s := S512) (k0_off1 (grid0.coords t)) S1.size (k0_off1_inb (grid0.coords t))).toLoadRect
          (tbl m 1) (Shape.Idx.first (numel1_S1.symm ▸ Nat.one_pos))).toNat + q.val :=
    congrArg (fun w : BitVec 32 => w.toNat + q.val) (word1_eq m c t).symm
  by_cases h : ch.val < 6
  · rw [dif_pos h, dif_pos h]
    refine congrArg₂ (· - ·) ?_ (desc_row m c t ⟨ch.val, h⟩)
    refine (winX_read c _ _ _ (V m c main_arg0) ⟨ch.val, h⟩ r q _ _ hR hQ).trans ?_
    exact congrFun (V_main_arg0 m c) _
  · rw [dif_neg h, dif_neg h]
    refine (winS_read c _ _ _ (V m c main_arg1) r q _ _ hR hQ).trans ?_
    exact congrFun (V_main_arg1 m c) _

/-! ## The output window's blocks -/

/-- The output window's block index times its block size, at every point and axis: `(t, 0, 0, 0)`. -/
theorem out_origin : ∀ t : Fin grid0.N, ∀ a : Fin 4,
    cc0_transform_9 (grid0.coords t) a * (![1, 1, 128, 128] : Fin 4 → Nat) a = (![t.val, 0, 0, 0] : Fin 4 → Nat) a := by
  decide +kernel

/-- Pixel `(r, q)` of point `t`'s block is entry `(t, 0, r, q)` of the output array. -/
theorem out_emb (t : Fin (cfgM m).N) (r q : Fin 128) :
    (((cfgM m).win 7).blk t).view.emb (ix4 (0 : Fin 1) (0 : Fin 1) r q) = ix4 (inst m t) (0 : Fin 1) r q := by
  funext a
  refine Fin.ext ?_
  match a with
  | ⟨0, _⟩ =>
    show cc0_transform_9 (grid0.coords t) 0 * (![1, 1, 128, 128] : Fin 4 → Nat) 0 + 1 * 0 = t.val
    rw [out_origin t 0]; rfl
  | ⟨1, _⟩ =>
    show cc0_transform_9 (grid0.coords t) 1 * (![1, 1, 128, 128] : Fin 4 → Nat) 1 + 1 * 0 = 0
    rw [out_origin t 1]; rfl
  | ⟨2, _⟩ =>
    show cc0_transform_9 (grid0.coords t) 2 * (![1, 1, 128, 128] : Fin 4 → Nat) 2 + 1 * r.val = r.val
    rw [out_origin t 2]; show 0 + 1 * r.val = r.val; omega
  | ⟨3, _⟩ =>
    show cc0_transform_9 (grid0.coords t) 3 * (![1, 1, 128, 128] : Fin 4 → Nat) 3 + 1 * q.val = q.val
    rw [out_origin t 3]; show 0 + 1 * q.val = q.val; omega

/-- What the body stores at point `t`, read at a block index: the probability map at the array index the output
    window places it. -/
theorem block_at (hH : Hyps m) (c : Dev nD) (t : Fin (cfgM m).N) (x : S1x1x128x128.Idx) :
    k0_pay1 (F := Ideal)
        (k0_pay2 (F := Ideal) (ReadAs.same.apply ((srcX c (grid0.coords t) (tbl m 0) (tbl m 1) (hH c t)).view.read (Elt Ideal) (V m c main_arg0)))
          (ReadAs.same.apply ((srcS c (grid0.coords t) (tbl m 0) (tbl m 1) (hH c t)).view.read (Elt Ideal) (V m c main_arg1)))
          (View.ld (S := S512x1x6) (e' := .f32) (iblk m c 0 t) (Rect.unit (s := S512x1x6) (k0_off4 (grid0.coords t)) S1x1x6.size (k0_off4_inb (grid0.coords t)))))
        (iblk m c 1 t) (iblk m c 2 t) (iblk m c 3 t) (iblk m c 4 t) (iblk m c 5 t) (iblk m c 6 t) x
      = val m c ((((cfgM m).win 7).blk t).view.emb x) := by
  -- a block index is (0, 0, r, q)
  have h0 : x 0 = (0 : Fin 1) := Fin.ext (by have : (x 0).val < 1 := (x 0).isLt; show (x 0).val = 0; omega)
  have h1 : x 1 = (0 : Fin 1) := Fin.ext (by have : (x 1).val < 1 := (x 1).isLt; show (x 1).val = 0; omega)
  obtain ⟨r, q, rfl⟩ : ∃ r q : Fin 128, x = ix4 (0 : Fin 1) (0 : Fin 1) r q :=
    ⟨x 2, x 3, funext fun a => match a with | ⟨0, _⟩ => h0 | ⟨1, _⟩ => h1 | ⟨2, _⟩ => rfl | ⟨3, _⟩ => rfl⟩
  refine (BlockValue.block_apply _ _ _ (iblk m c 1 t) (iblk m c 2 t) (iblk m c 3 t) (iblk m c 4 t) (iblk m c 5 t) (iblk m c 6 t) r q).trans ?_
  refine Eq.trans ?_ (congrArg (val m c) (out_emb m t r q)).symm
  show Cert.Spec.net _ (iblk m c 1 t) (iblk m c 2 t) (iblk m c 3 t) (iblk m c 4 t) (iblk m c 5 t) (iblk m c 6 t)
    = Cert.Spec.net (Cert.Spec.feat (m ((c : Thread nD τ).loc main_arg0)) (m ((c : Thread nD τ).loc main_arg1)) (m ((c : Thread nD τ).loc main_arg2)) (m ((c : Thread nD τ).loc main_arg9)) (inst m t) r q)
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
  rw [blk1_eq m c t, blk2_eq m c t, blk3_eq m c t, blk4_eq m c t, blk5_eq m c t, blk6_eq m c t]
  exact congrArg (fun f => Cert.Spec.net f (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (feat_eq m hH c t r q)

/-- The block the output window writes back at point `t` is the probability map read through that block. -/
theorem flushed_eq (hH : Hyps m) (c : Dev nD) (t : Fin (cfgM m).N) :
    (dats m hH 0 c).flushed 7 t = (((cfgM m).win 7).blk t).view.read (Elt Ideal) (val m c) := by
  funext x
  -- what the body left in the staging buffer is the payload of its one store
  have e := (after0_7 m hH c t).trans (out_eq c (grid0.coords t) (ms0_0 m t) (hs0_0 m t) (ms0_1 m t) (hs0_1 m t) (ms0_2 m t) (hs0_2 m t)
    (ms0_3 m t) (hs0_3 m t) (ms0_4 m t) (hs0_4 m t) (ms0_5 m t) (hs0_5 m t) (ms0_6 m t) (hs0_6 m t) (ms0_7 m t) (hs0_7 m t)
    scM0_0 (Memref.isWhole_whole _) scM0_1 (Memref.isWhole_whole _) (iblk m c 0 t) (iblk m c 1 t) (iblk m c 2 t) (iblk m c 3 t)
    (iblk m c 4 t) (iblk m c 5 t) (iblk m c 6 t) (V m c main_arg0) (V m c main_arg1) (tbl m 0) (tbl m 1) (hH c t))
  exact (congrFun e x).trans (block_at m hH c t x)

/-! ## The blocks cover the array -/

set_option backward.isDefEq.respectTransparency.types false in
/-- An index of the output array lies in point `t`'s block exactly when its leading coordinate is `t`. -/
theorem mem_blk (t : Fin (cfgM m).N) (i : S512x1x128x128.Idx) :
    i ∈ (((cfgM m).win 7).blk t).view.set ↔ (i 0 : Nat) = t.val := by
  show i ∈ ((View.whole main_v11).slice (((cfgM m).win 7).rect t)).set ↔ _
  rw [View.set_slice_whole]
  refine (Rect.mem_set_unit (s := S512x1x128x128) (i := i)).trans ?_
  have h1 : (i 1 : Nat) < 1 := (i 1).isLt
  have h2 : (i 2 : Nat) < 128 := (i 2).isLt
  have h3 : (i 3 : Nat) < 128 := (i 3).isLt
  have e0 := out_origin t 0
  have e1 := out_origin t 1
  have e2 := out_origin t 2
  have e3 := out_origin t 3
  refine ⟨fun h => ?_, fun h a => ?_⟩
  · have := h 0
    change cc0_transform_9 (grid0.coords t) 0 * (![1, 1, 128, 128] : Fin 4 → Nat) 0 ≤ (i 0 : Nat)
      ∧ (i 0 : Nat) < cc0_transform_9 (grid0.coords t) 0 * (![1, 1, 128, 128] : Fin 4 → Nat) 0 + 1 at this
    rw [e0] at this
    change t.val ≤ (i 0 : Nat) ∧ (i 0 : Nat) < t.val + 1 at this
    omega
  · match a with
    | ⟨0, _⟩ =>
      show cc0_transform_9 (grid0.coords t) 0 * (![1, 1, 128, 128] : Fin 4 → Nat) 0 ≤ (i 0 : Nat)
        ∧ (i 0 : Nat) < cc0_transform_9 (grid0.coords t) 0 * (![1, 1, 128, 128] : Fin 4 → Nat) 0 + 1
      rw [e0]; show t.val ≤ (i 0 : Nat) ∧ (i 0 : Nat) < t.val + 1; omega
    | ⟨1, _⟩ =>
      show cc0_transform_9 (grid0.coords t) 1 * (![1, 1, 128, 128] : Fin 4 → Nat) 1 ≤ (i 1 : Nat)
        ∧ (i 1 : Nat) < cc0_transform_9 (grid0.coords t) 1 * (![1, 1, 128, 128] : Fin 4 → Nat) 1 + 1
      rw [e1]; show 0 ≤ (i 1 : Nat) ∧ (i 1 : Nat) < 0 + 1; omega
    | ⟨2, _⟩ =>
      show cc0_transform_9 (grid0.coords t) 2 * (![1, 1, 128, 128] : Fin 4 → Nat) 2 ≤ (i 2 : Nat)
        ∧ (i 2 : Nat) < cc0_transform_9 (grid0.coords t) 2 * (![1, 1, 128, 128] : Fin 4 → Nat) 2 + 128
      rw [e2]; show 0 ≤ (i 2 : Nat) ∧ (i 2 : Nat) < 0 + 128; omega
    | ⟨3, _⟩ =>
      show cc0_transform_9 (grid0.coords t) 3 * (![1, 1, 128, 128] : Fin 4 → Nat) 3 ≤ (i 3 : Nat)
        ∧ (i 3 : Nat) < cc0_transform_9 (grid0.coords t) 3 * (![1, 1, 128, 128] : Fin 4 → Nat) 3 + 128
      rw [e3]; show 0 ≤ (i 3 : Nat) ∧ (i 3 : Nat) < 0 + 128; omega

/-- Every index of the output array lies in the block of the point its leading coordinate names, which is written back. -/
theorem cover (i : S512x1x128x128.Idx) :
    ∃ t : Fin (cfgM m).N, ((cfgM m).win 7).flush t = true ∧ i ∈ (((cfgM m).win 7).blk t).view.set := by
  have h0 : (i 0 : Nat) < 512 := (i 0).isLt
  have hN : (cfgM m).N = 512 := N_0
  refine ⟨⟨(i 0 : Nat), by omega⟩, flush0_7 m _, ?_⟩
  rw [mem_blk]

/-- THE VALUE: the output array the program leaves is the probability map of its arguments. -/
theorem final7 (hH : Hyps m) (c : Dev nD) :
    (dats m hH 0 c).arrAt 7 (cfgM m).N
      = Cert.Spec.prob (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m hH 0 c).arrAt_eq_of_cover 7 (val m c) (fun t _ => flushed_eq m hH c t) (cover m)

end Cert.KernelIdeal.KValue

end
-- ==== Proof.Tail.lean ====
/-
  The table of instance ids and pixel coordinates, as one function of the centroids: row 0 repeats each
  instance's number over its 128 × 128 pixels; rows 1 and 2 are each pixel's image row and column — the crop
  origin along that axis (the centroid's coordinate clamped into [64, 960], less 64) plus the pixel's offset in
  the window. Both programs compute it by the same host operations; stated once over each program's shape
  records, the two are one function.
-/
import proofs.«401130_j54125177864461_3_alg».proof.Proof.Gen.KernelIdeal
import proofs.«401130_j54125177864461_3_alg».proof.Proof.Gen.ReferenceIdeal

noncomputable section

namespace Cert.KernelIdeal.Tail
open Cert.KernelIdeal Cert.KernelIdeal.Facts₀ Cert.KernelIdeal.Facts Idealize.ShloMosaic

/-- The coordinate table over the kernel program's shape records. -/
def coords (ci : IVec S512x2 32) : IVec S3x8388608 32 :=
  concatenate S3x8388608 0 [⟨S1x8388608, (broadcastInDim S1x8388608 ![1] bcast_S8388608_S1x8388608_1 (shapeCast _ (broadcastInDim S512x16384 ![0] bcast_S512_S512x16384_0 (iotaInDim S512 32 0)) shapeCasts_S512x16384_S8388608))⟩, ⟨S2x8388608, (concatenate S2x8388608 0 [⟨S1x8388608, (broadcastInDim S1x8388608 ![1] bcast_S8388608_S1x8388608_1 (shapeCast _ (addi (broadcastInDim S512x128x128 ![0, 1, 2] bcast_S512x1x1_S512x128x128_0_1_2 (broadcastInDim S512x1x1 ![0] bcast_S512_S512x1x1_0 (subi (minsi (broadcastInDim S512 ![] bcast_S_S512 (id (constantI S_ 32 960#32))) (maxsi (broadcastInDim S512 ![] bcast_S_S512 (id (constantI S_ 32 64#32))) (shapeCast _ (extractStridedSlice S512x1 ![0, 0] ci slices_S512x2_S512x1_0_0) shapeCasts_S512x1_S512))) (broadcastInDim S512 ![] bcast_S_S512 (constantI S_ 32 64#32))))) (broadcastInDim S512x128x128 ![0, 1, 2] bcast_S1x128x128_S512x128x128_0_1_2 (broadcastInDim S1x128x128 ![1, 2] bcast_S128x128_S1x128x128_1_2 (broadcastInDim S128x128 ![0] bcast_S128_S128x128_0 (iotaInDim S128 32 0))))) shapeCasts_S512x128x128_S8388608))⟩, ⟨S1x8388608, (broadcastInDim S1x8388608 ![1] bcast_S8388608_S1x8388608_1 (shapeCast _ (addi (broadcastInDim S512x128x128 ![0, 1, 2] bcast_S512x1x1_S512x128x128_0_1_2 (broadcastInDim S512x1x1 ![0] bcast_S512_S512x1x1_0 (subi (minsi (broadcastInDim S512 ![] bcast_S_S512 (id (constantI S_ 32 960#32))) (maxsi (broadcastInDim S512 ![] bcast_S_S512 (id (constantI S_ 32 64#32))) (shapeCast _ (extractStridedSlice S512x1 ![0, 1] ci slices_S512x2_S512x1_0_1) shapeCasts_S512x1_S512))) (broadcastInDim S512 ![] bcast_S_S512 (constantI S_ 32 64#32))))) (broadcastInDim S512x128x128 ![0, 1, 2] bcast_S1x128x128_S512x128x128_0_1_2 (broadcastInDim S1x128x128 ![1, 2] bcast_S128x128_S1x128x128_1_2 (broadcastInDim S128x128 ![1] bcast_S128_S128x128_1 (iotaInDim S128 32 0))))) shapeCasts_S512x128x128_S8388608))⟩] concatenates_S1x8388608_S1x8388608_S2x8388608_d0)⟩] concatenates_S1x8388608_S2x8388608_S3x8388608_d0

end Cert.KernelIdeal.Tail

namespace Cert.ReferenceIdeal.Tail
open Cert.ReferenceIdeal Cert.ReferenceIdeal.Facts₀ Cert.ReferenceIdeal.Facts Idealize.ShloMosaic

/-- The coordinate table over the reference program's shape records. -/
def coords (ci : IVec S512x2 32) : IVec S3x8388608 32 :=
  concatenate S3x8388608 0 [⟨S1x8388608, (broadcastInDim S1x8388608 ![1] bcast_S8388608_S1x8388608_1 (shapeCast _ (broadcastInDim S512x16384 ![0] bcast_S512_S512x16384_0 (iotaInDim S512 32 0)) shapeCasts_S512x16384_S8388608))⟩, ⟨S2x8388608, (concatenate S2x8388608 0 [⟨S1x8388608, (broadcastInDim S1x8388608 ![1] bcast_S8388608_S1x8388608_1 (shapeCast _ (addi (broadcastInDim S512x128x128 ![0, 1, 2] bcast_S512x1x1_S512x128x128_0_1_2 (broadcastInDim S512x1x1 ![0] bcast_S512_S512x1x1_0 (subi (minsi (broadcastInDim S512 ![] bcast_S_S512 (id (constantI S_ 32 960#32))) (maxsi (broadcastInDim S512 ![] bcast_S_S512 (id (constantI S_ 32 64#32))) (shapeCast _ (extractStridedSlice S512x1 ![0, 0] ci slices_S512x2_S512x1_0_0) shapeCasts_S512x1_S512))) (broadcastInDim S512 ![] bcast_S_S512 (constantI S_ 32 64#32))))) (broadcastInDim S512x128x128 ![0, 1, 2] bcast_S1x128x128_S512x128x128_0_1_2 (broadcastInDim S1x128x128 ![1, 2] bcast_S128x128_S1x128x128_1_2 (broadcastInDim S128x128 ![0] bcast_S128_S128x128_0 (iotaInDim S128 32 0))))) shapeCasts_S512x128x128_S8388608))⟩, ⟨S1x8388608, (broadcastInDim S1x8388608 ![1] bcast_S8388608_S1x8388608_1 (shapeCast _ (addi (broadcastInDim S512x128x128 ![0, 1, 2] bcast_S512x1x1_S512x128x128_0_1_2 (broadcastInDim S512x1x1 ![0] bcast_S512_S512x1x1_0 (subi (minsi (broadcastInDim S512 ![] bcast_S_S512 (id (constantI S_ 32 960#32))) (maxsi (broadcastInDim S512 ![] bcast_S_S512 (id (constantI S_ 32 64#32))) (shapeCast _ (extractStridedSlice S512x1 ![0, 1] ci slices_S512x2_S512x1_0_1) shapeCasts_S512x1_S512))) (broadcastInDim S512 ![] bcast_S_S512 (constantI S_ 32 64#32))))) (broadcastInDim S512x128x128 ![0, 1, 2] bcast_S1x128x128_S512x128x128_0_1_2 (broadcastInDim S1x128x128 ![1, 2] bcast_S128x128_S1x128x128_1_2 (broadcastInDim S128x128 ![1] bcast_S128_S128x128_1 (iotaInDim S128 32 0))))) shapeCasts_S512x128x128_S8388608))⟩] concatenates_S1x8388608_S1x8388608_S2x8388608_d0)⟩] concatenates_S1x8388608_S2x8388608_S3x8388608_d0

end Cert.ReferenceIdeal.Tail

namespace Cert.Tail

/-- The two are one function: the same operations at the same shapes (the shape records are proofs). -/
theorem coords_eq (ci : Idealize.ShloMosaic.IVec Cert.KernelIdeal.S512x2 32) :
    Cert.KernelIdeal.Tail.coords ci = Cert.ReferenceIdeal.Tail.coords ci := rfl

end Cert.Tail

end
-- ==== Proof.KRun.lean ====
/-
  The idealized kernel program's run with its two results named: the probability map is the specification's
  function of the arguments (the library's account of the output window over what the body stores at each
  point), and the coordinate table is what the host lines after the region compute from the centroids.
-/
import proofs.«401130_j54125177864461_3_alg».proof.Proof.FrameKI.OutEq
import proofs.«401130_j54125177864461_3_alg».proof.Proof.FrameKI.Tables
import proofs.«401130_j54125177864461_3_alg».proof.Proof.KValue
import proofs.«401130_j54125177864461_3_alg».proof.Proof.Tail
import Idealize.ShloMosaic.Lib.StableHlo.Run

set_option maxRecDepth 16384

noncomputable section

namespace Cert.KernelIdeal.KRun

open Cert.KernelIdeal Cert.KernelIdeal.Gen Cert.KernelIdeal.Frame
open Idealize.ShloMosaic Idealize.ShloMosaic.TcCoe Idealize.SL.Sem
open Idealize.ShloMosaic.Pipeline (Dat)

variable {F : FTy → Type} [FloatOps F]

set_option maxHeartbeats 8000000 in  -- forty-eight host operations folded one by one
/-- The lines after the region read only the centroids: what they leave in the coordinate table is that table's
    function of the centroids as launched. -/
theorem W_main_v45 (m : (ℓ : Loc nD τ sig) → Buf (Elt F) ℓ) (hH : Hyps m) (c : Dev nD) :
    Pipeline.afterTail pcfgs (fun _ => adm m) (dats m hH) 0 (V0 m) sfx c main_v45
      = Cert.KernelIdeal.Tail.coords (m ((c : Thread nD τ).loc main_arg9)) := by
  unfold Pipeline.afterTail
  simp only [sfx, hostOps1, hostOps1_1, hostOps1_2, hostOps1_3, hostOps1_4, List.flatten_cons, List.flatten_nil, List.append_nil, List.cons_append, List.nil_append]
  after_results
  rw [Pipeline.withArrays_of_ne _ c (V0 m c) _ main_arg9 (by exact (by decide : ∀ w, Pipeline.arrRef spec0 w ≠ main_arg9))]
  rw [show V0 m c (Proc.devRef .tc main_arg9) = m ((c : Thread nD τ).loc main_arg9) from V_main_arg9 m c]
  rfl

/-- Every weakly fair execution of the idealized kernel program terminates with the probability map at the
    specification's function of the arguments, the coordinate table at its function of the centroids, and the
    arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = Cert.Spec.prob (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v45) = Cert.KernelIdeal.Tail.coords (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  have hH : Hyps m := fun c t => chk_of_tables m c t
  (θ_run defs _ _).mono (fun _ h c => ⟨
      ((h c).1 7).trans (Cert.KernelIdeal.KValue.final7 m hH c),
      ((h c).2 main_v45 (by decide : main_v45 ∈ Pipeline.restRefs sig spec0)).trans (W_main_v45 m hH c),
      ((h c).2 main_arg0 (by decide : main_arg0 ∈ Pipeline.restRefs sig spec0)).trans (W_main_arg0 m hH c),
      ((h c).2 main_arg1 (by decide : main_arg1 ∈ Pipeline.restRefs sig spec0)).trans (W_main_arg1 m hH c),
      ((h c).2 main_arg2 (by decide : main_arg2 ∈ Pipeline.restRefs sig spec0)).trans (W_main_arg2 m hH c),
      ((h c).1 1).trans (((dats m hH 0 c).arrAt_in 1 rfl _).trans ((A_eq m hH c 1).trans (V_main_arg3 m c))),
      ((h c).1 2).trans (((dats m hH 0 c).arrAt_in 2 rfl _).trans ((A_eq m hH c 2).trans (V_main_arg4 m c))),
      ((h c).1 3).trans (((dats m hH 0 c).arrAt_in 3 rfl _).trans ((A_eq m hH c 3).trans (V_main_arg5 m c))),
      ((h c).1 4).trans (((dats m hH 0 c).arrAt_in 4 rfl _).trans ((A_eq m hH c 4).trans (V_main_arg6 m c))),
      ((h c).1 5).trans (((dats m hH 0 c).arrAt_in 5 rfl _).trans ((A_eq m hH c 5).trans (V_main_arg7 m c))),
      ((h c).1 6).trans (((dats m hH 0 c).arrAt_in 6 rfl _).trans ((A_eq m hH c 6).trans (V_main_arg8 m c))),
      ((h c).2 main_arg9 (by decide : main_arg9 ∈ Pipeline.restRefs sig spec0)).trans (W_main_arg9 m hH c)⟩) (run_main m ρ hH)

end Cert.KernelIdeal.KRun

end
-- ==== Proof.RefRun.Ops.lean ====
/-
  The reference program's 110 host operations in six stretches, each read back at the few buffers the
  next stretches or the results need, as the stage functions of the arguments. Every concatenation opens a
  stretch, so that its operands are always values already named.
-/
import proofs.«401130_j54125177864461_3_alg».proof.Proof.Gen.ReferenceIdeal
import Idealize.ShloMosaic.Lib.StableHlo.Run
import Idealize.ShloMosaic.Lib.Pipeline.Frame
import proofs.«401130_j54125177864461_3_alg».proof.Proof.RefRun.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 to 44 of @main, in order. -/
abbrev ops1 : List (HloOp τ sig (Elt F)) :=
  [ unary main_arg9 main_v0 ((extractStridedSlice S512x1 ![0, 0] · slices_S512x2_S512x1_0_0) : (⟨S512x2, .i32⟩ : BufTy).Contents (Elt F) → (⟨S512x1, .i32⟩ : BufTy).Contents (Elt F)),
    reshape main_v0 main_v1 rfl shapeCasts_S512x1_S512,
    nullary main_c (constantI S_ 32 64#32),
    nullary main_c_0 (constantI S_ 32 960#32),
    TRef.unary (TRef.of (T := ⟨S_, .i32⟩) main_c) (TRef.of (T := ⟨S_, .i32⟩) main_call0_v0) id,
    TRef.unary (TRef.of (T := ⟨S_, .i32⟩) main_call0_v0) (TRef.of (T := ⟨S512, .i32⟩) main_call0_v1) (broadcastInDim S512 ![] bcast_S_S512),
    TRef.binary (TRef.of (T := ⟨S512, .i32⟩) main_call0_v1) (TRef.of (T := ⟨S512, .i32⟩) main_v1) (TRef.of (T := ⟨S512, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S512, .i32⟩) main_call0_v4) (broadcastInDim S512 ![] bcast_S_S512),
    TRef.binary (TRef.of (T := ⟨S512, .i32⟩) main_call0_v4) (TRef.of (T := ⟨S512, .i32⟩) main_call0_v2) (TRef.of (T := ⟨S512, .i32⟩) main_v2) minsi,
    unary main_arg9 main_v3 ((extractStridedSlice S512x1 ![0, 1] · slices_S512x2_S512x1_0_1) : (⟨S512x2, .i32⟩ : BufTy).Contents (Elt F) → (⟨S512x1, .i32⟩ : BufTy).Contents (Elt F)),
    reshape main_v3 main_v4 rfl shapeCasts_S512x1_S512,
    nullary main_c_1 (constantI S_ 32 64#32),
    nullary main_c_2 (constantI S_ 32 960#32),
    TRef.unary (TRef.of (T := ⟨S_, .i32⟩) main_c_1) (TRef.of (T := ⟨S_, .i32⟩) main_call1_v0) id,
    TRef.unary (TRef.of (T := ⟨S_, .i32⟩) main_call1_v0) (TRef.of (T := ⟨S512, .i32⟩) main_call1_v1) (broadcastInDim S512 ![] bcast_S_S512),
    TRef.binary (TRef.of (T := ⟨S512, .i32⟩) main_call1_v1) (TRef.of (T := ⟨S512, .i32⟩) main_v4) (TRef.of (T := ⟨S512, .i32⟩) main_call1_v2) maxsi,
    TRef.unary (TRef.of (T := ⟨S_, .i32⟩) main_c_2) (TRef.of (T := ⟨S_, .i32⟩) main_call1_v3) id,
    TRef.unary (TRef.of (T := ⟨S_, .i32⟩) main_call1_v3) (TRef.of (T := ⟨S512, .i32⟩) main_call1_v4) (broadcastInDim S512 ![] bcast_S_S512),
    TRef.binary (TRef.of (T := ⟨S512, .i32⟩) main_call1_v4) (TRef.of (T := ⟨S512, .i32⟩) main_call1_v2) (TRef.of (T := ⟨S512, .i32⟩) main_v5) minsi,
    nullary main_v6 (iotaInDim S128 32 0),
    nullary main_v7 (iotaInDim S128 32 0),
    unary main_v6 main_v8 (broadcastInDim S128x128 ![0] bcast_S128_S128x128_0 : (⟨S128, .i32⟩ : BufTy).Contents (Elt F) → (⟨S128x128, .i32⟩ : BufTy).Contents (Elt F)),
    unary main_v7 main_v9 (broadcastInDim S128x128 ![1] bcast_S128_S128x128_1 : (⟨S128, .i32⟩ : BufTy).Contents (Elt F) → (⟨S128x128, .i32⟩ : BufTy).Contents (Elt F)),
    nullary main_c_3 (constantI S_ 32 64#32),
    unary main_c_3 main_v10 (broadcastInDim S512 ![] bcast_S_S512 : (⟨S_, .i32⟩ : BufTy).Contents (Elt F) → (⟨S512, .i32⟩ : BufTy).Contents (Elt F)),
    binary main_v2 main_v10 main_v11 (subi : (⟨S512, .i32⟩ : BufTy).Contents (Elt F) → (⟨S512, .i32⟩ : BufTy).Contents (Elt F) → (⟨S512, .i32⟩ : BufTy).Contents (Elt F)),
    unary main_v11 main_v12 (broadcastInDim S512x1x1 ![0] bcast_S512_S512x1x1_0 : (⟨S512, .i32⟩ : BufTy).Contents (Elt F) → (⟨S512x1x1, .i32⟩ : BufTy).Contents (Elt F)),
    unary main_v8 main_v13 (broadcastInDim S1x128x128 ![1, 2] bcast_S128x128_S1x128x128_1_2 : (⟨S128x128, .i32⟩ : BufTy).Contents (Elt F) → (⟨S1x128x128, .i32⟩ : BufTy).Contents (Elt F)),
    unary main_v12 main_v14 (broadcastInDim S512x128x128 ![0, 1, 2] bcast_S512x1x1_S512x128x128_0_1_2 : (⟨S512x1x1, .i32⟩ : BufTy).Contents (Elt F) → (⟨S512x128x128, .i32⟩ : BufTy).Contents (Elt F)),
    unary main_v13 main_v15 (broadcastInDim S512x128x128 ![0, 1, 2] bcast_S1x128x128_S512x128x128_0_1_2 : (⟨S1x128x128, .i32⟩ : BufTy).Contents (Elt F) → (⟨S512x128x128, .i32⟩ : BufTy).Contents (Elt F)),
    binary main_v14 main_v15 main_v16 (addi : (⟨S512x128x128, .i32⟩ : BufTy).Contents (Elt F) → (⟨S512x128x128, .i32⟩ : BufTy).Contents (Elt F) → (⟨S512x128x128, .i32⟩ : BufTy).Contents (Elt F)),
    nullary main_c_4 (constantI S_ 32 64#32),
    unary main_c_4 main_v17 (broadcastInDim S512 ![] bcast_S_S512 : (⟨S_, .i32⟩ : BufTy).Contents (Elt F) → (⟨S512, .i32⟩ : BufTy).Contents (Elt F)),
    binary main_v5 main_v17 main_v18 (subi : (⟨S512, .i32⟩ : BufTy).Contents (Elt F) → (⟨S512, .i32⟩ : BufTy).Contents (Elt F) → (⟨S512, .i32⟩ : BufTy).Contents (Elt F)),
    unary main_v18 main_v19 (broadcastInDim S512x1x1 ![0] bcast_S512_S512x1x1_0 : (⟨S512, .i32⟩ : BufTy).Contents (Elt F) → (⟨S512x1x1, .i32⟩ : BufTy).Contents (Elt F)),
    unary main_v9 main_v20 (broadcastInDim S1x128x128 ![1, 2] bcast_S128x128_S1x128x128_1_2 : (⟨S128x128, .i32⟩ : BufTy).Contents (Elt F) → (⟨S1x128x128, .i32⟩ : BufTy).Contents (Elt F)),
    unary main_v19 main_v21 (broadcastInDim S512x128x128 ![0, 1, 2] bcast_S512x1x1_S512x128x128_0_1_2 : (⟨S512x1x1, .i32⟩ : BufTy).Contents (Elt F) → (⟨S512x128x128, .i32⟩ : BufTy).Contents (Elt F)),
    unary main_v20 main_v22 (broadcastInDim S512x128x128 ![0, 1, 2] bcast_S1x128x128_S512x128x128_0_1_2 : (⟨S1x128x128, .i32⟩ : BufTy).Contents (Elt F) → (⟨S512x128x128, .i32⟩ : BufTy).Contents (Elt F)),
    binary main_v21 main_v22 main_v23 (addi : (⟨S512x128x128, .i32⟩ : BufTy).Contents (Elt F) → (⟨S512x128x128, .i32⟩ : BufTy).Contents (Elt F) → (⟨S512x128x128, .i32⟩ : BufTy).Contents (Elt F)),
    reshape main_v16 main_v24 rfl shapeCasts_S512x128x128_S8388608,
    reshape main_v23 main_v25 rfl shapeCasts_S512x128x128_S8388608,
    unary main_v24 main_v26 (broadcastInDim S1x8388608 ![1] bcast_S8388608_S1x8388608_1 : (⟨S8388608, .i32⟩ : BufTy).Contents (Elt F) → (⟨S1x8388608, .i32⟩ : BufTy).Contents (Elt F)),
    unary main_v25 main_v27 (broadcastInDim S1x8388608 ![1] bcast_S8388608_S1x8388608_1 : (⟨S8388608, .i32⟩ : BufTy).Contents (Elt F) → (⟨S1x8388608, .i32⟩ : BufTy).Contents (Elt F)) ]

set_option maxRecDepth 8192 in
theorem ops1_sub : (ops1 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., reshape_bufs_sub .., reshape_bufs_sub .., unary_bufs_sub .., unary_bufs_sub ..⟩
set_option maxRecDepth 8192 in
theorem ops1_fresh : ∀ op ∈ (ops1 : List (HloOp τ sig (Elt F))), op.fresh = ∅ := by
  intro _ h; (repeat (cases h with | head => rfl | tail _ h => ?_)); exact nomatch h
/-- The buffers written there. -/
abbrev ops1_W : List (Ref sig .tc) := [main_v0, main_v1, main_c, main_c_0, main_call0_v0, main_call0_v1, main_call0_v2, main_call0_v3, main_call0_v4, main_v2, main_v3, main_v4, main_c_1, main_c_2, main_call1_v0, main_call1_v1, main_call1_v2, main_call1_v3, main_call1_v4, main_v5, main_v6, main_v7, main_v8, main_v9, main_c_3, main_v10, main_v11, main_v12, main_v13, main_v14, main_v15, main_v16, main_c_4, main_v17, main_v18, main_v19, main_v20, main_v21, main_v22, main_v23, main_v24, main_v25, main_v26, main_v27]
set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operation 45 of @main. -/
abbrev ops2 : List (HloOp τ sig (Elt F)) :=
  [ binary main_v26 main_v27 main_v28 ((fun a b => concatenate S2x8388608 0 [⟨S1x8388608, a⟩, ⟨S1x8388608, b⟩] concatenates_S1x8388608_S1x8388608_S2x8388608_d0) : (⟨S1x8388608, .i32⟩ : BufTy).Contents (Elt F) → (⟨S1x8388608, .i32⟩ : BufTy).Contents (Elt F) → (⟨S2x8388608, .i32⟩ : BufTy).Contents (Elt F)) ]

set_option maxRecDepth 8192 in
theorem ops2_sub : (ops2 : List (HloOp τ sig (Elt F))).Forall fun op => op.bufs ⊆ tcRefs τ sig :=
  binary_bufs_sub ..
set_option maxRecDepth 8192 in
theorem ops2_fresh : ∀ op ∈ (ops2 : List (HloOp τ sig (Elt F))), op.fresh = ∅ := by
  intro _ h; (repeat (cases h with | head => rfl | tail _ h => ?_)); exact nomatch h
/-- The buffers written there. -/
abbrev ops2_W : List (Ref sig .tc) := [main_v28]
set_option maxRecDepth 8192 in
theorem ops2_writes : (ops2 : List (HloOp τ sig (Elt F))).Forall fun op => op.writes ⊆ (ops2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-- Operations 46 to 66 of @main, in order. -/
abbrev ops3 : List (HloOp τ sig (Elt F)) :=
  [ binary main_arg0 main_arg1 main_v29 ((fun a b => concatenate S7x1024x1024 0 [⟨S6x1024x1024, a⟩, ⟨S1x1024x1024, b⟩] concatenates_S6x1024x1024_S1x1024x1024_S7x1024x1024_d0) : (⟨S6x1024x1024, .f32⟩ : BufTy).Contents (Elt F) → (⟨S1x1024x1024, .f32⟩ : BufTy).Contents (Elt F) → (⟨S7x1024x1024, .f32⟩ : BufTy).Contents (Elt F)),
    unary main_v28 main_v30 ((extractStridedSlice S1x8388608 ![0, 0] · slices_S2x8388608_S1x8388608_0_0) : (⟨S2x8388608, .i32⟩ : BufTy).Contents (Elt F) → (⟨S1x8388608, .i32⟩ : BufTy).Contents (Elt F)),
    reshape main_v30 main_v31 rfl shapeCasts_S1x8388608_S8388608,
    unary main_v28 main_v32 ((extractStridedSlice S1x8388608 ![1, 0] · slices_S2x8388608_S1x8388608_1_0) : (⟨S2x8388608, .i32⟩ : BufTy).Contents (Elt F) → (⟨S1x8388608, .i32⟩ : BufTy).Contents (Elt F)),
    reshape main_v32 main_v33 rfl shapeCasts_S1x8388608_S8388608,
    nullary main_c_5 (constantI S_ 32 0#32),
    unary main_c_5 main_v34 (broadcastInDim S8388608 ![] bcast_S_S8388608 : (⟨S_, .i32⟩ : BufTy).Contents (Elt F) → (⟨S8388608, .i32⟩ : BufTy).Contents (Elt F)),
    binary main_v31 main_v34 main_v35 (cmpi .slt : (⟨S8388608, .i32⟩ : BufTy).Contents (Elt F) → (⟨S8388608, .i32⟩ : BufTy).Contents (Elt F) → (⟨S8388608, .i1⟩ : BufTy).Contents (Elt F)),
    nullary main_c_6 (constantI S_ 32 1024#32),
    unary main_c_6 main_v36 (broadcastInDim S8388608 ![] bcast_S_S8388608 : (⟨S_, .i32⟩ : BufTy).Contents (Elt F) → (⟨S8388608, .i32⟩ : BufTy).Contents (Elt F)),
    binary main_v31 main_v36 main_v37 (addi : (⟨S8388608, .i32⟩ : BufTy).Contents (Elt F) → (⟨S8388608, .i32⟩ : BufTy).Contents (Elt F) → (⟨S8388608, .i32⟩ : BufTy).Contents (Elt F)),
    ternary main_v35 main_v37 main_v31 main_v38 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    nullary main_c_7 (constantI S_ 32 0#32),
    unary main_c_7 main_v39 (broadcastInDim S8388608 ![] bcast_S_S8388608 : (⟨S_, .i32⟩ : BufTy).Contents (Elt F) → (⟨S8388608, .i32⟩ : BufTy).Contents (Elt F)),
    binary main_v33 main_v39 main_v40 (cmpi .slt : (⟨S8388608, .i32⟩ : BufTy).Contents (Elt F) → (⟨S8388608, .i32⟩ : BufTy).Contents (Elt F) → (⟨S8388608, .i1⟩ : BufTy).Contents (Elt F)),
    nullary main_c_8 (constantI S_ 32 1024#32),
    unary main_c_8 main_v41 (broadcastInDim S8388608 ![] bcast_S_S8388608 : (⟨S_, .i32⟩ : BufTy).Contents (Elt F) → (⟨S8388608, .i32⟩ : BufTy).Contents (Elt F)),
    binary main_v33 main_v41 main_v42 (addi : (⟨S8388608, .i32⟩ : BufTy).Contents (Elt F) → (⟨S8388608, .i32⟩ : BufTy).Contents (Elt F) → (⟨S8388608, .i32⟩ : BufTy).Contents (Elt F)),
    ternary main_v40 main_v42 main_v33 main_v43 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v38 main_v44 (broadcastInDim S8388608x1 ![0] bcast_S8388608_S8388608x1_0 : (⟨S8388608, .i32⟩ : BufTy).Contents (Elt F) → (⟨S8388608x1, .i32⟩ : BufTy).Contents (Elt F)),
    unary main_v43 main_v45 (broadcastInDim S8388608x1 ![0] bcast_S8388608_S8388608x1_0 : (⟨S8388608, .i32⟩ : BufTy).Contents (Elt F) → (⟨S8388608x1, .i32⟩ : BufTy).Contents (Elt F)) ]

set_option maxRecDepth 8192 in
theorem ops3_sub : (ops3 : List (HloOp τ sig (Elt F))).Forall fun op => op.bufs ⊆ tcRefs τ sig :=
  ⟨binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
set_option maxRecDepth 8192 in
theorem ops3_fresh : ∀ op ∈ (ops3 : List (HloOp τ sig (Elt F))), op.fresh = ∅ := by
  intro _ h; (repeat (cases h with | head => rfl | tail _ h => ?_)); exact nomatch h
/-- The buffers written there. -/
abbrev ops3_W : List (Ref sig .tc) := [main_v29, main_v30, main_v31, main_v32, main_v33, main_c_5, main_v34, main_v35, main_c_6, main_v36, main_v37, main_v38, main_c_7, main_v39, main_v40, main_c_8, main_v41, main_v42, main_v43, main_v44, main_v45]
set_option maxRecDepth 8192 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 67 to 75 of @main, in order. -/
abbrev ops4 : List (HloOp τ sig (Elt F)) :=
  [ binary main_v44 main_v45 main_v46 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    binary main_v29 main_v46 main_v47 ((fun x i => Host.gather gather_S7x1024x1024_S8388608x2_S7x8388608_0_12_n_n_12_1_711 x i) : (⟨S7x1024x1024, .f32⟩ : BufTy).Contents (Elt F) → (⟨S8388608x2, .i32⟩ : BufTy).Contents (Elt F) → (⟨S7x8388608, .f32⟩ : BufTy).Contents (Elt F)),
    reshape main_v47 main_v48 rfl shapeCasts_S7x8388608_S7x512x128x128,
    unary main_v48 main_v49 ((transpose S512x7x128x128 [1, 0, 2, 3] · transposes_S7x512x128x128_S512x7x128x128_1_0_2_3) : (⟨S7x512x128x128, .f32⟩ : BufTy).Contents (Elt F) → (⟨S512x7x128x128, .f32⟩ : BufTy).Contents (Elt F)),
    unary main_v49 main_v50 ((extractStridedSlice S512x6x128x128 ![0, 0, 0, 0] · slices_S512x7x128x128_S512x6x128x128_0_0_0_0) : (⟨S512x7x128x128, .f32⟩ : BufTy).Contents (Elt F) → (⟨S512x6x128x128, .f32⟩ : BufTy).Contents (Elt F)),
    unary main_arg2 main_v51 (broadcastInDim S512x6x1x1 ![0, 1] bcast_S512x6_S512x6x1x1_0_1 : (⟨S512x6, .f32⟩ : BufTy).Contents (Elt F) → (⟨S512x6x1x1, .f32⟩ : BufTy).Contents (Elt F)),
    unary main_v51 main_v52 (broadcastInDim S512x6x128x128 ![0, 1, 2, 3] bcast_S512x6x1x1_S512x6x128x128_0_1_2_3 : (⟨S512x6x1x1, .f32⟩ : BufTy).Contents (Elt F) → (⟨S512x6x128x128, .f32⟩ : BufTy).Contents (Elt F)),
    binary main_v50 main_v52 main_v53 (subf : (⟨S512x6x128x128, .f32⟩ : BufTy).Contents (Elt F) → (⟨S512x6x128x128, .f32⟩ : BufTy).Contents (Elt F) → (⟨S512x6x128x128, .f32⟩ : BufTy).Contents (Elt F)),
    unary main_v49 main_v54 ((extractStridedSlice S512x1x128x128 ![0, 6, 0, 0] · slices_S512x7x128x128_S512x1x128x128_0_6_0_0) : (⟨S512x7x128x128, .f32⟩ : BufTy).Contents (Elt F) → (⟨S512x1x128x128, .f32⟩ : BufTy).Contents (Elt F)) ]

set_option maxRecDepth 8192 in
theorem ops4_sub : (ops4 : List (HloOp τ sig (Elt F))).Forall fun op => op.bufs ⊆ tcRefs τ sig :=
  ⟨binary_bufs_sub .., binary_bufs_sub .., reshape_bufs_sub .., unary_bufs_sub .., unary_bufs_sub .., unary_bufs_sub .., unary_bufs_sub .., binary_bufs_sub .., unary_bufs_sub ..⟩
set_option maxRecDepth 8192 in
theorem ops4_fresh : ∀ op ∈ (ops4 : List (HloOp τ sig (Elt F))), op.fresh = ∅ := by
  intro _ h; (repeat (cases h with | head => rfl | tail _ h => ?_)); exact nomatch h
/-- The buffers written there. -/
abbrev ops4_W : List (Ref sig .tc) := [main_v46, main_v47, main_v48, main_v49, main_v50, main_v51, main_v52, main_v53, main_v54]
set_option maxRecDepth 8192 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 76 to 109 of @main, in order. -/
abbrev ops5 : List (HloOp τ sig (Elt F)) :=
  [ binary main_v53 main_v54 main_v55 ((fun a b => concatenate S512x7x128x128 1 [⟨S512x6x128x128, a⟩, ⟨S512x1x128x128, b⟩] concatenates_S512x6x128x128_S512x1x128x128_S512x7x128x128_d1) : (⟨S512x6x128x128, .f32⟩ : BufTy).Contents (Elt F) → (⟨S512x1x128x128, .f32⟩ : BufTy).Contents (Elt F) → (⟨S512x7x128x128, .f32⟩ : BufTy).Contents (Elt F)),
    unary main_v55 main_v56 ((transpose S512x128x128x7 [0, 2, 3, 1] · transposes_S512x7x128x128_S512x128x128x7_0_2_3_1) : (⟨S512x7x128x128, .f32⟩ : BufTy).Contents (Elt F) → (⟨S512x128x128x7, .f32⟩ : BufTy).Contents (Elt F)),
    reshape main_v56 main_v57 rfl shapeCasts_S512x128x128x7_S8388608x7,
    binary main_v57 main_arg3 main_v58 ((fun l r => Host.dotGeneral dot_S8388608x7_S7x16_S8388608x16_1_0_0_1_n_n none l r) : (⟨S8388608x7, .f32⟩ : BufTy).Contents (Elt F) → (⟨S7x16, .f32⟩ : BufTy).Contents (Elt F) → (⟨S8388608x16, .f32⟩ : BufTy).Contents (Elt F)),
    unary main_arg4 main_v59 (broadcastInDim S1x16 ![1] bcast_S16_S1x16_1 : (⟨S16, .f32⟩ : BufTy).Contents (Elt F) → (⟨S1x16, .f32⟩ : BufTy).Contents (Elt F)),
    unary main_v59 main_v60 (broadcastInDim S8388608x16 ![0, 1] bcast_S1x16_S8388608x16_0_1 : (⟨S1x16, .f32⟩ : BufTy).Contents (Elt F) → (⟨S8388608x16, .f32⟩ : BufTy).Contents (Elt F)),
    binary main_v58 main_v60 main_v61 (addf : (⟨S8388608x16, .f32⟩ : BufTy).Contents (Elt F) → (⟨S8388608x16, .f32⟩ : BufTy).Contents (Elt F) → (⟨S8388608x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8388608x16, .f32⟩) main_call2_v0) (broadcastInDim S8388608x16 ![] bcast_S_S8388608x16),
    TRef.binary (TRef.of (T := ⟨S8388608x16, .f32⟩) main_v61) (TRef.of (T := ⟨S8388608x16, .f32⟩) main_call2_v0) (TRef.of (T := ⟨S8388608x16, .f32⟩) main_v62) maximumf,
    binary main_v62 main_arg5 main_v63 ((fun l r => Host.dotGeneral dot_S8388608x16_S16x16_S8388608x16_1_0_0_1_n_n none l r) : (⟨S8388608x16, .f32⟩ : BufTy).Contents (Elt F) → (⟨S16x16, .f32⟩ : BufTy).Contents (Elt F) → (⟨S8388608x16, .f32⟩ : BufTy).Contents (Elt F)),
    unary main_arg6 main_v64 (broadcastInDim S1x16 ![1] bcast_S16_S1x16_1 : (⟨S16, .f32⟩ : BufTy).Contents (Elt F) → (⟨S1x16, .f32⟩ : BufTy).Contents (Elt F)),
    unary main_v64 main_v65 (broadcastInDim S8388608x16 ![0, 1] bcast_S1x16_S8388608x16_0_1 : (⟨S1x16, .f32⟩ : BufTy).Contents (Elt F) → (⟨S8388608x16, .f32⟩ : BufTy).Contents (Elt F)),
    binary main_v63 main_v65 main_v66 (addf : (⟨S8388608x16, .f32⟩ : BufTy).Contents (Elt F) → (⟨S8388608x16, .f32⟩ : BufTy).Contents (Elt F) → (⟨S8388608x16, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8388608x16, .f32⟩) main_call3_v0) (broadcastInDim S8388608x16 ![] bcast_S_S8388608x16),
    TRef.binary (TRef.of (T := ⟨S8388608x16, .f32⟩) main_v66) (TRef.of (T := ⟨S8388608x16, .f32⟩) main_call3_v0) (TRef.of (T := ⟨S8388608x16, .f32⟩) main_v67) maximumf,
    binary main_v67 main_arg7 main_v68 ((fun l r => Host.dotGeneral dot_S8388608x16_S16x1_S8388608x1_1_0_0_1_n_n none l r) : (⟨S8388608x16, .f32⟩ : BufTy).Contents (Elt F) → (⟨S16x1, .f32⟩ : BufTy).Contents (Elt F) → (⟨S8388608x1, .f32⟩ : BufTy).Contents (Elt F)),
    unary main_arg8 main_v69 (broadcastInDim S1x1 ![1] bcast_S1_S1x1_1 : (⟨S1, .f32⟩ : BufTy).Contents (Elt F) → (⟨S1x1, .f32⟩ : BufTy).Contents (Elt F)),
    unary main_v69 main_v70 (broadcastInDim S8388608x1 ![0, 1] bcast_S1x1_S8388608x1_0_1 : (⟨S1x1, .f32⟩ : BufTy).Contents (Elt F) → (⟨S8388608x1, .f32⟩ : BufTy).Contents (Elt F)),
    binary main_v68 main_v70 main_v71 (addf : (⟨S8388608x1, .f32⟩ : BufTy).Contents (Elt F) → (⟨S8388608x1, .f32⟩ : BufTy).Contents (Elt F) → (⟨S8388608x1, .f32⟩ : BufTy).Contents (Elt F)),
    unary main_v71 main_v72 (Host.negf : (⟨S8388608x1, .f32⟩ : BufTy).Contents (Elt F) → (⟨S8388608x1, .f32⟩ : BufTy).Contents (Elt F)),
    unary main_v72 main_v73 (Host.exp : (⟨S8388608x1, .f32⟩ : BufTy).Contents (Elt F) → (⟨S8388608x1, .f32⟩ : BufTy).Contents (Elt F)),
    nullary main_cst (constant S_ .f32 0x3F800000#32),
    unary main_cst main_v74 (broadcastInDim S8388608x1 ![] bcast_S_S8388608x1 : (⟨S_, .f32⟩ : BufTy).Contents (Elt F) → (⟨S8388608x1, .f32⟩ : BufTy).Contents (Elt F)),
    binary main_v74 main_v73 main_v75 (addf : (⟨S8388608x1, .f32⟩ : BufTy).Contents (Elt F) → (⟨S8388608x1, .f32⟩ : BufTy).Contents (Elt F) → (⟨S8388608x1, .f32⟩ : BufTy).Contents (Elt F)),
    nullary main_cst_9 (constant S_ .f32 0x3F800000#32),
    unary main_cst_9 main_v76 (broadcastInDim S8388608x1 ![] bcast_S_S8388608x1 : (⟨S_, .f32⟩ : BufTy).Contents (Elt F) → (⟨S8388608x1, .f32⟩ : BufTy).Contents (Elt F)),
    binary main_v76 main_v75 main_v77 (Host.divf : (⟨S8388608x1, .f32⟩ : BufTy).Contents (Elt F) → (⟨S8388608x1, .f32⟩ : BufTy).Contents (Elt F) → (⟨S8388608x1, .f32⟩ : BufTy).Contents (Elt F)),
    reshape main_v77 main_v78 rfl shapeCasts_S8388608x1_S512x1x128x128,
    nullary main_v79 (iotaInDim S512 32 0),
    unary main_v79 main_v80 (broadcastInDim S512x16384 ![0] bcast_S512_S512x16384_0 : (⟨S512, .i32⟩ : BufTy).Contents (Elt F) → (⟨S512x16384, .i32⟩ : BufTy).Contents (Elt F)),
    reshape main_v80 main_v81 rfl shapeCasts_S512x16384_S8388608,
    unary main_v81 main_v82 (broadcastInDim S1x8388608 ![1] bcast_S8388608_S1x8388608_1 : (⟨S8388608, .i32⟩ : BufTy).Contents (Elt F) → (⟨S1x8388608, .i32⟩ : BufTy).Contents (Elt F)) ]

set_option maxRecDepth 8192 in
theorem ops5_sub : (ops5 : List (HloOp τ sig (Elt F))).Forall fun op => op.bufs ⊆ tcRefs τ sig :=
  ⟨binary_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., unary_bufs_sub .., reshape_bufs_sub .., unary_bufs_sub ..⟩
set_option maxRecDepth 8192 in
theorem ops5_fresh : ∀ op ∈ (ops5 : List (HloOp τ sig (Elt F))), op.fresh = ∅ := by
  intro _ h; (repeat (cases h with | head => rfl | tail _ h => ?_)); exact nomatch h
/-- The buffers written there. -/
abbrev ops5_W : List (Ref sig .tc) := [main_v55, main_v56, main_v57, main_v58, main_v59, main_v60, main_v61, main_call2_cst, main_call2_v0, main_v62, main_v63, main_v64, main_v65, main_v66, main_call3_cst, main_call3_v0, main_v67, main_v68, main_v69, main_v70, main_v71, main_v72, main_v73, main_cst, main_v74, main_v75, main_cst_9, main_v76, main_v77, main_v78, main_v79, main_v80, main_v81, main_v82]
set_option maxRecDepth 8192 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operation 110 of @main. -/
abbrev ops6 : List (HloOp τ sig (Elt F)) :=
  [ binary main_v82 main_v28 main_v83 ((fun a b => concatenate S3x8388608 0 [⟨S1x8388608, a⟩, ⟨S2x8388608, b⟩] concatenates_S1x8388608_S2x8388608_S3x8388608_d0) : (⟨S1x8388608, .i32⟩ : BufTy).Contents (Elt F) → (⟨S2x8388608, .i32⟩ : BufTy).Contents (Elt F) → (⟨S3x8388608, .i32⟩ : BufTy).Contents (Elt F)) ]

set_option maxRecDepth 8192 in
theorem ops6_sub : (ops6 : List (HloOp τ sig (Elt F))).Forall fun op => op.bufs ⊆ tcRefs τ sig :=
  binary_bufs_sub ..
set_option maxRecDepth 8192 in
theorem ops6_fresh : ∀ op ∈ (ops6 : List (HloOp τ sig (Elt F))), op.fresh = ∅ := by
  intro _ h; (repeat (cases h with | head => rfl | tail _ h => ?_)); exact nomatch h
/-- The buffers written there. -/
abbrev ops6_W : List (Ref sig .tc) := [main_v83]
set_option maxRecDepth 8192 in
theorem ops6_writes : (ops6 : List (HloOp τ sig (Elt F))).Forall fun op => op.writes ⊆ (ops6_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-! ## The contents after each stretch -/

section Vals
variable (V0 : Valuation τ sig (Elt F))

/-- The contents before the first stretch. -/
def val0 : Valuation τ sig (Elt F) := V0
theorem val0_main_arg0 : val0 V0 (no_index (Proc.devRef .tc main_arg0)) = V0 (Proc.devRef .tc main_arg0) := rfl
theorem val0_main_arg1 : val0 V0 (no_index (Proc.devRef .tc main_arg1)) = V0 (Proc.devRef .tc main_arg1) := rfl
theorem val0_main_arg2 : val0 V0 (no_index (Proc.devRef .tc main_arg2)) = V0 (Proc.devRef .tc main_arg2) := rfl
theorem val0_main_arg3 : val0 V0 (no_index (Proc.devRef .tc main_arg3)) = V0 (Proc.devRef .tc main_arg3) := rfl
theorem val0_main_arg4 : val0 V0 (no_index (Proc.devRef .tc main_arg4)) = V0 (Proc.devRef .tc main_arg4) := rfl
theorem val0_main_arg5 : val0 V0 (no_index (Proc.devRef .tc main_arg5)) = V0 (Proc.devRef .tc main_arg5) := rfl
theorem val0_main_arg6 : val0 V0 (no_index (Proc.devRef .tc main_arg6)) = V0 (Proc.devRef .tc main_arg6) := rfl
theorem val0_main_arg7 : val0 V0 (no_index (Proc.devRef .tc main_arg7)) = V0 (Proc.devRef .tc main_arg7) := rfl
theorem val0_main_arg8 : val0 V0 (no_index (Proc.devRef .tc main_arg8)) = V0 (Proc.devRef .tc main_arg8) := rfl
theorem val0_main_arg9 : val0 V0 (no_index (Proc.devRef .tc main_arg9)) = V0 (Proc.devRef .tc main_arg9) := rfl

/-- The contents after the first 1 stretch. -/
def val1 : Valuation τ sig (Elt F) := after ops1 (val0 V0)
/-- A buffer the stretch does not write keeps its contents through it. -/
theorem val1_keep (r : Ref sig .tc) (h : r ∉ (ops1_W : List (Ref sig .tc))) :
    val1 V0 (Proc.devRef .tc r) = val0 V0 (Proc.devRef .tc r) :=
  after_of_writes_sub ops1 _ ops1_writes h
set_option maxRecDepth 8192 in
set_option maxHeartbeats 4000000 in
theorem val1_main_v26 : val1 V0 (no_index (Proc.devRef .tc main_v26)) = val_main_v26 (F := F) (V0 (Proc.devRef .tc main_arg9)) := by
  unfold val1
  simp only [ops1]
  after_results_simp
  try simp only [val0_main_arg0, val0_main_arg1, val0_main_arg2, val0_main_arg3, val0_main_arg4, val0_main_arg5, val0_main_arg6, val0_main_arg7, val0_main_arg8, val0_main_arg9]
  rfl
set_option maxRecDepth 8192 in
set_option maxHeartbeats 4000000 in
theorem val1_main_v27 : val1 V0 (no_index (Proc.devRef .tc main_v27)) = val_main_v27 (F := F) (V0 (Proc.devRef .tc main_arg9)) := by
  unfold val1
  simp only [ops1]
  after_results_simp
  try simp only [val0_main_arg0, val0_main_arg1, val0_main_arg2, val0_main_arg3, val0_main_arg4, val0_main_arg5, val0_main_arg6, val0_main_arg7, val0_main_arg8, val0_main_arg9]
  rfl
theorem val1_main_arg0 : val1 V0 (no_index (Proc.devRef .tc main_arg0)) = V0 (Proc.devRef .tc main_arg0) :=
  (val1_keep V0 main_arg0 (by decide)).trans (val0_main_arg0 V0)
theorem val1_main_arg1 : val1 V0 (no_index (Proc.devRef .tc main_arg1)) = V0 (Proc.devRef .tc main_arg1) :=
  (val1_keep V0 main_arg1 (by decide)).trans (val0_main_arg1 V0)
theorem val1_main_arg2 : val1 V0 (no_index (Proc.devRef .tc main_arg2)) = V0 (Proc.devRef .tc main_arg2) :=
  (val1_keep V0 main_arg2 (by decide)).trans (val0_main_arg2 V0)
theorem val1_main_arg3 : val1 V0 (no_index (Proc.devRef .tc main_arg3)) = V0 (Proc.devRef .tc main_arg3) :=
  (val1_keep V0 main_arg3 (by decide)).trans (val0_main_arg3 V0)
theorem val1_main_arg4 : val1 V0 (no_index (Proc.devRef .tc main_arg4)) = V0 (Proc.devRef .tc main_arg4) :=
  (val1_keep V0 main_arg4 (by decide)).trans (val0_main_arg4 V0)
theorem val1_main_arg5 : val1 V0 (no_index (Proc.devRef .tc main_arg5)) = V0 (Proc.devRef .tc main_arg5) :=
  (val1_keep V0 main_arg5 (by decide)).trans (val0_main_arg5 V0)
theorem val1_main_arg6 : val1 V0 (no_index (Proc.devRef .tc main_arg6)) = V0 (Proc.devRef .tc main_arg6) :=
  (val1_keep V0 main_arg6 (by decide)).trans (val0_main_arg6 V0)
theorem val1_main_arg7 : val1 V0 (no_index (Proc.devRef .tc main_arg7)) = V0 (Proc.devRef .tc main_arg7) :=
  (val1_keep V0 main_arg7 (by decide)).trans (val0_main_arg7 V0)
theorem val1_main_arg8 : val1 V0 (no_index (Proc.devRef .tc main_arg8)) = V0 (Proc.devRef .tc main_arg8) :=
  (val1_keep V0 main_arg8 (by decide)).trans (val0_main_arg8 V0)
theorem val1_main_arg9 : val1 V0 (no_index (Proc.devRef .tc main_arg9)) = V0 (Proc.devRef .tc main_arg9) :=
  (val1_keep V0 main_arg9 (by decide)).trans (val0_main_arg9 V0)

/-- The contents after the first 2 stretches. -/
def val2 : Valuation τ sig (Elt F) := after ops2 (val1 V0)
/-- A buffer the stretch does not write keeps its contents through it. -/
theorem val2_keep (r : Ref sig .tc) (h : r ∉ (ops2_W : List (Ref sig .tc))) :
    val2 V0 (Proc.devRef .tc r) = val1 V0 (Proc.devRef .tc r) :=
  after_of_writes_sub ops2 _ ops2_writes h
set_option maxRecDepth 8192 in
set_option maxHeartbeats 4000000 in
theorem val2_main_v28 : val2 V0 (no_index (Proc.devRef .tc main_v28)) = val_main_v28 (F := F) (V0 (Proc.devRef .tc main_arg9)) := by
  unfold val2
  simp only [ops2]
  after_results_simp
  try simp only [val1_main_v26, val1_main_v27, val1_main_arg0, val1_main_arg1, val1_main_arg2, val1_main_arg3, val1_main_arg4, val1_main_arg5, val1_main_arg6, val1_main_arg7, val1_main_arg8, val1_main_arg9]
  try rw [val1_main_v26]
  try rw [val1_main_v27]
  rfl
theorem val2_main_arg0 : val2 V0 (no_index (Proc.devRef .tc main_arg0)) = V0 (Proc.devRef .tc main_arg0) :=
  (val2_keep V0 main_arg0 (by decide)).trans (val1_main_arg0 V0)
theorem val2_main_arg1 : val2 V0 (no_index (Proc.devRef .tc main_arg1)) = V0 (Proc.devRef .tc main_arg1) :=
  (val2_keep V0 main_arg1 (by decide)).trans (val1_main_arg1 V0)
theorem val2_main_arg2 : val2 V0 (no_index (Proc.devRef .tc main_arg2)) = V0 (Proc.devRef .tc main_arg2) :=
  (val2_keep V0 main_arg2 (by decide)).trans (val1_main_arg2 V0)
theorem val2_main_arg3 : val2 V0 (no_index (Proc.devRef .tc main_arg3)) = V0 (Proc.devRef .tc main_arg3) :=
  (val2_keep V0 main_arg3 (by decide)).trans (val1_main_arg3 V0)
theorem val2_main_arg4 : val2 V0 (no_index (Proc.devRef .tc main_arg4)) = V0 (Proc.devRef .tc main_arg4) :=
  (val2_keep V0 main_arg4 (by decide)).trans (val1_main_arg4 V0)
theorem val2_main_arg5 : val2 V0 (no_index (Proc.devRef .tc main_arg5)) = V0 (Proc.devRef .tc main_arg5) :=
  (val2_keep V0 main_arg5 (by decide)).trans (val1_main_arg5 V0)
theorem val2_main_arg6 : val2 V0 (no_index (Proc.devRef .tc main_arg6)) = V0 (Proc.devRef .tc main_arg6) :=
  (val2_keep V0 main_arg6 (by decide)).trans (val1_main_arg6 V0)
theorem val2_main_arg7 : val2 V0 (no_index (Proc.devRef .tc main_arg7)) = V0 (Proc.devRef .tc main_arg7) :=
  (val2_keep V0 main_arg7 (by decide)).trans (val1_main_arg7 V0)
theorem val2_main_arg8 : val2 V0 (no_index (Proc.devRef .tc main_arg8)) = V0 (Proc.devRef .tc main_arg8) :=
  (val2_keep V0 main_arg8 (by decide)).trans (val1_main_arg8 V0)
theorem val2_main_arg9 : val2 V0 (no_index (Proc.devRef .tc main_arg9)) = V0 (Proc.devRef .tc main_arg9) :=
  (val2_keep V0 main_arg9 (by decide)).trans (val1_main_arg9 V0)

/-- The contents after the first 3 stretches. -/
def val3 : Valuation τ sig (Elt F) := after ops3 (val2 V0)
/-- A buffer the stretch does not write keeps its contents through it. -/
theorem val3_keep (r : Ref sig .tc) (h : r ∉ (ops3_W : List (Ref sig .tc))) :
    val3 V0 (Proc.devRef .tc r) = val2 V0 (Proc.devRef .tc r) :=
  after_of_writes_sub ops3 _ ops3_writes h
theorem val3_main_v28 : val3 V0 (no_index (Proc.devRef .tc main_v28)) = val_main_v28 (F := F) (V0 (Proc.devRef .tc main_arg9)) :=
  (val3_keep V0 main_v28 (by decide)).trans (val2_main_v28 V0)
set_option maxRecDepth 8192 in
set_option maxHeartbeats 4000000 in
theorem val3_main_v29 : val3 V0 (no_index (Proc.devRef .tc main_v29)) = val_main_v29 (F := F) (V0 (Proc.devRef .tc main_arg0)) (V0 (Proc.devRef .tc main_arg1)) := by
  unfold val3
  simp only [ops3]
  after_results_simp
  try simp only [val2_main_v28, val2_main_arg0, val2_main_arg1, val2_main_arg2, val2_main_arg3, val2_main_arg4, val2_main_arg5, val2_main_arg6, val2_main_arg7, val2_main_arg8, val2_main_arg9]
  try rw [val2_main_arg0]
  try rw [val2_main_arg1]
  rfl
set_option maxRecDepth 8192 in
set_option maxHeartbeats 4000000 in
theorem val3_main_v44 : val3 V0 (no_index (Proc.devRef .tc main_v44)) = val_main_v44 (F := F) (V0 (Proc.devRef .tc main_arg9)) := by
  unfold val3
  simp only [ops3]
  after_results_simp
  try simp only [val2_main_v28, val2_main_arg0, val2_main_arg1, val2_main_arg2, val2_main_arg3, val2_main_arg4, val2_main_arg5, val2_main_arg6, val2_main_arg7, val2_main_arg8, val2_main_arg9]
  try rw [val2_main_arg0]
  try rw [val2_main_arg1]
  rfl
set_option maxRecDepth 8192 in
set_option maxHeartbeats 4000000 in
theorem val3_main_v45 : val3 V0 (no_index (Proc.devRef .tc main_v45)) = val_main_v45 (F := F) (V0 (Proc.devRef .tc main_arg9)) := by
  unfold val3
  simp only [ops3]
  after_results_simp
  try simp only [val2_main_v28, val2_main_arg0, val2_main_arg1, val2_main_arg2, val2_main_arg3, val2_main_arg4, val2_main_arg5, val2_main_arg6, val2_main_arg7, val2_main_arg8, val2_main_arg9]
  try rw [val2_main_arg0]
  try rw [val2_main_arg1]
  rfl
theorem val3_main_arg0 : val3 V0 (no_index (Proc.devRef .tc main_arg0)) = V0 (Proc.devRef .tc main_arg0) :=
  (val3_keep V0 main_arg0 (by decide)).trans (val2_main_arg0 V0)
theorem val3_main_arg1 : val3 V0 (no_index (Proc.devRef .tc main_arg1)) = V0 (Proc.devRef .tc main_arg1) :=
  (val3_keep V0 main_arg1 (by decide)).trans (val2_main_arg1 V0)
theorem val3_main_arg2 : val3 V0 (no_index (Proc.devRef .tc main_arg2)) = V0 (Proc.devRef .tc main_arg2) :=
  (val3_keep V0 main_arg2 (by decide)).trans (val2_main_arg2 V0)
theorem val3_main_arg3 : val3 V0 (no_index (Proc.devRef .tc main_arg3)) = V0 (Proc.devRef .tc main_arg3) :=
  (val3_keep V0 main_arg3 (by decide)).trans (val2_main_arg3 V0)
theorem val3_main_arg4 : val3 V0 (no_index (Proc.devRef .tc main_arg4)) = V0 (Proc.devRef .tc main_arg4) :=
  (val3_keep V0 main_arg4 (by decide)).trans (val2_main_arg4 V0)
theorem val3_main_arg5 : val3 V0 (no_index (Proc.devRef .tc main_arg5)) = V0 (Proc.devRef .tc main_arg5) :=
  (val3_keep V0 main_arg5 (by decide)).trans (val2_main_arg5 V0)
theorem val3_main_arg6 : val3 V0 (no_index (Proc.devRef .tc main_arg6)) = V0 (Proc.devRef .tc main_arg6) :=
  (val3_keep V0 main_arg6 (by decide)).trans (val2_main_arg6 V0)
theorem val3_main_arg7 : val3 V0 (no_index (Proc.devRef .tc main_arg7)) = V0 (Proc.devRef .tc main_arg7) :=
  (val3_keep V0 main_arg7 (by decide)).trans (val2_main_arg7 V0)
theorem val3_main_arg8 : val3 V0 (no_index (Proc.devRef .tc main_arg8)) = V0 (Proc.devRef .tc main_arg8) :=
  (val3_keep V0 main_arg8 (by decide)).trans (val2_main_arg8 V0)
theorem val3_main_arg9 : val3 V0 (no_index (Proc.devRef .tc main_arg9)) = V0 (Proc.devRef .tc main_arg9) :=
  (val3_keep V0 main_arg9 (by decide)).trans (val2_main_arg9 V0)

/-- The contents after the first 4 stretches. -/
def val4 : Valuation τ sig (Elt F) := after ops4 (val3 V0)
/-- A buffer the stretch does not write keeps its contents through it. -/
theorem val4_keep (r : Ref sig .tc) (h : r ∉ (ops4_W : List (Ref sig .tc))) :
    val4 V0 (Proc.devRef .tc r) = val3 V0 (Proc.devRef .tc r) :=
  after_of_writes_sub ops4 _ ops4_writes h
theorem val4_main_v28 : val4 V0 (no_index (Proc.devRef .tc main_v28)) = val_main_v28 (F := F) (V0 (Proc.devRef .tc main_arg9)) :=
  (val4_keep V0 main_v28 (by decide)).trans (val3_main_v28 V0)
set_option maxRecDepth 8192 in
set_option maxHeartbeats 4000000 in
theorem val4_main_v53 : val4 V0 (no_index (Proc.devRef .tc main_v53)) = val_main_v53 (F := F) (V0 (Proc.devRef .tc main_arg0)) (V0 (Proc.devRef .tc main_arg1)) (V0 (Proc.devRef .tc main_arg2)) (V0 (Proc.devRef .tc main_arg9)) := by
  unfold val4
  simp only [ops4]
  after_results_simp
  try simp only [val3_main_v28, val3_main_v29, val3_main_v44, val3_main_v45, val3_main_arg0, val3_main_arg1, val3_main_arg2, val3_main_arg3, val3_main_arg4, val3_main_arg5, val3_main_arg6, val3_main_arg7, val3_main_arg8, val3_main_arg9]
  try rw [val3_main_v44]
  try rw [val3_main_v45]
  rfl
set_option maxRecDepth 8192 in
set_option maxHeartbeats 4000000 in
theorem val4_main_v54 : val4 V0 (no_index (Proc.devRef .tc main_v54)) = val_main_v54 (F := F) (V0 (Proc.devRef .tc main_arg0)) (V0 (Proc.devRef .tc main_arg1)) (V0 (Proc.devRef .tc main_arg9)) := by
  unfold val4
  simp only [ops4]
  after_results_simp
  try simp only [val3_main_v28, val3_main_v29, val3_main_v44, val3_main_v45, val3_main_arg0, val3_main_arg1, val3_main_arg2, val3_main_arg3, val3_main_arg4, val3_main_arg5, val3_main_arg6, val3_main_arg7, val3_main_arg8, val3_main_arg9]
  try rw [val3_main_v44]
  try rw [val3_main_v45]
  rfl
theorem val4_main_arg0 : val4 V0 (no_index (Proc.devRef .tc main_arg0)) = V0 (Proc.devRef .tc main_arg0) :=
  (val4_keep V0 main_arg0 (by decide)).trans (val3_main_arg0 V0)
theorem val4_main_arg1 : val4 V0 (no_index (Proc.devRef .tc main_arg1)) = V0 (Proc.devRef .tc main_arg1) :=
  (val4_keep V0 main_arg1 (by decide)).trans (val3_main_arg1 V0)
theorem val4_main_arg2 : val4 V0 (no_index (Proc.devRef .tc main_arg2)) = V0 (Proc.devRef .tc main_arg2) :=
  (val4_keep V0 main_arg2 (by decide)).trans (val3_main_arg2 V0)
theorem val4_main_arg3 : val4 V0 (no_index (Proc.devRef .tc main_arg3)) = V0 (Proc.devRef .tc main_arg3) :=
  (val4_keep V0 main_arg3 (by decide)).trans (val3_main_arg3 V0)
theorem val4_main_arg4 : val4 V0 (no_index (Proc.devRef .tc main_arg4)) = V0 (Proc.devRef .tc main_arg4) :=
  (val4_keep V0 main_arg4 (by decide)).trans (val3_main_arg4 V0)
theorem val4_main_arg5 : val4 V0 (no_index (Proc.devRef .tc main_arg5)) = V0 (Proc.devRef .tc main_arg5) :=
  (val4_keep V0 main_arg5 (by decide)).trans (val3_main_arg5 V0)
theorem val4_main_arg6 : val4 V0 (no_index (Proc.devRef .tc main_arg6)) = V0 (Proc.devRef .tc main_arg6) :=
  (val4_keep V0 main_arg6 (by decide)).trans (val3_main_arg6 V0)
theorem val4_main_arg7 : val4 V0 (no_index (Proc.devRef .tc main_arg7)) = V0 (Proc.devRef .tc main_arg7) :=
  (val4_keep V0 main_arg7 (by decide)).trans (val3_main_arg7 V0)
theorem val4_main_arg8 : val4 V0 (no_index (Proc.devRef .tc main_arg8)) = V0 (Proc.devRef .tc main_arg8) :=
  (val4_keep V0 main_arg8 (by decide)).trans (val3_main_arg8 V0)
theorem val4_main_arg9 : val4 V0 (no_index (Proc.devRef .tc main_arg9)) = V0 (Proc.devRef .tc main_arg9) :=
  (val4_keep V0 main_arg9 (by decide)).trans (val3_main_arg9 V0)

/-- The contents after the first 5 stretches. -/
def val5 : Valuation τ sig (Elt F) := after ops5 (val4 V0)
/-- A buffer the stretch does not write keeps its contents through it. -/
theorem val5_keep (r : Ref sig .tc) (h : r ∉ (ops5_W : List (Ref sig .tc))) :
    val5 V0 (Proc.devRef .tc r) = val4 V0 (Proc.devRef .tc r) :=
  after_of_writes_sub ops5 _ ops5_writes h
theorem val5_main_v28 : val5 V0 (no_index (Proc.devRef .tc main_v28)) = val_main_v28 (F := F) (V0 (Proc.devRef .tc main_arg9)) :=
  (val5_keep V0 main_v28 (by decide)).trans (val4_main_v28 V0)
set_option maxRecDepth 8192 in
set_option maxHeartbeats 4000000 in
theorem val5_main_v78 : val5 V0 (no_index (Proc.devRef .tc main_v78)) = val_main_v78 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val5
  simp only [ops5]
  after_results_simp
  try simp only [val4_main_v28, val4_main_v53, val4_main_v54, val4_main_arg0, val4_main_arg1, val4_main_arg2, val4_main_arg3, val4_main_arg4, val4_main_arg5, val4_main_arg6, val4_main_arg7, val4_main_arg8, val4_main_arg9]
  try rw [val4_main_v53]
  try rw [val4_main_v54]
  rfl
set_option maxRecDepth 8192 in
set_option maxHeartbeats 4000000 in
theorem val5_main_v82 : val5 V0 (no_index (Proc.devRef .tc main_v82)) = val_main_v82 (F := F) := by
  unfold val5
  simp only [ops5]
  after_results_simp
  try simp only [val4_main_v28, val4_main_v53, val4_main_v54, val4_main_arg0, val4_main_arg1, val4_main_arg2, val4_main_arg3, val4_main_arg4, val4_main_arg5, val4_main_arg6, val4_main_arg7, val4_main_arg8, val4_main_arg9]
  try rw [val4_main_v53]
  try rw [val4_main_v54]
  rfl
theorem val5_main_arg0 : val5 V0 (no_index (Proc.devRef .tc main_arg0)) = V0 (Proc.devRef .tc main_arg0) :=
  (val5_keep V0 main_arg0 (by decide)).trans (val4_main_arg0 V0)
theorem val5_main_arg1 : val5 V0 (no_index (Proc.devRef .tc main_arg1)) = V0 (Proc.devRef .tc main_arg1) :=
  (val5_keep V0 main_arg1 (by decide)).trans (val4_main_arg1 V0)
theorem val5_main_arg2 : val5 V0 (no_index (Proc.devRef .tc main_arg2)) = V0 (Proc.devRef .tc main_arg2) :=
  (val5_keep V0 main_arg2 (by decide)).trans (val4_main_arg2 V0)
theorem val5_main_arg3 : val5 V0 (no_index (Proc.devRef .tc main_arg3)) = V0 (Proc.devRef .tc main_arg3) :=
  (val5_keep V0 main_arg3 (by decide)).trans (val4_main_arg3 V0)
theorem val5_main_arg4 : val5 V0 (no_index (Proc.devRef .tc main_arg4)) = V0 (Proc.devRef .tc main_arg4) :=
  (val5_keep V0 main_arg4 (by decide)).trans (val4_main_arg4 V0)
theorem val5_main_arg5 : val5 V0 (no_index (Proc.devRef .tc main_arg5)) = V0 (Proc.devRef .tc main_arg5) :=
  (val5_keep V0 main_arg5 (by decide)).trans (val4_main_arg5 V0)
theorem val5_main_arg6 : val5 V0 (no_index (Proc.devRef .tc main_arg6)) = V0 (Proc.devRef .tc main_arg6) :=
  (val5_keep V0 main_arg6 (by decide)).trans (val4_main_arg6 V0)
theorem val5_main_arg7 : val5 V0 (no_index (Proc.devRef .tc main_arg7)) = V0 (Proc.devRef .tc main_arg7) :=
  (val5_keep V0 main_arg7 (by decide)).trans (val4_main_arg7 V0)
theorem val5_main_arg8 : val5 V0 (no_index (Proc.devRef .tc main_arg8)) = V0 (Proc.devRef .tc main_arg8) :=
  (val5_keep V0 main_arg8 (by decide)).trans (val4_main_arg8 V0)
theorem val5_main_arg9 : val5 V0 (no_index (Proc.devRef .tc main_arg9)) = V0 (Proc.devRef .tc main_arg9) :=
  (val5_keep V0 main_arg9 (by decide)).trans (val4_main_arg9 V0)

/-- The contents after the first 6 stretches. -/
def val6 : Valuation τ sig (Elt F) := after ops6 (val5 V0)
/-- A buffer the stretch does not write keeps its contents through it. -/
theorem val6_keep (r : Ref sig .tc) (h : r ∉ (ops6_W : List (Ref sig .tc))) :
    val6 V0 (Proc.devRef .tc r) = val5 V0 (Proc.devRef .tc r) :=
  after_of_writes_sub ops6 _ ops6_writes h
theorem val6_main_v78 : val6 V0 (no_index (Proc.devRef .tc main_v78)) = val_main_v78 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val6_keep V0 main_v78 (by decide)).trans (val5_main_v78 V0)
set_option maxRecDepth 8192 in
set_option maxHeartbeats 4000000 in
theorem val6_main_v83 : val6 V0 (no_index (Proc.devRef .tc main_v83)) = val_main_v83 (F := F) (V0 (Proc.devRef .tc main_arg9)) := by
  unfold val6
  simp only [ops6]
  after_results_simp
  try simp only [val5_main_v28, val5_main_v78, val5_main_v82, val5_main_arg0, val5_main_arg1, val5_main_arg2, val5_main_arg3, val5_main_arg4, val5_main_arg5, val5_main_arg6, val5_main_arg7, val5_main_arg8, val5_main_arg9]
  try rw [val5_main_v28]
  try rw [val5_main_v82]
  rfl
theorem val6_main_arg0 : val6 V0 (no_index (Proc.devRef .tc main_arg0)) = V0 (Proc.devRef .tc main_arg0) :=
  (val6_keep V0 main_arg0 (by decide)).trans (val5_main_arg0 V0)
theorem val6_main_arg1 : val6 V0 (no_index (Proc.devRef .tc main_arg1)) = V0 (Proc.devRef .tc main_arg1) :=
  (val6_keep V0 main_arg1 (by decide)).trans (val5_main_arg1 V0)
theorem val6_main_arg2 : val6 V0 (no_index (Proc.devRef .tc main_arg2)) = V0 (Proc.devRef .tc main_arg2) :=
  (val6_keep V0 main_arg2 (by decide)).trans (val5_main_arg2 V0)
theorem val6_main_arg3 : val6 V0 (no_index (Proc.devRef .tc main_arg3)) = V0 (Proc.devRef .tc main_arg3) :=
  (val6_keep V0 main_arg3 (by decide)).trans (val5_main_arg3 V0)
theorem val6_main_arg4 : val6 V0 (no_index (Proc.devRef .tc main_arg4)) = V0 (Proc.devRef .tc main_arg4) :=
  (val6_keep V0 main_arg4 (by decide)).trans (val5_main_arg4 V0)
theorem val6_main_arg5 : val6 V0 (no_index (Proc.devRef .tc main_arg5)) = V0 (Proc.devRef .tc main_arg5) :=
  (val6_keep V0 main_arg5 (by decide)).trans (val5_main_arg5 V0)
theorem val6_main_arg6 : val6 V0 (no_index (Proc.devRef .tc main_arg6)) = V0 (Proc.devRef .tc main_arg6) :=
  (val6_keep V0 main_arg6 (by decide)).trans (val5_main_arg6 V0)
theorem val6_main_arg7 : val6 V0 (no_index (Proc.devRef .tc main_arg7)) = V0 (Proc.devRef .tc main_arg7) :=
  (val6_keep V0 main_arg7 (by decide)).trans (val5_main_arg7 V0)
theorem val6_main_arg8 : val6 V0 (no_index (Proc.devRef .tc main_arg8)) = V0 (Proc.devRef .tc main_arg8) :=
  (val6_keep V0 main_arg8 (by decide)).trans (val5_main_arg8 V0)
theorem val6_main_arg9 : val6 V0 (no_index (Proc.devRef .tc main_arg9)) = V0 (Proc.devRef .tc main_arg9) :=
  (val6_keep V0 main_arg9 (by decide)).trans (val5_main_arg9 V0)

end Vals

end Cert.ReferenceIdeal.RefRun

end
-- ==== Proof.RefRun.Run.lean ====
/-
  The reference program's run: @main is its 110 operations in order; every weakly fair execution ends with each
  result at the stage that computes it and the arguments unchanged.
-/
import Idealize.ShloMosaic.Lib.Pipeline.Regions
import proofs.«401130_j54125177864461_3_alg».proof.Proof.RefRun.Ops
import proofs.«401130_j54125177864461_3_alg».proof.Proof.Tail

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The run -/

/-- @main's 110 operations, in order. -/
abbrev ops : List (HloOp τ sig (Elt F)) := ops1 ++ ops2 ++ ops3 ++ ops4 ++ ops5 ++ ops6

set_option maxRecDepth 16384 in
theorem main_eq (c : Dev nD) : main (F := F) c = seq ops := by chain_rfl
theorem scopedRefs_eq : (Finset.univ.filter fun b : Ref sig .tc => b.isScoped) = ∅ := by decide
theorem scopedSems_eq : (Finset.univ.filter fun sm : SemLoc sig => sm.isScoped .tc) = ∅ := by decide

/-- Membership in the whole list is membership in one of the stretches. -/
theorem mem_ops {op : HloOp τ sig (Elt F)} (h : op ∈ (ops : List (HloOp τ sig (Elt F)))) :
    op ∈ (ops1 : List (HloOp τ sig (Elt F))) ∨ op ∈ (ops2 : List (HloOp τ sig (Elt F))) ∨ op ∈ (ops3 : List (HloOp τ sig (Elt F)))
      ∨ op ∈ (ops4 : List (HloOp τ sig (Elt F))) ∨ op ∈ (ops5 : List (HloOp τ sig (Elt F))) ∨ op ∈ (ops6 : List (HloOp τ sig (Elt F))) := by
  have h' : op ∈ (ops1 ++ ops2 ++ ops3 ++ ops4 ++ ops5 ++ ops6 : List (HloOp τ sig (Elt F))) := h
  rcases List.mem_append.1 h' with h5 | h6
  · rcases List.mem_append.1 h5 with h4 | h5
    · rcases List.mem_append.1 h4 with h3 | h4
      · rcases List.mem_append.1 h3 with h2 | h3
        · rcases List.mem_append.1 h2 with h1 | h2
          · exact Or.inl h1
          · exact Or.inr (Or.inl h2)
        · exact Or.inr (Or.inr (Or.inl h3))
      · exact Or.inr (Or.inr (Or.inr (Or.inl h4)))
    · exact Or.inr (Or.inr (Or.inr (Or.inr (Or.inl h5))))
  · exact Or.inr (Or.inr (Or.inr (Or.inr (Or.inr h6))))

theorem ops_sub : (ops : List (HloOp τ sig (Elt F))).Forall fun op => op.bufs ⊆ tcRefs τ sig :=
  List.forall_iff_forall_mem.2 fun op h => by
    rcases mem_ops h with h | h | h | h | h | h
    · exact List.forall_iff_forall_mem.1 ops1_sub op h
    · exact List.forall_iff_forall_mem.1 ops2_sub op h
    · exact List.forall_iff_forall_mem.1 ops3_sub op h
    · exact List.forall_iff_forall_mem.1 ops4_sub op h
    · exact List.forall_iff_forall_mem.1 ops5_sub op h
    · exact List.forall_iff_forall_mem.1 ops6_sub op h

theorem ops_fresh : ∀ op ∈ (ops : List (HloOp τ sig (Elt F))), op.fresh = ∅ := fun op h => by
  rcases mem_ops h with h | h | h | h | h | h
  · exact ops1_fresh op h
  · exact ops2_fresh op h
  · exact ops3_fresh op h
  · exact ops4_fresh op h
  · exact ops5_fresh op h
  · exact ops6_fresh op h

/-- The contents after all the operations are the contents after the six stretches. -/
theorem after_ops (V0 : Valuation τ sig (Elt F)) : after ops V0 = val6 V0 := by
  show after (ops1 ++ ops2 ++ ops3 ++ ops4 ++ ops5 ++ ops6) V0 = _
  rw [after_append, after_append, after_append, after_append, after_append]
  rfl

/-- The instance table and the pixel coordinates, as the stages spell them, are the coordinate table. -/
theorem coords_eq (x9 : (⟨S512x2, .i32⟩ : BufTy).Contents (Elt F)) :
    val_main_v83 (F := F) x9 = Cert.ReferenceIdeal.Tail.coords x9 := rfl

/-- Result 0 of @main: the last stage, of the arguments' launch contents. -/
def out0 (m : (ℓ : Loc nD τ sig) → Buf (Elt F) ℓ) (c : Dev nD) : Buf (Elt F) ((c.tc : Thread nD τ).loc main_v78) :=
  val_main_v78 (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- On every device, for any float values, from any memory with zero counters: every weakly fair execution of
    @main terminates with result 0 at the last stage of the arguments, result 1 at the coordinate table, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = out0 m c
      ∧ r.2.mem ((c.tc : Thread nD τ).loc main_v83) = Cert.ReferenceIdeal.Tail.coords (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v78).trans ((congrFun (after_ops (launchContents m c)) _).trans (val6_main_v78 (launchContents m c))),
      (h c main_v83).trans ((congrFun (after_ops (launchContents m c)) _).trans
        ((val6_main_v83 (launchContents m c)).trans (coords_eq _))),
      (h c main_arg0).trans ((congrFun (after_ops (launchContents m c)) _).trans (val6_main_arg0 (launchContents m c))),
      (h c main_arg1).trans ((congrFun (after_ops (launchContents m c)) _).trans (val6_main_arg1 (launchContents m c))),
      (h c main_arg2).trans ((congrFun (after_ops (launchContents m c)) _).trans (val6_main_arg2 (launchContents m c))),
      (h c main_arg3).trans ((congrFun (after_ops (launchContents m c)) _).trans (val6_main_arg3 (launchContents m c))),
      (h c main_arg4).trans ((congrFun (after_ops (launchContents m c)) _).trans (val6_main_arg4 (launchContents m c))),
      (h c main_arg5).trans ((congrFun (after_ops (launchContents m c)) _).trans (val6_main_arg5 (launchContents m c))),
      (h c main_arg6).trans ((congrFun (after_ops (launchContents m c)) _).trans (val6_main_arg6 (launchContents m c))),
      (h c main_arg7).trans ((congrFun (after_ops (launchContents m c)) _).trans (val6_main_arg7 (launchContents m c))),
      (h c main_arg8).trans ((congrFun (after_ops (launchContents m c)) _).trans (val6_main_arg8 (launchContents m c))),
      (h c main_arg9).trans ((congrFun (after_ops (launchContents m c)) _).trans (val6_main_arg9 (launchContents m c)))⟩)
    (run_seq scopedRefs_eq scopedSems_eq defs main (fun _ => ops) main_eq (fun _ => ops_sub) m ρ (fun _ => ops_fresh))

end Cert.ReferenceIdeal.RefRun

end
-- ==== Proof.RefRun.Value.lean ====
/-
  The reference program's last stage, read index by index: every pixel of every instance's probability map is the
  specification's per-pixel network applied to the cropped features.

  The start indices of the gather are the crop origins plus the window coordinates; they are small nonnegative
  numbers, so the wrap of negative indices and the gather's clamp leave them alone. The gathered operand is the
  embedding channels stacked on the sigma channel; the descriptor is taken off the six embedding channels; the three
  products are plain sums; the logistic function is spelt as one over one plus the exponential of the negation.
-/
import proofs.«401130_j54125177864461_3_alg».proof.Proof.RefRun.Stages
import proofs.«401130_j54125177864461_3_alg».proof.Proof.Spec

noncomputable section

open scoped BigOperators

namespace Cert.ReferenceIdeal.RefRun

open Cert.ReferenceIdeal Cert.ReferenceIdeal.Gen Idealize.ShloMosaic Idealize.ShloMosaic.ValueIdx
  Idealize.ShloMosaic.TcCoe Idealize.SL.Sem Idealize.ShloMosaic.StableHlo

/-! ## Words: a crop's start index is a small nonnegative number -/

/-- An origin plus a window coordinate, as a 32-bit word, is the sum of the two numbers: no wraparound. -/
theorem start_toNat (v : BitVec 32) (r : Nat) (hr : r < 128) :
    (IntOp.addi (Cert.Spec.origin v) (BitVec.ofNat 32 r)).toNat = (Cert.Spec.origin v).toNat + r := by
  have h := Cert.Spec.origin_le v
  unfold IntOp.addi
  rw [BitVec.toNat_add, BitVec.toNat_ofNat]
  omega

/-- Read signed, it is that same number. -/
theorem start_toInt (v : BitVec 32) (r : Nat) (hr : r < 128) :
    (IntOp.addi (Cert.Spec.origin v) (BitVec.ofNat 32 r)).toInt = (((Cert.Spec.origin v).toNat + r : Nat) : Int) := by
  have h := Cert.Spec.origin_le v
  have hn := start_toNat v r hr
  rw [BitVec.toInt_eq_toNat_cond, hn]
  rw [if_pos (by omega)]

/-- Such a start index is not negative as a signed word. -/
theorem start_not_neg (v : BitVec 32) (r : Nat) (hr : r < 128) :
    IntOp.cmpi .slt (IntOp.addi (Cert.Spec.origin v) (BitVec.ofNat 32 r)) 0#32 = 0#1 := by
  have hi := start_toInt v r hr
  unfold IntOp.cmpi
  have : ¬ (IntOp.addi (Cert.Spec.origin v) (BitVec.ofNat 32 r)).slt 0#32 = true := by
    simp only [BitVec.slt, decide_eq_true_eq, hi]
    have : (0#32 : BitVec 32).toInt = 0 := by decide
    rw [this]; omega
  simp [this]

/-- A start index clamped into the image: read signed, and cut to [0, 1023]. -/
def clampPx (v : BitVec 32) : Fin 1024 := ⟨min v.toInt.toNat 1023, by omega⟩

/-- The clamp leaves a crop's start index alone: it is the image coordinate of the window coordinate. -/
theorem clampPx_start (v : BitVec 32) (r : Fin 128) :
    clampPx (IntOp.addi (Cert.Spec.origin v) (BitVec.ofNat 32 r.val)) = Cert.Spec.at_ v r := by
  have h := Cert.Spec.origin_le v
  have hi := start_toInt v r.val r.isLt
  refine Fin.ext ?_
  show min (IntOp.addi (Cert.Spec.origin v) (BitVec.ofNat 32 r.val)).toInt.toNat 1023 = (Cert.Spec.origin v).toNat + r.val
  rw [hi]
  have := r.isLt
  omega

/-! ## The gather: channel from the result's row, the two pixel coordinates from the two start-index components -/

/-- The program's gather dimension numbers. -/
abbrev GD : GatherDims S7x1024x1024 S8388608x2 S7x8388608 := gather_S7x1024x1024_S8388608x2_S7x8388608_0_12_n_n_12_1_711

theorem GD_sim : GD.startIndexMap = [1, 2] := rfl

/-- Result entry (ch, p) reads component 0 of its start index at (p, 0) of the start indices. -/
theorem GD_siIdx0 (ch : Fin 7) (p : Fin 8388608) (h : 0 < GD.startIndexMap.length) :
    GD.siIdx (ix2 ch p) ⟨0, h⟩ = ix2 p 0 := by
  funext b; refine Fin.ext ?_
  match b with
  | ⟨0, _⟩ => rfl
  | ⟨1, _⟩ => rfl

/-- … and component 1 at (p, 1). -/
theorem GD_siIdx1 (ch : Fin 7) (p : Fin 8388608) (h : 1 < GD.startIndexMap.length) :
    GD.siIdx (ix2 ch p) ⟨1, h⟩ = ix2 p 1 := by
  funext b; refine Fin.ext ?_
  match b with
  | ⟨0, _⟩ => rfl
  | ⟨1, _⟩ => rfl

/-- On the channel axis (the offset axis) the operand index is the result's row. -/
theorem GD_operandIdx_ch {w : Nat} (idx : IVec S8388608x2 w) (ch : Fin 7) (p : Fin 8388608) :
    (GD.operandIdx (ix2 ch p) idx 0).val = ch.val := by
  show GD.start (ix2 ch p) idx 0 + GD.batchCoord (ix2 ch p) 0 + GD.offCoord (ix2 ch p) 0 = _
  rw [GatherDims.batchCoord_eq_zero _ _ _ List.not_mem_nil]
  unfold GatherDims.start
  rw [dif_neg (show ¬ (0 : Fin 3) ∈ GD.startIndexMap by decide)]
  simp only [Nat.add_zero, Nat.zero_add]
  rfl

/-- On the image's row axis (collapsed) the operand index is the clamped first start-index component. -/
theorem GD_operandIdx_row (idx : IVec S8388608x2 32) (ch : Fin 7) (p : Fin 8388608) :
    (GD.operandIdx (ix2 ch p) idx 1).val = (clampPx (idx (ix2 p 0))).val := by
  show GD.start (ix2 ch p) idx 1 + GD.batchCoord (ix2 ch p) 1 + GD.offCoord (ix2 ch p) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ GD.startIndexMap by decide)]
  have e : (⟨List.idxOf (1 : Fin 3) GD.startIndexMap, List.idxOf_lt_length_iff.2 (show (1 : Fin 3) ∈ GD.startIndexMap by decide)⟩ : Fin GD.startIndexMap.length) = ⟨0, by decide⟩ := rfl
  rw [e, GD_siIdx0]
  rfl

/-- On the image's column axis (collapsed) it is the clamped second component. -/
theorem GD_operandIdx_col (idx : IVec S8388608x2 32) (ch : Fin 7) (p : Fin 8388608) :
    (GD.operandIdx (ix2 ch p) idx 2).val = (clampPx (idx (ix2 p 1))).val := by
  show GD.start (ix2 ch p) idx 2 + GD.batchCoord (ix2 ch p) 2 + GD.offCoord (ix2 ch p) 2 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (2 : Fin 3) ∈ GD.startIndexMap by decide)]
  have e : (⟨List.idxOf (2 : Fin 3) GD.startIndexMap, List.idxOf_lt_length_iff.2 (show (2 : Fin 3) ∈ GD.startIndexMap by decide)⟩ : Fin GD.startIndexMap.length) = ⟨1, by decide⟩ := rfl
  rw [e, GD_siIdx1]
  rfl

/-- The gather read at (ch, p): channel ch of the image at the pixel the two clamped start-index components name. -/
theorem gather_apply {α : Type} (x : S7x1024x1024.Idx → α) (idx : IVec S8388608x2 32) (ch : Fin 7) (p : Fin 8388608) :
    Host.gather GD x idx (ix2 ch p) = x (ix3 ch (clampPx (idx (ix2 p 0))) (clampPx (idx (ix2 p 1)))) := by
  unfold Host.gather
  congr 1
  funext a
  refine Fin.ext ?_
  match a with
  | ⟨0, _⟩ => exact GD_operandIdx_ch idx ch p
  | ⟨1, _⟩ => exact GD_operandIdx_row idx ch p
  | ⟨2, _⟩ => exact GD_operandIdx_col idx ch p

/-! ## The four two-piece concatenations, read at an index -/

section Cat
variable {α : Type}

/-- Row 0 of the two stacked start-index rows is the first. -/
theorem cat_rows_0 (a b : S1x8388608.Idx → α) (p : Fin 8388608) :
    concatenate S2x8388608 0 [⟨S1x8388608, a⟩, ⟨S1x8388608, b⟩] concatenates_S1x8388608_S1x8388608_S2x8388608_d0
      (ix2 (0 : Fin 2) p) = a (ix2 (0 : Fin 1) p) :=
  concatenate_pair_apply_left (t := S2x8388608) 0 a b concatenates_S1x8388608_S1x8388608_S2x8388608_d0 (ix2 (0 : Fin 2) p) rfl (ix2 (0 : Fin 1) p) (fun c => match c with
    | ⟨0, _⟩ => rfl
    | ⟨1, _⟩ => rfl)

/-- Row 1 is the second. -/
theorem cat_rows_1 (a b : S1x8388608.Idx → α) (p : Fin 8388608) :
    concatenate S2x8388608 0 [⟨S1x8388608, a⟩, ⟨S1x8388608, b⟩] concatenates_S1x8388608_S1x8388608_S2x8388608_d0
      (ix2 (1 : Fin 2) p) = b (ix2 (0 : Fin 1) p) :=
  concatenate_pair_apply_right (t := S2x8388608) 0 a b concatenates_S1x8388608_S1x8388608_S2x8388608_d0 (ix2 (1 : Fin 2) p) rfl rfl (ix2 (0 : Fin 1) p) (fun c => match c with
    | ⟨0, _⟩ => fun h => absurd rfl h
    | ⟨1, _⟩ => fun _ => rfl) rfl

/-- Column 0 of the start indices is the first component. -/
theorem cat_cols_0 (a b : S8388608x1.Idx → α) (p : Fin 8388608) :
    concatenate S8388608x2 1 [⟨S8388608x1, a⟩, ⟨S8388608x1, b⟩] concatenates_S8388608x1_S8388608x1_S8388608x2_d1
      (ix2 p (0 : Fin 2)) = a (ix2 p (0 : Fin 1)) :=
  concatenate_pair_apply_left (t := S8388608x2) 1 a b concatenates_S8388608x1_S8388608x1_S8388608x2_d1 (ix2 p (0 : Fin 2)) rfl (ix2 p (0 : Fin 1)) (fun c => match c with
    | ⟨0, _⟩ => rfl
    | ⟨1, _⟩ => rfl)

/-- Column 1 is the second. -/
theorem cat_cols_1 (a b : S8388608x1.Idx → α) (p : Fin 8388608) :
    concatenate S8388608x2 1 [⟨S8388608x1, a⟩, ⟨S8388608x1, b⟩] concatenates_S8388608x1_S8388608x1_S8388608x2_d1
      (ix2 p (1 : Fin 2)) = b (ix2 p (0 : Fin 1)) :=
  concatenate_pair_apply_right (t := S8388608x2) 1 a b concatenates_S8388608x1_S8388608x1_S8388608x2_d1 (ix2 p (1 : Fin 2)) rfl rfl (ix2 p (0 : Fin 1)) (fun c => match c with
    | ⟨0, _⟩ => fun _ => rfl
    | ⟨1, _⟩ => fun h => absurd rfl h) rfl

/-- A channel below 6 of the stacked image is that embedding channel. -/
theorem cat_img_lt (x : S6x1024x1024.Idx → α) (s : S1x1024x1024.Idx → α) (ch : Fin 7) (hch : ch.val < 6) (a b : Fin 1024) :
    concatenate S7x1024x1024 0 [⟨S6x1024x1024, x⟩, ⟨S1x1024x1024, s⟩] concatenates_S6x1024x1024_S1x1024x1024_S7x1024x1024_d0
      (ix3 ch a b) = x (ix3 (⟨ch.val, hch⟩ : Fin 6) a b) :=
  concatenate_pair_apply_left (t := S7x1024x1024) 0 x s concatenates_S6x1024x1024_S1x1024x1024_S7x1024x1024_d0 (ix3 ch a b) rfl (ix3 (⟨ch.val, hch⟩ : Fin 6) a b) (fun c => match c with
    | ⟨0, _⟩ => rfl
    | ⟨1, _⟩ => rfl
    | ⟨2, _⟩ => rfl)

/-- Channel 6 of the stacked image is the sigma channel. -/
theorem cat_img_ge (x : S6x1024x1024.Idx → α) (s : S1x1024x1024.Idx → α) (ch : Fin 7) (hch : ¬ ch.val < 6) (a b : Fin 1024) :
    concatenate S7x1024x1024 0 [⟨S6x1024x1024, x⟩, ⟨S1x1024x1024, s⟩] concatenates_S6x1024x1024_S1x1024x1024_S7x1024x1024_d0
      (ix3 ch a b) = s (ix3 (0 : Fin 1) a b) :=
  concatenate_pair_apply_right (t := S7x1024x1024) 0 x s concatenates_S6x1024x1024_S1x1024x1024_S7x1024x1024_d0 (ix3 ch a b) rfl rfl (ix3 (0 : Fin 1) a b) (fun c => match c with
    | ⟨0, _⟩ => fun h => absurd rfl h
    | ⟨1, _⟩ => fun _ => rfl
    | ⟨2, _⟩ => fun _ => rfl) (by have := ch.isLt; show 0 + 6 = ch.val; omega)

/-- A feature channel below 6 is the descriptor-shifted embedding channel. -/
theorem cat_feat_lt (e : S512x6x128x128.Idx → α) (s : S512x1x128x128.Idx → α) (i : Fin 512) (ch : Fin 7) (hch : ch.val < 6)
    (r q : Fin 128) :
    concatenate S512x7x128x128 1 [⟨S512x6x128x128, e⟩, ⟨S512x1x128x128, s⟩]
      concatenates_S512x6x128x128_S512x1x128x128_S512x7x128x128_d1 (ix4 i ch r q) = e (ix4 i (⟨ch.val, hch⟩ : Fin 6) r q) :=
  concatenate_pair_apply_left (t := S512x7x128x128) 1 e s concatenates_S512x6x128x128_S512x1x128x128_S512x7x128x128_d1 (ix4 i ch r q) rfl (ix4 i (⟨ch.val, hch⟩ : Fin 6) r q) (fun c => match c with
    | ⟨0, _⟩ => rfl
    | ⟨1, _⟩ => rfl
    | ⟨2, _⟩ => rfl
    | ⟨3, _⟩ => rfl)

/-- Feature channel 6 is the sigma channel. -/
theorem cat_feat_ge (e : S512x6x128x128.Idx → α) (s : S512x1x128x128.Idx → α) (i : Fin 512) (ch : Fin 7) (hch : ¬ ch.val < 6)
    (r q : Fin 128) :
    concatenate S512x7x128x128 1 [⟨S512x6x128x128, e⟩, ⟨S512x1x128x128, s⟩]
      concatenates_S512x6x128x128_S512x1x128x128_S512x7x128x128_d1 (ix4 i ch r q) = s (ix4 i (0 : Fin 1) r q) :=
  concatenate_pair_apply_right (t := S512x7x128x128) 1 e s concatenates_S512x6x128x128_S512x1x128x128_S512x7x128x128_d1 (ix4 i ch r q) rfl rfl (ix4 i (0 : Fin 1) r q) (fun c => match c with
    | ⟨0, _⟩ => fun _ => rfl
    | ⟨1, _⟩ => fun h => absurd rfl h
    | ⟨2, _⟩ => fun _ => rfl
    | ⟨3, _⟩ => fun _ => rfl) (by have := ch.isLt; show 0 + 6 = ch.val; omega)

end Cat

/-! ## The start indices: row p of the flattened windows is instance p / 16384, window row p / 128 % 128, window column p % 128 -/

/-- The instance of a flattened pixel. -/
abbrev pI (p : Fin 8388608) : Fin 512 := ⟨p.val / 16384, by have := p.isLt; omega⟩
/-- Its window row. -/
abbrev pR (p : Fin 8388608) : Fin 128 := ⟨p.val / 128 % 128, by omega⟩
/-- Its window column. -/
abbrev pQ (p : Fin 8388608) : Fin 128 := ⟨p.val % 128, by omega⟩

section Idx
variable (x9 : (⟨S512x2, .i32⟩ : BufTy).Contents (Elt Ideal))

/-- The image row of flattened pixel p, before the wrap: the row origin of its instance plus its window row. -/
theorem rows_eq (p : Fin 8388608) :
    val_main_v24 (F := Ideal) x9 (ix1 p)
      = IntOp.addi (Cert.Spec.origin (x9 (ix2 (pI p) (0 : Fin 2)))) (BitVec.ofNat 32 (pR p).val) := by
  simp only [val_main_v24_apply, val_main_v16_apply, val_main_v14_apply, val_main_v12_apply, val_main_v11_apply,
    val_main_v2_apply, val_main_call0_v4_apply, val_main_call0_v3_apply, val_main_c_0_apply, val_main_call0_v2_apply,
    val_main_call0_v1_apply, val_main_call0_v0_apply, val_main_c_apply, val_main_v1_apply, val_main_v0_apply,
    val_main_v10_apply, val_main_c_3_apply, val_main_v15_apply, val_main_v13_apply, val_main_v8_apply, val_main_v6_apply]
  have e : idx_main_v0 (idx_main_v1 (idx_main_v12 (idx_main_v14 (idx_main_v24 (ix1 p))))) = ix2 (pI p) (0 : Fin 2) := by
    funext a; refine Fin.ext ?_
    match a with
    | ⟨0, _⟩ => show p.val / 16384 / 1 = p.val / 16384; omega
    | ⟨1, _⟩ => rfl
  rw [e]
  rfl

/-- The image column of flattened pixel p, before the wrap: the column origin of its instance plus its window column. -/
theorem cols_eq (p : Fin 8388608) :
    val_main_v25 (F := Ideal) x9 (ix1 p)
      = IntOp.addi (Cert.Spec.origin (x9 (ix2 (pI p) (1 : Fin 2)))) (BitVec.ofNat 32 (pQ p).val) := by
  simp only [val_main_v25_apply, val_main_v23_apply, val_main_v21_apply, val_main_v19_apply, val_main_v18_apply,
    val_main_v5_apply, val_main_call1_v4_apply, val_main_call1_v3_apply, val_main_c_2_apply, val_main_call1_v2_apply,
    val_main_call1_v1_apply, val_main_call1_v0_apply, val_main_c_1_apply, val_main_v4_apply, val_main_v3_apply,
    val_main_v17_apply, val_main_c_4_apply, val_main_v22_apply, val_main_v20_apply, val_main_v9_apply, val_main_v7_apply]
  have e : idx_main_v3 (idx_main_v4 (idx_main_v19 (idx_main_v21 (idx_main_v25 (ix1 p))))) = ix2 (pI p) (1 : Fin 2) := by
    funext a; refine Fin.ext ?_
    match a with
    | ⟨0, _⟩ => show p.val / 16384 / 1 = p.val / 16384; omega
    | ⟨1, _⟩ => rfl
  rw [e]
  rfl

/-- Row 0 of the stacked start-index rows, flattened, is the image row. -/
theorem row0_eq (p : Fin 8388608) :
    val_main_v31 (F := Ideal) x9 (ix1 p)
      = IntOp.addi (Cert.Spec.origin (x9 (ix2 (pI p) (0 : Fin 2)))) (BitVec.ofNat 32 (pR p).val) := by
  rw [val_main_v31_apply, val_main_v30_apply]
  have e : idx_main_v30 (idx_main_v31 (ix1 p)) = ix2 (0 : Fin 2) p := by
    funext a; refine Fin.ext ?_
    match a with
    | ⟨0, _⟩ => rfl
    | ⟨1, _⟩ => exact Nat.mod_eq_of_lt p.isLt
  rw [e]
  unfold val_main_v28
  rw [cat_rows_0, val_main_v26_apply]
  have e2 : idx_main_v26 (ix2 (0 : Fin 1) p) = ix1 p := by
    funext a; match a with | ⟨0, _⟩ => rfl
  rw [e2, rows_eq]

/-- Row 1 is the image column. -/
theorem row1_eq (p : Fin 8388608) :
    val_main_v33 (F := Ideal) x9 (ix1 p)
      = IntOp.addi (Cert.Spec.origin (x9 (ix2 (pI p) (1 : Fin 2)))) (BitVec.ofNat 32 (pQ p).val) := by
  rw [val_main_v33_apply, val_main_v32_apply]
  have e : idx_main_v32 (idx_main_v33 (ix1 p)) = ix2 (1 : Fin 2) p := by
    funext a; refine Fin.ext ?_
    match a with
    | ⟨0, _⟩ => rfl
    | ⟨1, _⟩ => exact Nat.mod_eq_of_lt p.isLt
  rw [e]
  unfold val_main_v28
  rw [cat_rows_1, val_main_v27_apply]
  have e2 : idx_main_v27 (ix2 (0 : Fin 1) p) = ix1 p := by
    funext a; match a with | ⟨0, _⟩ => rfl
  rw [e2, cols_eq]

/-- The wrap of a negative index does nothing to the image row: it is not negative. -/
theorem wrap0_eq (p : Fin 8388608) :
    val_main_v38 (F := Ideal) x9 (ix1 p)
      = IntOp.addi (Cert.Spec.origin (x9 (ix2 (pI p) (0 : Fin 2)))) (BitVec.ofNat 32 (pR p).val) := by
  rw [val_main_v38_apply, val_main_v35_apply, val_main_v34_apply, val_main_c_5_apply, row0_eq,
    start_not_neg _ _ (pR p).isLt, select_zero]

/-- Nor to the image column. -/
theorem wrap1_eq (p : Fin 8388608) :
    val_main_v43 (F := Ideal) x9 (ix1 p)
      = IntOp.addi (Cert.Spec.origin (x9 (ix2 (pI p) (1 : Fin 2)))) (BitVec.ofNat 32 (pQ p).val) := by
  rw [val_main_v43_apply, val_main_v40_apply, val_main_v39_apply, val_main_c_7_apply, row1_eq,
    start_not_neg _ _ (pQ p).isLt, select_zero]

/-- Component 0 of the start index of flattened pixel p. -/
theorem si0_eq (p : Fin 8388608) :
    val_main_v46 (F := Ideal) x9 (ix2 p (0 : Fin 2))
      = IntOp.addi (Cert.Spec.origin (x9 (ix2 (pI p) (0 : Fin 2)))) (BitVec.ofNat 32 (pR p).val) := by
  unfold val_main_v46
  rw [cat_cols_0, val_main_v44_apply]
  have e : idx_main_v44 (ix2 p (0 : Fin 1)) = ix1 p := by
    funext a; match a with | ⟨0, _⟩ => rfl
  rw [e, wrap0_eq]

/-- Component 1. -/
theorem si1_eq (p : Fin 8388608) :
    val_main_v46 (F := Ideal) x9 (ix2 p (1 : Fin 2))
      = IntOp.addi (Cert.Spec.origin (x9 (ix2 (pI p) (1 : Fin 2)))) (BitVec.ofNat 32 (pQ p).val) := by
  unfold val_main_v46
  rw [cat_cols_1, val_main_v45_apply]
  have e : idx_main_v45 (ix2 p (0 : Fin 1)) = ix1 p := by
    funext a; match a with | ⟨0, _⟩ => rfl
  rw [e, wrap1_eq]

end Idx
/-! ## The cropped features -/

section Feat
variable (x0 : (⟨S6x1024x1024, .f32⟩ : BufTy).Contents (Elt Ideal)) (x1 : (⟨S1x1024x1024, .f32⟩ : BufTy).Contents (Elt Ideal))
  (x2 : (⟨S512x6, .f32⟩ : BufTy).Contents (Elt Ideal)) (x9 : (⟨S512x2, .i32⟩ : BufTy).Contents (Elt Ideal))

/-- The gathered channel ch at flattened pixel p: the stacked image at the cropped pixel. -/
theorem gathered_eq (ch : Fin 7) (p : Fin 8388608) :
    val_main_v47 (F := Ideal) x0 x1 x9 (ix2 ch p)
      = val_main_v29 (F := Ideal) x0 x1 (ix3 ch (Cert.Spec.at_ (x9 (ix2 (pI p) (0 : Fin 2))) (pR p))
          (Cert.Spec.at_ (x9 (ix2 (pI p) (1 : Fin 2))) (pQ p))) := by
  unfold val_main_v47
  refine (gather_apply (val_main_v29 (F := Ideal) x0 x1) (val_main_v46 (F := Ideal) x9) ch p).trans ?_
  rw [si0_eq, si1_eq, clampPx_start, clampPx_start]

/-- The gathered windows as [512, 7, 128, 128]: channel ch of instance i at window pixel (r, q). -/
theorem crop_eq (i : Fin 512) (ch : Fin 7) (r q : Fin 128) :
    val_main_v49 (F := Ideal) x0 x1 x9 (ix4 i ch r q)
      = val_main_v29 (F := Ideal) x0 x1 (ix3 ch (Cert.Spec.at_ (x9 (ix2 i (0 : Fin 2))) r)
          (Cert.Spec.at_ (x9 (ix2 i (1 : Fin 2))) q)) := by
  have hi := i.isLt; have hr := r.isLt; have hq := q.isLt; have hc := ch.isLt
  rw [val_main_v49_apply, val_main_v48_apply]
  have e : idx_main_v48 (idx_main_v49 (ix4 i ch r q))
      = ix2 ch (⟨i.val * 16384 + r.val * 128 + q.val, by omega⟩ : Fin 8388608) := by
    funext a; refine Fin.ext ?_
    match a with
    | ⟨0, _⟩ => show (((ch.val * 512 + i.val) * 128 + r.val) * 128 + q.val) / 8388608 = ch.val; omega
    | ⟨1, _⟩ => show (((ch.val * 512 + i.val) * 128 + r.val) * 128 + q.val) % 8388608 = i.val * 16384 + r.val * 128 + q.val; omega
  rw [e, gathered_eq]
  have e1 : pI (⟨i.val * 16384 + r.val * 128 + q.val, by omega⟩ : Fin 8388608) = i :=
    Fin.ext (by show (i.val * 16384 + r.val * 128 + q.val) / 16384 = i.val; omega)
  have e2 : pR (⟨i.val * 16384 + r.val * 128 + q.val, by omega⟩ : Fin 8388608) = r :=
    Fin.ext (by show (i.val * 16384 + r.val * 128 + q.val) / 128 % 128 = r.val; omega)
  have e3 : pQ (⟨i.val * 16384 + r.val * 128 + q.val, by omega⟩ : Fin 8388608) = q :=
    Fin.ext (by show (i.val * 16384 + r.val * 128 + q.val) % 128 = q.val; omega)
  rw [e1, e2, e3]

/-- The feature tensor [512, 7, 128, 128] is the specification's feature. -/
theorem feat_eq (i : Fin 512) (ch : Fin 7) (r q : Fin 128) :
    val_main_v55 (F := Ideal) x0 x1 x2 x9 (ix4 i ch r q) = Cert.Spec.feat x0 x1 x2 x9 i r q ch := by
  unfold Cert.Spec.feat val_main_v55
  by_cases hch : ch.val < 6
  · rw [dif_pos hch, cat_feat_lt _ _ i ch hch r q, val_main_v53_apply, val_main_v50_apply, val_main_v52_apply, val_main_v51_apply]
    have e : idx_main_v50 (ix4 i (⟨ch.val, hch⟩ : Fin 6) r q) = ix4 i ch r q := by
      funext a
      match a with
      | ⟨0, _⟩ => rfl
      | ⟨1, _⟩ => rfl
      | ⟨2, _⟩ => rfl
      | ⟨3, _⟩ => rfl
    have e' : idx_main_v51 (idx_main_v52 (ix4 i (⟨ch.val, hch⟩ : Fin 6) r q)) = ix2 i (⟨ch.val, hch⟩ : Fin 6) := by
      funext a
      match a with
      | ⟨0, _⟩ => rfl
      | ⟨1, _⟩ => rfl
    rw [e, e', crop_eq]
    unfold val_main_v29
    rw [cat_img_lt _ _ ch hch]
    rfl
  · rw [dif_neg hch, cat_feat_ge _ _ i ch hch r q, val_main_v54_apply]
    have h6 : ch = (6 : Fin 7) := Fin.ext (by have := ch.isLt; show ch.val = 6; omega)
    have e : idx_main_v54 (ix4 i (0 : Fin 1) r q) = ix4 i ch r q := by
      subst h6
      funext a
      match a with
      | ⟨0, _⟩ => rfl
      | ⟨1, _⟩ => rfl
      | ⟨2, _⟩ => rfl
      | ⟨3, _⟩ => rfl
    rw [e, crop_eq]
    unfold val_main_v29
    rw [cat_img_ge _ _ ch hch]

/-- Row p of the feature matrix [8388608, 7] is the feature vector of flattened pixel p. -/
theorem featRow_eq (p : Fin 8388608) (ch : Fin 7) :
    val_main_v57 (F := Ideal) x0 x1 x2 x9 (ix2 p ch) = Cert.Spec.feat x0 x1 x2 x9 (pI p) (pR p) (pQ p) ch := by
  have hp := p.isLt; have hc := ch.isLt
  rw [val_main_v57_apply, val_main_v56_apply]
  have e : idx_main_v56 (idx_main_v57 (ix2 p ch)) = ix4 (pI p) ch (pR p) (pQ p) := by
    funext a; refine Fin.ext ?_
    match a with
    | ⟨0, _⟩ => show (p.val * 7 + ch.val) / 114688 = p.val / 16384; omega
    | ⟨1, _⟩ => show (p.val * 7 + ch.val) % 7 = ch.val; omega
    | ⟨2, _⟩ => show (p.val * 7 + ch.val) / 896 % 128 = p.val / 128 % 128; omega
    | ⟨3, _⟩ => show (p.val * 7 + ch.val) / 7 % 128 = p.val % 128; omega
  rw [e, feat_eq]

end Feat
/-! ## The per-pixel network -/

section Net
variable (x0 : (⟨S6x1024x1024, .f32⟩ : BufTy).Contents (Elt Ideal)) (x1 : (⟨S1x1024x1024, .f32⟩ : BufTy).Contents (Elt Ideal))
  (x2 : (⟨S512x6, .f32⟩ : BufTy).Contents (Elt Ideal)) (x3 : (⟨S7x16, .f32⟩ : BufTy).Contents (Elt Ideal))
  (x4 : (⟨S16, .f32⟩ : BufTy).Contents (Elt Ideal)) (x5 : (⟨S16x16, .f32⟩ : BufTy).Contents (Elt Ideal))
  (x6 : (⟨S16, .f32⟩ : BufTy).Contents (Elt Ideal)) (x7 : (⟨S16x1, .f32⟩ : BufTy).Contents (Elt Ideal))
  (x8 : (⟨S1, .f32⟩ : BufTy).Contents (Elt Ideal)) (x9 : (⟨S512x2, .i32⟩ : BufTy).Contents (Elt Ideal))

/-- The first layer at row p, unit c: the affine map of the row's features, cut below at zero. -/
theorem layer1_eq (p : Fin 8388608) (f : Fin 7 → EReal)
    (hf : ∀ k : Fin 7, val_main_v57 (F := Ideal) x0 x1 x2 x9 (ix2 p k) = f k) (c : Fin 16) :
    val_main_v62 (F := Ideal) x0 x1 x2 x3 x4 x9 (ix2 p c) = max (Cert.Spec.affine f x3 x4 c) 0 := by
  rw [val_main_v62_apply, val_main_v61_apply, val_main_v58_apply, val_main_v60_apply, val_main_v59_apply,
    val_main_call2_v0_apply, val_main_call2_cst_apply]
  have el : ∀ k : Fin 7, lidx_main_v58 (ix2 p c) k = ix2 p k := fun k => funext fun a => by
    match a with
    | ⟨0, _⟩ => rfl
    | ⟨1, _⟩ => rfl
  have er : ∀ k : Fin 7, ridx_main_v58 (ix2 p c) k = ix2 k c := fun k => funext fun a => by
    match a with
    | ⟨0, _⟩ => rfl
    | ⟨1, _⟩ => rfl
  have eb : idx_main_v59 (idx_main_v60 (ix2 p c)) = ix1 c := funext fun a => by
    match a with
    | ⟨0, _⟩ => rfl
  simp only [el, er, eb, hf]
  show max ((∑ k : Fin 7, f k * x3 (ix2 k c)) + x4 (ix1 c)) (Ideal.ofBits .f32 0x00000000#32) = _
  rw [Ideal.ofBits_zero_f32]
  rfl

/-- The second layer at row p, unit c. -/
theorem layer2_eq (p : Fin 8388608) (g : Fin 16 → EReal)
    (hg : ∀ k : Fin 16, val_main_v62 (F := Ideal) x0 x1 x2 x3 x4 x9 (ix2 p k) = g k) (c : Fin 16) :
    val_main_v67 (F := Ideal) x0 x1 x2 x3 x4 x5 x6 x9 (ix2 p c) = max (Cert.Spec.affine g x5 x6 c) 0 := by
  rw [val_main_v67_apply, val_main_v66_apply, val_main_v63_apply, val_main_v65_apply, val_main_v64_apply,
    val_main_call3_v0_apply, val_main_call3_cst_apply]
  have el : ∀ k : Fin 16, lidx_main_v63 (ix2 p c) k = ix2 p k := fun k => funext fun a => by
    match a with
    | ⟨0, _⟩ => rfl
    | ⟨1, _⟩ => rfl
  have er : ∀ k : Fin 16, ridx_main_v63 (ix2 p c) k = ix2 k c := fun k => funext fun a => by
    match a with
    | ⟨0, _⟩ => rfl
    | ⟨1, _⟩ => rfl
  have eb : idx_main_v64 (idx_main_v65 (ix2 p c)) = ix1 c := funext fun a => by
    match a with
    | ⟨0, _⟩ => rfl
  simp only [el, er, eb, hg]
  show max ((∑ k : Fin 16, g k * x5 (ix2 k c)) + x6 (ix1 c)) (Ideal.ofBits .f32 0x00000000#32) = _
  rw [Ideal.ofBits_zero_f32]
  rfl

/-- The third layer at row p: one unit. -/
theorem layer3_eq (p : Fin 8388608) (h : Fin 16 → EReal)
    (hh : ∀ k : Fin 16, val_main_v67 (F := Ideal) x0 x1 x2 x3 x4 x5 x6 x9 (ix2 p k) = h k) :
    val_main_v71 (F := Ideal) x0 x1 x2 x3 x4 x5 x6 x7 x8 x9 (ix2 p (0 : Fin 1)) = Cert.Spec.affine h x7 x8 (0 : Fin 1) := by
  rw [val_main_v71_apply, val_main_v68_apply, val_main_v70_apply, val_main_v69_apply]
  have el : ∀ k : Fin 16, lidx_main_v68 (ix2 p (0 : Fin 1)) k = ix2 p k := fun k => funext fun a => by
    match a with
    | ⟨0, _⟩ => rfl
    | ⟨1, _⟩ => rfl
  have er : ∀ k : Fin 16, ridx_main_v68 (ix2 p (0 : Fin 1)) k = ix2 k (0 : Fin 1) := fun k => funext fun a => by
    match a with
    | ⟨0, _⟩ => rfl
    | ⟨1, _⟩ => rfl
  have eb : idx_main_v69 (idx_main_v70 (ix2 p (0 : Fin 1))) = ix1 (0 : Fin 1) := funext fun a => by
    match a with
    | ⟨0, _⟩ => rfl
  simp only [el, er, eb, hh]
  rfl

/-- The word of the constant one is the number one. -/
theorem ofBits_one : Ideal.ofBits .f32 0x3F800000#32 = 1 := by
  simp [Ideal.ofBits, Ideal.ieee, -EReal.coe_mul]; norm_num

/-- Negate, exponentiate, add one, divide one by it: the logistic function of the third layer's output. -/
theorem logistic_eq (p : Fin 8388608) :
    val_main_v77 (F := Ideal) x0 x1 x2 x3 x4 x5 x6 x7 x8 x9 (ix2 p (0 : Fin 1))
      = Ideal.logistic (val_main_v71 (F := Ideal) x0 x1 x2 x3 x4 x5 x6 x7 x8 x9 (ix2 p (0 : Fin 1))) := by
  rw [val_main_v77_apply, val_main_v76_apply, val_main_cst_9_apply, val_main_v75_apply, val_main_v74_apply,
    val_main_cst_apply, val_main_v73_apply, val_main_v72_apply]
  generalize val_main_v71 (F := Ideal) x0 x1 x2 x3 x4 x5 x6 x7 x8 x9 (ix2 p (0 : Fin 1)) = y
  show FloatOps.hostDivf (Ideal.ofBits .f32 0x3F800000#32)
      (FloatOps.addf (Ideal.ofBits .f32 0x3F800000#32) (FloatOps.hostUnary .exp (FloatOps.hostNegf y))) = Ideal.logistic y
  rw [ofBits_one]
  rfl

/-- The flattened pixel of instance i, window pixel (r, q). -/
abbrev flat (i : Fin 512) (r q : Fin 128) : Fin 8388608 :=
  ⟨i.val * 16384 + r.val * 128 + q.val, by have := i.isLt; have := r.isLt; have := q.isLt; omega⟩

theorem pI_flat (i : Fin 512) (r q : Fin 128) : pI (flat i r q) = i :=
  Fin.ext (by have := i.isLt; have := r.isLt; have := q.isLt; show (i.val * 16384 + r.val * 128 + q.val) / 16384 = i.val; omega)
theorem pR_flat (i : Fin 512) (r q : Fin 128) : pR (flat i r q) = r :=
  Fin.ext (by have := i.isLt; have := r.isLt; have := q.isLt; show (i.val * 16384 + r.val * 128 + q.val) / 128 % 128 = r.val; omega)
theorem pQ_flat (i : Fin 512) (r q : Fin 128) : pQ (flat i r q) = q :=
  Fin.ext (by have := i.isLt; have := r.isLt; have := q.isLt; show (i.val * 16384 + r.val * 128 + q.val) % 128 = q.val; omega)

/-- The result tensor at instance i, window pixel (r, q): the specification's probability. -/
theorem out_apply (i : Fin 512) (b : Fin 1) (r q : Fin 128) :
    val_main_v78 (F := Ideal) x0 x1 x2 x3 x4 x5 x6 x7 x8 x9 (ix4 i b r q)
      = Cert.Spec.prob x0 x1 x2 x3 x4 x5 x6 x7 x8 x9 (ix4 i b r q) := by
  rw [val_main_v78_apply]
  have e : idx_main_v78 (ix4 i b r q) = ix2 (flat i r q) (0 : Fin 1) := by
    funext a; refine Fin.ext ?_
    match a with
    | ⟨0, _⟩ =>
      have := i.isLt; have := r.isLt; have := q.isLt; have := b.isLt
      show (((i.val * 1 + b.val) * 128 + r.val) * 128 + q.val) / 1 = i.val * 16384 + r.val * 128 + q.val
      omega
    | ⟨1, _⟩ => rfl
  have h1 : ∀ c : Fin 16, val_main_v62 (F := Ideal) x0 x1 x2 x3 x4 x9 (ix2 (flat i r q) c)
      = max (Cert.Spec.affine (Cert.Spec.feat x0 x1 x2 x9 i r q) x3 x4 c) 0 := fun c =>
    layer1_eq x0 x1 x2 x3 x4 x9 (flat i r q) _ (fun k => by
      rw [featRow_eq, pI_flat, pR_flat, pQ_flat]) c
  have h2 := fun c => layer2_eq x0 x1 x2 x3 x4 x5 x6 x9 (flat i r q) _ h1 c
  have h3 := layer3_eq x0 x1 x2 x3 x4 x5 x6 x7 x8 x9 (flat i r q) _ h2
  rw [e, logistic_eq, h3]
  rfl

/-- The result tensor is the specification's probability map. -/
theorem out_val_eq :
    val_main_v78 (F := Ideal) x0 x1 x2 x3 x4 x5 x6 x7 x8 x9 = Cert.Spec.prob x0 x1 x2 x3 x4 x5 x6 x7 x8 x9 := by
  funext j
  rw [eq_ix4 j]
  exact out_apply x0 x1 x2 x3 x4 x5 x6 x7 x8 x9 (j 0) (j 1) (j 2) (j 3)

end Net

end Cert.ReferenceIdeal.RefRun

end
-- ==== Proof.RefRun.lean ====
/-
  The reference program's run and what it computes: every weakly fair execution ends with result 0 at the last
  stage of the arguments, and at the ideal values that stage is the specification's probability map.
-/
import proofs.«401130_j54125177864461_3_alg».proof.Proof.RefRun.Run
import proofs.«401130_j54125177864461_3_alg».proof.Proof.RefRun.Value

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Result 0 of the reference program, at the ideal values, is the specification's probability map of its arguments. -/
theorem out0_spec (m : (ℓ : Loc nD τ sig) → Buf (Elt Ideal) ℓ) (c : Dev nD) :
    out0 (F := Ideal) m c
      = Cert.Spec.prob (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  out_val_eq _ _ _ _ _ _ _ _ _ _

end Cert.ReferenceIdeal.RefRun

end
-- ==== Proof.lean ====
/-
  The certificate's claims assembled.

  Both kernel programs (the word-level one and its idealization, which the ideal pass left textually alone:
  the ledger is empty) run the same way: host lines clamp the centroids into two tables of crop origins, the
  region's body at instance `i` copies the 128 × 128 window of the seven image channels at those origins into
  scratch, waits for both copies, and stores the per-pixel network's block; host lines then write the coordinate
  table. The window fits for every centroid word because the clamp keeps an origin within [0, 896], which is the
  only thing the body assumes; so each frame holds under no condition on the inputs.

  For the value claim both programs end with the probability map at one function of the arguments (the
  specification: crop, subtract the descriptor, two affine layers with a maximum against zero, one affine layer,
  the logistic function — the kernel's matrix unit into a zero accumulator and the host's contraction are the
  same sums over the extended reals, the narrowing to bf16 is the identity there, and the kernel's logistic is the
  host's 1 / (1 + e^(-z))), and with the coordinate table at one function of the centroids.
-/
import proofs.«401130_j54125177864461_3_alg».proof.Defs
import proofs.«401130_j54125177864461_3_alg».proof.Proof.Gen.Kernel
import proofs.«401130_j54125177864461_3_alg».proof.Proof.Gen.KernelIdeal
import proofs.«401130_j54125177864461_3_alg».proof.Proof.Gen.ReferenceIdeal
import proofs.«401130_j54125177864461_3_alg».proof.Proof.Gen.Pre_finite_inputs
import proofs.«401130_j54125177864461_3_alg».proof.Proof.FrameK.Frame
import proofs.«401130_j54125177864461_3_alg».proof.Proof.FrameK.Tables
import proofs.«401130_j54125177864461_3_alg».proof.Proof.FrameKI.Frame
import proofs.«401130_j54125177864461_3_alg».proof.Proof.FrameKI.Tables
import proofs.«401130_j54125177864461_3_alg».proof.Proof.KRun
import proofs.«401130_j54125177864461_3_alg».proof.Proof.RefRun
import proofs.«401130_j54125177864461_3_alg».proof.Proof.Tail
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_p : Cert.frame_Kernel := fun m ρ _ =>
  Cert.Kernel.Frame.frame (F := Bits) m ρ (fun c t => Cert.Kernel.Frame.chk_of_tables m c t)

/-- So does its idealization. -/
theorem frame_pi : Cert.frame_KernelIdeal := fun m ρ _ =>
  Cert.KernelIdeal.Frame.frame (F := Ideal) m ρ (fun c t => Cert.KernelIdeal.Frame.chk_of_tables m c t)

/-- The reference is host operations only: its run, with the results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- Run from memories that agree on the arguments, the two idealized programs end with equal results. -/
theorem algebraic : Cert.algebraic_KernelIdeal_ReferenceIdeal := by
  intro m ρ m' ρ' _ hagree
  refine ⟨fun c => Cert.Spec.prob (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.Tail.coords (m ((c.tc : Thread Cert.KernelIdeal.nD Cert.KernelIdeal.τ).loc Cert.KernelIdeal.main_arg9)), Cert.KernelIdeal.KRun.run m ρ, ?_⟩
  refine (θ_run Cert.ReferenceIdeal.defs _ _).mono (fun _ h c => ⟨?_, ?_, (h c).2.2⟩)
    (Cert.ReferenceIdeal.RefRun.run (F := Ideal) m' ρ')
  · refine (h c).1.trans ?_
    refine (Cert.ReferenceIdeal.RefRun.out0_spec m' c).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
  · refine (h c).2.1.trans ?_
    rw [(hagree c).2.2.2.2.2.2.2.2.2]
    exact (Cert.Tail.coords_eq _).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
